-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x81 : Shape := ⟨2, ![262144, 81]⟩
abbrev S262144x320 : Shape := ⟨2, ![262144, 320]⟩
abbrev S262144 : Shape := ⟨1, ![262144]⟩
abbrev S262144x4 : Shape := ⟨2, ![262144, 4]⟩
abbrev S_ : Shape := ⟨0, ![]⟩

class Facts : Prop where
  bcast_S_S262144x81 : S_.BroadcastsInDim S262144x81 (![] : Fin 0 → Fin S262144x81.rank)
  reducesTo_S262144x81_S_d0_1 : S262144x81.ReducesTo [0, 1] S_
  h_S_ : 0 < S_.numel
  bcast_S_S262144x320 : S_.BroadcastsInDim S262144x320 (![] : Fin 0 → Fin S262144x320.rank)
  reducesTo_S262144x320_S_d0_1 : S262144x320.ReducesTo [0, 1] S_
  bcast_S_S262144x4 : S_.BroadcastsInDim S262144x4 (![] : Fin 0 → Fin S262144x4.rank)
  reducesTo_S262144x4_S_d0_1 : S262144x4.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg2 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .sle main_arg2 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  main_v20

def fn {F : FTy → Type} [FloatOps F] (main_arg0 : FVec F S262144x81 .f32) (main_arg1 : FVec F S262144x320 .f32) (main_arg2 : IVec S262144 32) (main_arg3 : FVec F S262144x4 .f32) : IVec S_ 1 :=
  let main_v0 : FVec F S262144x81 .f32 := Host.absf main_arg0
  let main_cst : FVec F S_ .f32 := constant S_ .f32 0x7F800000#32
  let main_v1 : FVec F S262144x81 .f32 := broadcastInDim S262144x81 ![] bcast_S_S262144x81 main_cst
  let main_v2 : IVec S262144x81 1 := cmpf .olt main_v0 main_v1
  let main_c : IVec S_ 1 := constantI S_ 1 1#1
  let main_v3 : IVec S_ 1 := (fun x v => Host.reduce IntOp.andi x v reducesTo_S262144x81_S_d0_1 h_S_) main_v2 main_c
  let main_v4 : FVec F S262144x320 .f32 := Host.absf main_arg1
  let main_cst_0 : FVec F S_ .f32 := constant S_ .f32 0x7F800000#32
  let main_v5 : FVec F S262144x320 .f32 := broadcastInDim S262144x320 ![] bcast_S_S262144x320 main_cst_0
  let main_v6 : IVec S262144x320 1 := cmpf .olt main_v4 main_v5
  let main_c_1 : IVec S_ 1 := constantI S_ 1 1#1
  let main_v7 : IVec S_ 1 := (fun x v => Host.reduce IntOp.andi x v reducesTo_S262144x320_S_d0_1 h_S_) main_v6 main_c_1
  let main_v8 : IVec S_ 1 := andi main_v3 main_v7
  let main_v9 : FVec F S262144x4 .f32 := Host.absf main_arg3
  let main_cst_2 : FVec F S_ .f32 := constant S_ .f32 0x7F800000#32
  let main_v10 : FVec F S262144x4 .f32 := broadcastInDim S262144x4 ![] bcast_S_S262144x4 main_cst_2
  let main_v11 : IVec S262144x4 1 := cmpf .olt main_v9 main_v10
  let main_c_3 : IVec S_ 1 := constantI S_ 1 1#1
  let main_v12 : IVec S_ 1 := (fun x v => Host.reduce IntOp.andi x v reducesTo_S262144x4_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg2 main_v14
  let main_c_5 : IVec S_ 32 := constantI S_ 32 80#32
  fn_part1 (F := F) main_arg2 main_v13 main_v15 main_c_5
-- ==== Kernel.lean ====
abbrev S262144x81 : Shape := ⟨2, ![262144, 81]⟩
abbrev S262144x320 : Shape := ⟨2, ![262144, 320]⟩
abbrev S262144 : Shape := ⟨1, ![262144]⟩
abbrev S262144x4 : Shape := ⟨2, ![262144, 4]⟩
abbrev S2x1x128 : Shape := ⟨3, ![2, 1, 128]⟩
abbrev S4096x81 : Shape := ⟨2, ![4096, 81]⟩
abbrev S4096x320 : Shape := ⟨2, ![4096, 320]⟩
abbrev S4096 : Shape := ⟨1, ![4096]⟩
abbrev S4096x4 : Shape := ⟨2, ![4096, 4]⟩
abbrev S1x1x128 : Shape := ⟨3, ![1, 1, 128]⟩
abbrev S1x1 : Shape := ⟨2, ![1, 1]⟩
abbrev S4096x1 : Shape := ⟨2, ![4096, 1]⟩
abbrev S1 : Shape := ⟨1, ![1]⟩
abbrev S4096x160 : Shape := ⟨2, ![4096, 160]⟩
abbrev S4096x80 : Shape := ⟨2, ![4096, 80]⟩
abbrev S4096x40 : Shape := ⟨2, ![4096, 40]⟩
abbrev S4096x20 : Shape := ⟨2, ![4096, 20]⟩
abbrev S2x1x1 : Shape := ⟨3, ![2, 1, 1]⟩
abbrev S2 : Shape := ⟨1, ![2]⟩
abbrev S_ : Shape := ⟨0, ![]⟩

abbrev nBuf : Space → Nat
  | .hbm => 32
  | .vmem => 17
  | .smem => 0
  | _ => 0

abbrev bufTy : (tb : Table) → Fin (tcTables nBuf tb) → BufTy
  | .hbm, ⟨0, _⟩ => ⟨S262144x81, .f32⟩
  | .hbm, ⟨1, _⟩ => ⟨S262144x320, .f32⟩
  | .hbm, ⟨2, _⟩ => ⟨S262144, .i32⟩
  | .hbm, ⟨3, _⟩ => ⟨S262144x4, .f32⟩
  | .hbm, ⟨4, _⟩ => ⟨S2x1x128, .f32⟩
  | .hbm, ⟨5, _⟩ => ⟨S2x1x128, .f32⟩
  | .hbm, ⟨6, _⟩ => ⟨S2x1x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S2x1x1, .f32⟩
  | .hbm, ⟨16, _⟩ => ⟨S2, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S4096x81, .f32⟩
  | .local _ .vmem, ⟨1, _⟩ => ⟨S4096x81, .f32⟩
  | .local _ .vmem, ⟨2, _⟩ => ⟨S4096x320, .f32⟩
  | .local _ .vmem, ⟨3, _⟩ => ⟨S4096x320, .f32⟩
  | .local _ .vmem, ⟨4, _⟩ => ⟨S4096, .i32⟩
  | .local _ .vmem, ⟨5, _⟩ => ⟨S4096, .i32⟩
  | .local _ .vmem, ⟨6, _⟩ => ⟨S4096x4, .f32⟩
  | .local _ .vmem, ⟨7, _⟩ => ⟨S4096x4, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | _, _ => ⟨S262144x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v121 : BitVec 1 := Scalar.cmpi .eq arg1 c31_i32
  let v122 : BitVec 32 := Scalar.extui v121
  let c0_i32_39 : BitVec 32 := 0#32
  let v123 : BitVec 1 := Scalar.cmpi .ne v122 c0_i32_39
  v123

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x81_S4096x81_0_0 : ∀ a, (![0, 0] : Fin 2 → Nat) a + S4096x81.size a ≤ S4096x81.size a
  h_S4096x81 : 0 < S4096x81.numel
  inb_S4096x320_S4096x320_0_0 : ∀ a, (![0, 0] : Fin 2 → Nat) a + S4096x320.size a ≤ S4096x320.size a
  h_S4096x320 : 0 < S4096x320.numel
  inb_S4096_S4096_0 : ∀ a, (![0] : Fin 1 → Nat) a + S4096.size a ≤ S4096.size a
  h_S4096 : 0 < S4096.numel
  inb_S4096x4_S4096x4_0_0 : ∀ a, (![0, 0] : Fin 2 → Nat) a + S4096x4.size a ≤ S4096x4.size a
  h_S4096x4 : 0 < S4096x4.numel
  shapeCasts_S4096_S4096x1 : S4096.ShapeCasts S4096x1
  reduces_S4096x81_S4096 : S4096x81.Reduces [1] S4096
  broadcasts_S4096x1_S4096x81 : S4096x1.Broadcasts S4096x81
  iota_S4096x81_d1_w32 : S4096x81.Iotas .tc 32 [1]
  reduces_S4096x1_S1 : S4096x1.Reduces [0] S1
  shapeCasts_S1_S1x1 : S1.ShapeCasts S1x1
  iota_S4096x320_d1_w32 : S4096x320.Iotas .tc 32 [1]
  natLt_1_32 : 1 < 32
  broadcasts_S4096x1_S4096x320 : S4096x1.Broadcasts S4096x320
  slices_S4096x320_o0_0_S4096x160 : S4096x320.Slices ![0, 0] S4096x160
  slices_S4096x320_o0_160_S4096x160 : S4096x320.Slices ![0, 160] S4096x160
  slices_S4096x160_o0_0_S4096x80 : S4096x160.Slices ![0, 0] S4096x80
  slices_S4096x160_o0_80_S4096x80 : S4096x160.Slices ![0, 80] S4096x80
  slices_S4096x80_o0_0_S4096x40 : S4096x80.Slices ![0, 0] S4096x40
  slices_S4096x80_o0_40_S4096x40 : S4096x80.Slices ![0, 40] S4096x40
  slices_S4096x40_o0_0_S4096x20 : S4096x40.Slices ![0, 0] S4096x20
  slices_S4096x40_o0_20_S4096x20 : S4096x40.Slices ![0, 20] S4096x20
  slices_S4096x20_o0_0_S4096x4 : S4096x20.Slices ![0, 0] S4096x4
  slices_S4096x20_o0_4_S4096x4 : S4096x20.Slices ![0, 4] S4096x4
  slices_S4096x20_o0_8_S4096x4 : S4096x20.Slices ![0, 8] S4096x4
  slices_S4096x20_o0_12_S4096x4 : S4096x20.Slices ![0, 12] S4096x4
  slices_S4096x20_o0_16_S4096x4 : S4096x20.Slices ![0, 16] S4096x4
  reduces_S4096x4_S4096 : S4096x4.Reduces [1] S4096
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x81.size a ≤ S262144x81.size a
  hwx0_0 : ∀ i : grid0.Coords, EltTy.bits .f32 = 32 ∨ (Rect.block (s := S262144x81) S4096x81.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x320.size a ≤ S262144x320.size a
  hwx0_1 : ∀ i : grid0.Coords, EltTy.bits .f32 = 32 ∨ (Rect.block (s := S262144x320) S4096x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S262144.size a
  hwx0_2 : ∀ i : grid0.Coords, EltTy.bits .i32 = 32 ∨ (Rect.block (s := S262144) S4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x4.size a ≤ S262144x4.size a
  hwx0_3 : ∀ i : grid0.Coords, EltTy.bits .f32 = 32 ∨ (Rect.block (s := S262144x4) S4096x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)

variable [Facts₀]

abbrev win0_0 : Pipeline.Window sig grid0 :=
  Pipeline.Window.ofSpec (Memref.whole main_arg0) S4096x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S262144x81 : Shape := ⟨2, ![262144, 81]⟩
abbrev S262144x320 : Shape := ⟨2, ![262144, 320]⟩
abbrev S262144 : Shape := ⟨1, ![262144]⟩
abbrev S262144x4 : Shape := ⟨2, ![262144, 4]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S4 : Shape := ⟨1, ![4]⟩
abbrev S1x4 : Shape := ⟨2, ![1, 4]⟩
abbrev S262144x4x1 : Shape := ⟨3, ![262144, 4, 1]⟩

abbrev nBuf : Space → Nat
  | .hbm => 122
  | .vmem => 0
  | .smem => 0
  | _ => 0

abbrev bufTy : (tb : Table) → Fin (tcTables nBuf tb) → BufTy
  | .hbm, ⟨0, _⟩ => ⟨S262144x81, .f32⟩
  | .hbm, ⟨1, _⟩ => ⟨S262144x320, .f32⟩
  | .hbm, ⟨2, _⟩ => ⟨S262144, .i32⟩
  | .hbm, ⟨3, _⟩ => ⟨S262144x4, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S262144, .f32⟩
  | .hbm, ⟨8, _⟩ => ⟨S262144, .f32⟩
  | .hbm, ⟨9, _⟩ => ⟨S262144x1, .f32⟩
  | .hbm, ⟨10, _⟩ => ⟨S262144x81, .f32⟩
  | .hbm, ⟨11, _⟩ => ⟨S262144x81, .f32⟩
  | .hbm, ⟨12, _⟩ => ⟨S262144x81, .f32⟩
  | .hbm, ⟨13, _⟩ => ⟨S_, .f32⟩
  | .hbm, ⟨14, _⟩ => ⟨S262144, .f32⟩
  | .hbm, ⟨15, _⟩ => ⟨S262144x1, .f32⟩
  | .hbm, ⟨16, _⟩ => ⟨S262144x1, .f32⟩
  | .hbm, ⟨17, _⟩ => ⟨S262144x81, .f32⟩
  | .hbm, ⟨18, _⟩ => ⟨S262144x81, .f32⟩
  | .hbm, ⟨19, _⟩ => ⟨S262144x1, .i32⟩
  | .hbm, ⟨20, _⟩ => ⟨S_, .i32⟩
  | .hbm, ⟨21, _⟩ => ⟨S262144x1, .i32⟩
  | .hbm, ⟨22, _⟩ => ⟨S262144x1, .i1⟩
  | .hbm, ⟨23, _⟩ => ⟨S_, .i32⟩
  | .hbm, ⟨24, _⟩ => ⟨S262144x1, .i32⟩
  | .hbm, ⟨25, _⟩ => ⟨S262144x1, .i32⟩
  | .hbm, ⟨26, _⟩ => ⟨S262144x1, .i32⟩
  | .hbm, ⟨27, _⟩ => ⟨S262144x1x1, .i32⟩
  | .hbm, ⟨28, _⟩ => ⟨S1, .i32⟩
  | .hbm, ⟨29, _⟩ => ⟨S_, .i32⟩
  | .hbm, ⟨30, _⟩ => ⟨S262144x1x1, .i32⟩
  | .hbm, ⟨31, _⟩ => ⟨S262144x1x1, .i1⟩
  | .hbm, ⟨32, _⟩ => ⟨S1x1x1, .i32⟩
  | .hbm, ⟨33, _⟩ => ⟨S262144x1x1, .i32⟩
  | .hbm, ⟨34, _⟩ => ⟨S262144x1x1, .i1⟩
  | .hbm, ⟨35, _⟩ => ⟨S262144x1x1, .i1⟩
  | .hbm, ⟨36, _⟩ => ⟨S_, .i1⟩
  | .hbm, ⟨37, _⟩ => ⟨S262144x1, .i1⟩
  | .hbm, ⟨38, _⟩ => ⟨S262144x1, .f32⟩
  | .hbm, ⟨39, _⟩ => ⟨S_, .f32⟩
  | .hbm, ⟨40, _⟩ => ⟨S262144x1, .f32⟩
  | .hbm, ⟨41, _⟩ => ⟨S262144x1, .f32⟩
  | .hbm, ⟨42, _⟩ => ⟨S262144, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S_, .i32⟩
  | .hbm, ⟨55, _⟩ => ⟨S_, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S_, .i32⟩
  | .hbm, ⟨60, _⟩ => ⟨S262144x1, .i32⟩
  | .hbm, ⟨61, _⟩ => ⟨S262144x1, .i32⟩
  | .hbm, ⟨62, _⟩ => ⟨S4, .i32⟩
  | .hbm, ⟨63, _⟩ => ⟨S1x4, .i32⟩
  | .hbm, ⟨64, _⟩ => ⟨S262144x4, .i32⟩
  | .hbm, ⟨65, _⟩ => ⟨S262144x4, .i32⟩
  | .hbm, ⟨66, _⟩ => ⟨S262144x4, .i32⟩
  | .hbm, ⟨67, _⟩ => ⟨S_, .i32⟩
  | .hbm, ⟨68, _⟩ => ⟨S262144x4, .i32⟩
  | .hbm, ⟨69, _⟩ => ⟨S262144x4, .i1⟩
  | .hbm, ⟨70, _⟩ => ⟨S_, .i32⟩
  | .hbm, ⟨71, _⟩ => ⟨S262144x4, .i32⟩
  | .hbm, ⟨72, _⟩ => ⟨S262144x4, .i32⟩
  | .hbm, ⟨73, _⟩ => ⟨S262144x4, .i32⟩
  | .hbm, ⟨74, _⟩ => ⟨S262144x4x1, .i32⟩
  | .hbm, ⟨75, _⟩ => ⟨S1, .i32⟩
  | .hbm, ⟨76, _⟩ => ⟨S_, .i32⟩
  | .hbm, ⟨77, _⟩ => ⟨S262144x4x1, .i32⟩
  | .hbm, ⟨78, _⟩ => ⟨S262144x4x1, .i1⟩
  | .hbm, ⟨79, _⟩ => ⟨S1x1x1, .i32⟩
  | .hbm, ⟨80, _⟩ => ⟨S262144x4x1, .i32⟩
  | .hbm, ⟨81, _⟩ => ⟨S262144x4x1, .i1⟩
  | .hbm, ⟨82, _⟩ => ⟨S262144x4x1, .i1⟩
  | .hbm, ⟨83, _⟩ => ⟨S_, .i1⟩
  | .hbm, ⟨84, _⟩ => ⟨S262144x4, .i1⟩
  | .hbm, ⟨85, _⟩ => ⟨S262144x4, .f32⟩
  | .hbm, ⟨86, _⟩ => ⟨S_, .f32⟩
  | .hbm, ⟨87, _⟩ => ⟨S262144x4, .f32⟩
  | .hbm, ⟨88, _⟩ => ⟨S262144x4, .f32⟩
  | .hbm, ⟨89, _⟩ => ⟨S262144x4, .f32⟩
  | .hbm, ⟨90, _⟩ => ⟨S262144x4, .f32⟩
  | .hbm, ⟨91, _⟩ => ⟨S_, .f32⟩
  | .hbm, ⟨92, _⟩ => ⟨S262144x4, .f32⟩
  | .hbm, ⟨93, _⟩ => ⟨S262144x4, .i1⟩
  | .hbm, ⟨94, _⟩ => ⟨S_, .f32⟩
  | .hbm, ⟨95, _⟩ => ⟨S262144x4, .f32⟩
  | .hbm, ⟨96, _⟩ => ⟨S262144x4, .f32⟩
  | .hbm, ⟨97, _⟩ => ⟨S262144x4, .f32⟩
  | .hbm, ⟨98, _⟩ => ⟨S_, .f32⟩
  | .hbm, ⟨99, _⟩ => ⟨S262144x4, .f32⟩
  | .hbm, ⟨100, _⟩ => ⟨S262144x4, .f32⟩
  | .hbm, ⟨101, _⟩ => ⟨S262144x4, .f32⟩
  | .hbm, ⟨102, _⟩ => ⟨S262144, .f32⟩
  | .hbm, ⟨103, _⟩ => ⟨S262144x1, .f32⟩
  | .hbm, ⟨104, _⟩ => ⟨S262144x4, .f32⟩
  | .hbm, ⟨105, _⟩ => ⟨S262144x4, .f32⟩
  | .hbm, ⟨106, _⟩ => ⟨S_, .f32⟩
  | .hbm, ⟨107, _⟩ => ⟨S_, .f32⟩
  | .hbm, ⟨108, _⟩ => ⟨S262144, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .f32⟩
  | .hbm, ⟨114, _⟩ => ⟨S_, .i32⟩
  | .hbm, ⟨115, _⟩ => ⟨S_, .i1⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S262144x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_cst_0 : Ref sig .tc := ⟨.hbm, 45, rfl⟩
abbrev main_v5 : Ref sig .tc := ⟨.hbm, 46, rfl⟩
abbrev main_v6 : Ref sig .tc := ⟨.hbm, 47, rfl⟩
abbrev main_c : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_v9 : Ref sig .tc := ⟨.hbm, 52, rfl⟩
abbrev main_v10 : Ref sig .tc := ⟨.hbm, 53, rfl⟩
abbrev main_c_2 : Ref sig .tc := ⟨.hbm, 54, rfl⟩
abbrev main_call2_v0 : Ref sig .tc := ⟨.hbm, 55, rfl⟩
abbrev main_call2_v1 : Ref sig .tc := ⟨.hbm, 56, rfl⟩
abbrev main_v11 : Ref sig .tc := ⟨.hbm, 57, rfl⟩
abbrev main_v12 : Ref sig .tc := ⟨.hbm, 58, rfl⟩
abbrev main_c_3 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_cst : Ref sig .tc := ⟨.hbm, 86, rfl⟩
abbrev main_call3_v14 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_cst_4 : Ref sig .tc := ⟨.hbm, 91, rfl⟩
abbrev main_v23 : Ref sig .tc := ⟨.hbm, 92, rfl⟩
abbrev main_v24 : Ref sig .tc := ⟨.hbm, 93, rfl⟩
abbrev main_cst_5 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_cst_6 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_cst_7 : Ref sig .tc := ⟨.hbm, 106, rfl⟩
abbrev main_v35 : Ref sig .tc := ⟨.hbm, 107, rfl⟩
abbrev main_v36 : Ref sig .tc := ⟨.hbm, 108, rfl⟩
abbrev main_c_8 : Ref sig .tc := ⟨.hbm, 109, rfl⟩
abbrev main_v37 : Ref sig .tc := ⟨.hbm, 110, rfl⟩
abbrev main_c_9 : Ref sig .tc := ⟨.hbm, 111, rfl⟩
abbrev main_v38 : Ref sig .tc := ⟨.hbm, 112, rfl⟩
abbrev main_v39 : Ref sig .tc := ⟨.hbm, 113, rfl⟩
abbrev main_c_10 : Ref sig .tc := ⟨.hbm, 114, rfl⟩
abbrev main_v40 : Ref sig .tc := ⟨.hbm, 115, rfl⟩
abbrev main_v41 : Ref sig .tc := ⟨.hbm, 116, rfl⟩
abbrev main_cst_11 : Ref sig .tc := ⟨.hbm, 117, rfl⟩
abbrev main_v42 : Ref sig .tc := ⟨.hbm, 118, rfl⟩
abbrev main_cst_12 : Ref sig .tc := ⟨.hbm, 119, rfl⟩
abbrev main_v43 : Ref sig .tc := ⟨.hbm, 120, rfl⟩
abbrev main_v44 : Ref sig .tc := ⟨.hbm, 121, rfl⟩

abbrev nD : Nat := 1
abbrev τ : Topo := Topo.v7x

variable {F : FTy → Type} [FloatOps F]

class Facts₀ : Prop where
  reducesTo_S262144x81_S262144_d1 : S262144x81.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x81_0_1 : S262144x1.BroadcastsInDim S262144x81 (![0, 1] : Fin 2 → Fin S262144x81.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  reducesTo_S262144_S_d0 : S262144.ReducesTo [0] S_
  bcast_S4_S1x4_1 : S4.BroadcastsInDim S1x4 (![1] : Fin 1 → Fin S1x4.rank)
  bcast_S262144x1_S262144x4_0_1 : S262144x1.BroadcastsInDim S262144x4 (![0, 1] : Fin 2 → Fin S262144x4.rank)
  bcast_S1x4_S262144x4_0_1 : S1x4.BroadcastsInDim S262144x4 (![0, 1] : Fin 2 → Fin S262144x4.rank)
  bcast_S_S262144x4 : S_.BroadcastsInDim S262144x4 (![] : Fin 0 → Fin S262144x4.rank)
  shapeCasts_S262144x4_S262144x4x1 : S262144x4.ShapeCasts S262144x4x1
  bcast_S_S262144x4x1 : S_.BroadcastsInDim S262144x4x1 (![] : Fin 0 → Fin S262144x4x1.rank)
  bcast_S1x1x1_S262144x4x1_0_1_2 : S1x1x1.BroadcastsInDim S262144x4x1 (![0, 1, 2] : Fin 3 → Fin S262144x4x1.rank)
  reducesTo_S262144x4x1_S262144x4_d2 : S262144x4x1.ReducesTo [2] S262144x4
  reducesTo_S262144x4_S_d0_1 : S262144x4.ReducesTo [0, 1] S_
  natLt_1_32 : 1 < 32
  gather_S262144x81_S262144x1x1_S262144x1_n_1_0_0_1_2_11_wf : GatherDims.WF S262144x81 S262144x1x1 S262144x1 [] [1] [0] [1] [0] 2 ![1, 1]
  gather_S262144x320_S262144x4x1_S262144x4_n_1_0_0_1_2_11_wf : GatherDims.WF S262144x320 S262144x4x1 S262144x4 [] [1] [0] [1] [0] 2 ![1, 1]

variable [Facts₀]

def gather_S262144x81_S262144x1x1_S262144x1_n_1_0_0_1_2_11 : GatherDims S262144x81 S262144x1x1 S262144x1 where
  offsetDims := []
  collapsedSliceDims := [1]
  operandBatchingDims := [0]
  startIndicesBatchingDims := [0]
  startIndexMap := [1]
  indexVectorDim := 2
  sliceSizes := ![1, 1]
  wf := gather_S262144x81_S262144x1x1_S262144x1_n_1_0_0_1_2_11_wf
def gather_S262144x320_S262144x4x1_S262144x4_n_1_0_0_1_2_11 : GatherDims S262144x320 S262144x4x1 S262144x4 where
  offsetDims := []
  collapsedSliceDims := [1]
  operandBatchingDims := [0]
  startIndicesBatchingDims := [0]
  startIndexMap := [1]
  indexVectorDim := 2
  sliceSizes := ![1, 1]
  wf := gather_S262144x320_S262144x4x1_S262144x4_n_1_0_0_1_2_11_wf

class Facts : Prop extends Facts₀ where

variable [Facts]
-- ==== Proof.RefStages.lean ====
/-
  The reference's run, stretch by stretch.

  @main is a straight line of 118 host operations: the log-softmax; the label's log-probability gathered and averaged; the class
  columns; the class box gathered; the smooth-L1 terms masked and summed; the foreground count and the closing arithmetic. Cut into
  stretches, each stretch maps the buffers it reads to the buffers later stretches read, and the values are the stages of the
  read-at-an-index module. A buffer no operation of a stretch writes keeps its contents through it. The operations of an inlined
  function read and write their buffers through a typed reference; writing and reading back through one is the identity, and the
  stretches are cut where such operations meet the plain ones, so that at most one such transport is left around a value.
-/
import proofs.«419196_j81441169867202_3_alg».proof.Proof.RefRun
import proofs.«419196_j81441169867202_3_alg».proof.Proof.RefRead
import Idealize.ShloMosaic.Lib.StableHlo.Run

noncomputable section

namespace Cert.ReferenceIdeal.RefStages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Contents written through a typed reference and read back through it are the contents. -/
theorem ofBuf_toBuf {T : BufTy} (x : TRef sig T) (v : T.Contents (Elt F)) : x.ofBuf (x.toBuf v) = v := by
  obtain ⟨r, h, h1, h2⟩ := x
  subst h
  rfl

/-- Two lines run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first `a + n` operations are the first `a`, then the next `n`. -/
theorem after_take_add (l : List (HloOp τ sig (Elt F))) (a n : Nat) (V : Valuation τ sig (Elt F)) :
    after (l.take (a + n)) V = after ((l.drop a).take n) (after (l.take a) V) := by
  rw [List.take_add, after_append]

/-- A stretch evaluated: the stretch cut out of the list of operations, then each operation's result in its turn, a buffer an
    operation does not write keeping what it held; a value written and read back through a typed reference is the value. -/
local macro "eval_stretch" : tactic =>
  `(tactic| (simp only [ops, List.drop_succ_cons, List.drop_zero, List.take_succ_cons, List.take_zero]; after_results_simp;
             try simp only [ofBuf_toBuf]))

variable (W : Valuation τ sig (Elt F)) (X : (⟨S262144x81, .f32⟩ : BufTy).Contents (Elt F)) (B : (⟨S262144x320, .f32⟩ : BufTy).Contents (Elt F)) (T : (⟨S262144, .i32⟩ : BufTy).Contents (Elt F)) (Y : (⟨S262144x4, .f32⟩ : BufTy).Contents (Elt F))

/-! ## The stretches' values -/

set_option maxRecDepth 16384 in
set_option maxHeartbeats 4000000 in
/-- Operations 0–14: the log-softmax of the logits. -/
theorem st_lsm (h0 : (TRef.of (T := ⟨S262144x81, .f32⟩) main_arg0).ofBuf (W (Proc.devRef .tc main_arg0)) = X) :
    (TRef.of (T := ⟨S262144x81, .f32⟩) main_v0).ofBuf (after ((ops (F := F)).take 15) W (Proc.devRef .tc main_v0)) = val_main_v0 (F := F) X := by
  eval_stretch
  rw [h0]
  rfl

set_option maxRecDepth 16384 in
set_option maxHeartbeats 4000000 in
/-- Operation 15: the labels as a column. -/
theorem st_col (h2 : W (Proc.devRef .tc main_arg2) = T) :
    (TRef.of (T := ⟨S262144x1, .i32⟩) main_v1).ofBuf (after (((ops (F := F)).drop 15).take 1) W (Proc.devRef .tc main_v1)) = val_main_v1 (F := F) T := by
  eval_stretch
  rw [h2]
  rfl

set_option maxRecDepth 16384 in
set_option maxHeartbeats 4000000 in
/-- Operations 16–37: the label's log-probability gathered. -/
theorem st_pick (hv0 : (TRef.of (T := ⟨S262144x81, .f32⟩) main_v0).ofBuf (W (Proc.devRef .tc main_v0)) = val_main_v0 (F := F) X)
    (hv1 : (TRef.of (T := ⟨S262144x1, .i32⟩) main_v1).ofBuf (W (Proc.devRef .tc main_v1)) = val_main_v1 (F := F) T) :
    after (((ops (F := F)).drop 16).take 22) W (Proc.devRef .tc main_v2) = val_main_v2 (F := F) X T := by
  eval_stretch
  rw [hv0, hv1]
  refine (eq_of_heq (cast_heq _ _)).trans ?_
  rfl

set_option maxRecDepth 16384 in
set_option maxHeartbeats 4000000 in
/-- Operations 38–43: summed over the samples, divided by N, negated. -/
theorem st_mean (hv2 : W (Proc.devRef .tc main_v2) = val_main_v2 (F := F) X T) :
    after (((ops (F := F)).drop 38).take 6) W (Proc.devRef .tc main_v6) = val_main_v6 (F := F) X T := by
  eval_stretch
  rw [hv2]
  rfl

set_option maxRecDepth 16384 in
set_option maxHeartbeats 4000000 in
/-- Operations 44–62: the foreground mask … -/
theorem st_mask (h2 : W (Proc.devRef .tc main_arg2) = T) :
    after (((ops (F := F)).drop 44).take 19) W (Proc.devRef .tc main_v8) = val_main_v8 (F := F) T := by
  eval_stretch
  rw [h2]
  rfl

set_option maxRecDepth 16384 in
set_option maxHeartbeats 4000000 in
/-- … and the four columns of the label's class. -/
theorem st_cols (h2 : W (Proc.devRef .tc main_arg2) = T) :
    (TRef.of (T := ⟨S262144x4, .i32⟩) main_v19).ofBuf (after (((ops (F := F)).drop 44).take 19) W (Proc.devRef .tc main_v19)) = val_main_v19 (F := F) T := by
  eval_stretch
  rw [h2]
  rfl

set_option maxRecDepth 16384 in
set_option maxHeartbeats 4000000 in
/-- Operations 63–84: the class box gathered from the box row. -/
theorem st_box (h1 : (TRef.of (T := ⟨S262144x320, .f32⟩) main_arg1).ofBuf (W (Proc.devRef .tc main_arg1)) = B)
    (h19 : (TRef.of (T := ⟨S262144x4, .i32⟩) main_v19).ofBuf (W (Proc.devRef .tc main_v19)) = val_main_v19 (F := F) T) :
    after (((ops (F := F)).drop 63).take 22) W (Proc.devRef .tc main_v20) = val_main_v20 (F := F) B T := by
  eval_stretch
  rw [h1, h19]
  refine (eq_of_heq (cast_heq _ _)).trans ?_
  rfl

set_option maxRecDepth 16384 in
set_option maxHeartbeats 4000000 in
/-- Operations 85–103: the smooth-L1 terms, masked by the foreground indicator and summed. -/
theorem st_reg (h20 : W (Proc.devRef .tc main_v20) = val_main_v20 (F := F) B T) (h3 : W (Proc.devRef .tc main_arg3) = Y)
    (h8 : W (Proc.devRef .tc main_v8) = val_main_v8 (F := F) T) :
    after (((ops (F := F)).drop 85).take 19) W (Proc.devRef .tc main_v35) = val_main_v35 (F := F) B T Y := by
  eval_stretch
  rw [h20, h3, h8]
  rfl

set_option maxRecDepth 16384 in
set_option maxHeartbeats 4000000 in
/-- Operations 104–113: the foreground count, its guard … -/
theorem st_guard (h8 : W (Proc.devRef .tc main_v8) = val_main_v8 (F := F) T) :
    (TRef.of (T := ⟨S_, .i1⟩) main_v40).ofBuf (after (((ops (F := F)).drop 104).take 10) W (Proc.devRef .tc main_v40)) = val_main_v40 (F := F) T := by
  eval_stretch
  rw [h8]
  refine (eq_of_heq (cast_heq _ _)).trans ?_
  rfl

set_option maxRecDepth 16384 in
set_option maxHeartbeats 4000000 in
/-- … the quotient … -/
theorem st_quot (h35 : W (Proc.devRef .tc main_v35) = val_main_v35 (F := F) B T Y) (h8 : W (Proc.devRef .tc main_v8) = val_main_v8 (F := F) T) :
    (TRef.of (T := ⟨S_, .f32⟩) main_v41).ofBuf (after (((ops (F := F)).drop 104).take 10) W (Proc.devRef .tc main_v41)) = val_main_v41 (F := F) B T Y := by
  eval_stretch
  rw [h35, h8]
  rfl

set_option maxRecDepth 16384 in
set_option maxHeartbeats 4000000 in
/-- … and the zero it falls back to. -/
theorem st_zero :
    (TRef.of (T := ⟨S_, .f32⟩) main_cst_11).ofBuf (after (((ops (F := F)).drop 104).take 10) W (Proc.devRef .tc main_cst_11)) = val_main_cst_11 (F := F) := by
  eval_stretch
  rfl

set_option maxRecDepth 16384 in
set_option maxHeartbeats 4000000 in
/-- Operation 114: the regression loss. -/
theorem st_sel (h40 : (TRef.of (T := ⟨S_, .i1⟩) main_v40).ofBuf (W (Proc.devRef .tc main_v40)) = val_main_v40 (F := F) T)
    (h41 : (TRef.of (T := ⟨S_, .f32⟩) main_v41).ofBuf (W (Proc.devRef .tc main_v41)) = val_main_v41 (F := F) B T Y)
    (h11 : (TRef.of (T := ⟨S_, .f32⟩) main_cst_11).ofBuf (W (Proc.devRef .tc main_cst_11)) = val_main_cst_11 (F := F)) :
    after (((ops (F := F)).drop 114).take 1) W (Proc.devRef .tc main_v42) = val_main_v42 (F := F) B T Y := by
  eval_stretch
  rw [h40, h41, h11]
  refine (eq_of_heq (cast_heq _ _)).trans ?_
  rfl

set_option maxRecDepth 16384 in
set_option maxHeartbeats 4000000 in
/-- Operations 115–117: the total. -/
theorem st_total (h42 : W (Proc.devRef .tc main_v42) = val_main_v42 (F := F) B T Y) (h6 : W (Proc.devRef .tc main_v6) = val_main_v6 (F := F) X T) :
    after (((ops (F := F)).drop 115).take 3) W (Proc.devRef .tc main_v44) = val_main_v44 (F := F) X B T Y := by
  eval_stretch
  rw [h42, h6]
  rfl

/-! ## Buffers a stretch does not write -/

set_option maxRecDepth 16384 in
set_option maxHeartbeats 4000000 in
theorem keep_arg2_15 : after ((ops (F := F)).take 15) W (Proc.devRef .tc main_arg2) = W (Proc.devRef .tc main_arg2) := by eval_stretch
set_option maxRecDepth 16384 in
set_option maxHeartbeats 4000000 in
theorem keep_v0_col : after (((ops (F := F)).drop 15).take 1) W (Proc.devRef .tc main_v0) = W (Proc.devRef .tc main_v0) := by eval_stretch
set_option maxRecDepth 16384 in
set_option maxHeartbeats 4000000 in
theorem keep_arg2_44 : after ((ops (F := F)).take 44) W (Proc.devRef .tc main_arg2) = W (Proc.devRef .tc main_arg2) := by eval_stretch
set_option maxRecDepth 16384 in
set_option maxHeartbeats 4000000 in
theorem keep_arg1_63 : after ((ops (F := F)).take 63) W (Proc.devRef .tc main_arg1) = W (Proc.devRef .tc main_arg1) := by eval_stretch
set_option maxRecDepth 16384 in
set_option maxHeartbeats 4000000 in
theorem keep_arg3_85 : after ((ops (F := F)).take 85) W (Proc.devRef .tc main_arg3) = W (Proc.devRef .tc main_arg3) := by eval_stretch
set_option maxRecDepth 16384 in
set_option maxHeartbeats 4000000 in
theorem keep_v8_box : after (((ops (F := F)).drop 63).take 22) W (Proc.devRef .tc main_v8) = W (Proc.devRef .tc main_v8) := by eval_stretch
set_option maxRecDepth 16384 in
set_option maxHeartbeats 4000000 in
theorem keep_v8_reg : after (((ops (F := F)).drop 85).take 19) W (Proc.devRef .tc main_v8) = W (Proc.devRef .tc main_v8) := by eval_stretch
set_option maxRecDepth 16384 in
set_option maxHeartbeats 4000000 in
theorem keep_v6_mid : after (((ops (F := F)).drop 44).take 71) W (Proc.devRef .tc main_v6) = W (Proc.devRef .tc main_v6) := by eval_stretch
set_option maxRecDepth 16384 in
set_option maxHeartbeats 4000000 in
theorem keep_v6_total : after (((ops (F := F)).drop 115).take 3) W (Proc.devRef .tc main_v6) = W (Proc.devRef .tc main_v6) := by eval_stretch
set_option maxRecDepth 16384 in
set_option maxHeartbeats 4000000 in
theorem keep_v42_total : after (((ops (F := F)).drop 115).take 3) W (Proc.devRef .tc main_v42) = W (Proc.devRef .tc main_v42) := by eval_stretch
set_option maxRecDepth 16384 in
set_option maxHeartbeats 4000000 in
theorem keep_arg0 : after (ops (F := F)) W (Proc.devRef .tc main_arg0) = W (Proc.devRef .tc main_arg0) := by eval_stretch
set_option maxRecDepth 16384 in
set_option maxHeartbeats 4000000 in
theorem keep_arg1 : after (ops (F := F)) W (Proc.devRef .tc main_arg1) = W (Proc.devRef .tc main_arg1) := by eval_stretch
set_option maxRecDepth 16384 in
set_option maxHeartbeats 4000000 in
theorem keep_arg2 : after (ops (F := F)) W (Proc.devRef .tc main_arg2) = W (Proc.devRef .tc main_arg2) := by eval_stretch
set_option maxRecDepth 16384 in
set_option maxHeartbeats 4000000 in
theorem keep_arg3 : after (ops (F := F)) W (Proc.devRef .tc main_arg3) = W (Proc.devRef .tc main_arg3) := by eval_stretch

/-- The whole line is its first 118 operations. -/
theorem ops_eq_take : (ops (F := F)) = (ops (F := F)).take 118 := (List.take_of_length_le (Nat.le_of_eq rfl)).symm

/-! ## The three results -/

section Results

variable (V : Valuation τ sig (Elt F)) (h0 : V (Proc.devRef .tc main_arg0) = X) (h1 : V (Proc.devRef .tc main_arg1) = B)
  (h2 : V (Proc.devRef .tc main_arg2) = T) (h3 : V (Proc.devRef .tc main_arg3) = Y)

include h0 in
theorem at15_v0 : (TRef.of (T := ⟨S262144x81, .f32⟩) main_v0).ofBuf (after ((ops (F := F)).take 15) V (Proc.devRef .tc main_v0)) = val_main_v0 (F := F) X :=
  st_lsm V X (by subst h0; rfl)

include h0 h2 in
theorem at38_v2 : after ((ops (F := F)).take 38) V (Proc.devRef .tc main_v2) = val_main_v2 (F := F) X T := by
  rw [show (38 : Nat) = 16 + 22 from rfl, after_take_add]
  refine st_pick _ X T ?_ ?_
  · rw [show (16 : Nat) = 15 + 1 from rfl, after_take_add, keep_v0_col]
    exact at15_v0 X V h0
  · rw [show (16 : Nat) = 15 + 1 from rfl, after_take_add]
    exact st_col _ T ((keep_arg2_15 V).trans h2)

include h0 h2 in
theorem at44_v6 : after ((ops (F := F)).take 44) V (Proc.devRef .tc main_v6) = val_main_v6 (F := F) X T := by
  rw [show (44 : Nat) = 38 + 6 from rfl, after_take_add]
  exact st_mean _ X T (at38_v2 X T V h0 h2)

include h2 in
theorem at63_v8 : after ((ops (F := F)).take 63) V (Proc.devRef .tc main_v8) = val_main_v8 (F := F) T := by
  rw [show (63 : Nat) = 44 + 19 from rfl, after_take_add]
  exact st_mask _ T ((keep_arg2_44 V).trans h2)

include h2 in
theorem at63_v19 : (TRef.of (T := ⟨S262144x4, .i32⟩) main_v19).ofBuf (after ((ops (F := F)).take 63) V (Proc.devRef .tc main_v19)) = val_main_v19 (F := F) T := by
  rw [show (63 : Nat) = 44 + 19 from rfl, after_take_add]
  exact st_cols _ T ((keep_arg2_44 V).trans h2)

include h1 h2 in
theorem at85_v20 : after ((ops (F := F)).take 85) V (Proc.devRef .tc main_v20) = val_main_v20 (F := F) B T := by
  rw [show (85 : Nat) = 63 + 22 from rfl, after_take_add]
  refine st_box _ B T ?_ (at63_v19 T V h2)
  rw [keep_arg1_63]
  subst h1; rfl

include h2 in
theorem at85_v8 : after ((ops (F := F)).take 85) V (Proc.devRef .tc main_v8) = val_main_v8 (F := F) T := by
  rw [show (85 : Nat) = 63 + 22 from rfl, after_take_add, keep_v8_box]
  exact at63_v8 T V h2

include h1 h2 h3 in
theorem at104_v35 : after ((ops (F := F)).take 104) V (Proc.devRef .tc main_v35) = val_main_v35 (F := F) B T Y := by
  rw [show (104 : Nat) = 85 + 19 from rfl, after_take_add]
  exact st_reg _ B T Y (at85_v20 B T V h1 h2) ((keep_arg3_85 V).trans h3) (at85_v8 T V h2)

include h2 in
theorem at104_v8 : after ((ops (F := F)).take 104) V (Proc.devRef .tc main_v8) = val_main_v8 (F := F) T := by
  rw [show (104 : Nat) = 85 + 19 from rfl, after_take_add, keep_v8_reg]
  exact at85_v8 T V h2

include h1 h2 h3 in
theorem at115_v42 : after ((ops (F := F)).take 115) V (Proc.devRef .tc main_v42) = val_main_v42 (F := F) B T Y := by
  rw [show (115 : Nat) = 114 + 1 from rfl, after_take_add]
  refine st_sel _ B T Y ?_ ?_ ?_
  · rw [show (114 : Nat) = 104 + 10 from rfl, after_take_add]
    exact st_guard _ T (at104_v8 T V h2)
  · rw [show (114 : Nat) = 104 + 10 from rfl, after_take_add]
    exact st_quot _ B T Y (at104_v35 B T Y V h1 h2 h3) (at104_v8 T V h2)
  · rw [show (114 : Nat) = 104 + 10 from rfl, after_take_add]
    exact st_zero _

include h0 h2 in
theorem at115_v6 : after ((ops (F := F)).take 115) V (Proc.devRef .tc main_v6) = val_main_v6 (F := F) X T := by
  rw [show (115 : Nat) = 44 + 71 from rfl, after_take_add, keep_v6_mid]
  exact at44_v6 X T V h0 h2

include h0 h1 h2 h3 in
/-- The total loss's buffer after the whole line. -/
theorem end_v44 : after (ops (F := F)) V (Proc.devRef .tc main_v44) = val_main_v44 (F := F) X B T Y := by
  rw [ops_eq_take, show (118 : Nat) = 115 + 3 from rfl, after_take_add]
  exact st_total _ X B T Y (at115_v42 B T Y V h1 h2 h3) (at115_v6 X T V h0 h2)

include h1 h2 h3 in
/-- The regression loss's buffer after the whole line. -/
theorem end_v42 : after (ops (F := F)) V (Proc.devRef .tc main_v42) = val_main_v42 (F := F) B T Y := by
  rw [ops_eq_take, show (118 : Nat) = 115 + 3 from rfl, after_take_add, keep_v42_total]
  exact at115_v42 B T Y V h1 h2 h3

include h0 h2 in
/-- The classification loss's buffer after the whole line. -/
theorem end_v6 : after (ops (F := F)) V (Proc.devRef .tc main_v6) = val_main_v6 (F := F) X T := by
  rw [ops_eq_take, show (118 : Nat) = 115 + 3 from rfl, after_take_add, keep_v6_total]
  exact at115_v6 X T V h0 h2

end Results

/-- On every device, from any memory with zero counters: every weakly fair execution of @main terminates with the three
    results at their stages of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
          = val_main_v44 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v6)
          = val_main_v6 (F := F) (m ((c.tc : Thread nD τ).loc main_arg0)) (m ((c.tc : Thread nD τ).loc main_arg2))
      ∧ r.2.mem ((c.tc : Thread nD τ).loc main_v42)
          = val_main_v42 (F := F) (m ((c.tc : Thread nD τ).loc main_arg1)) (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v44).trans (end_v44 _ _ _ _ (launchContents m c) rfl rfl rfl rfl),
     (h c main_v6).trans (end_v6 _ _ (launchContents m c) rfl rfl),
     (h c main_v42).trans (end_v42 _ _ _ (launchContents m c) rfl rfl rfl),
     (h c main_arg0).trans (keep_arg0 _), (h c main_arg1).trans (keep_arg1 _),
     (h c main_arg2).trans (keep_arg2 _), (h c main_arg3).trans (keep_arg3 _)⟩)
    (run_seq scopedRefs_eq scopedSems_eq defs main (fun _ => ops) main_eq (fun _ => ops_sub) m ρ)

end Cert.ReferenceIdeal.RefStages

end
-- ==== Proof.Spec.lean ====
/-
  The loss as mathematics, over the extended reals.

  For every sample `n` of `N = 262144`: a row `x` of 81 logits, a row `b` of 320 box coordinates (80 classes by 4), a
  label `t` (0 is background, 1..80 a class) and a target box `y` of 4 coordinates.
  * The classification term is the log-softmax of `x` at the label, `(x t - M) - log (∑ j, exp (x j - M))` with `M` the
    row's maximum; the loss is minus the mean over the samples.
  * The regression term takes the 4 coordinates of the label's class, `b (4 (t - 1) + j)`, and sums the smooth-L1 of
    their differences to `y`; only foreground samples (`t > 0`) count, and the sum is divided by their number (at least 1).
  * The total is the sum of the two.
-/
import Idealize.ShloMosaic.PureOps.Ideal
import Idealize.ShloMosaic.Lib.ValueIdx

noncomputable section

open scoped BigOperators

namespace Cert.Spec

open Idealize.ShloMosaic Idealize.ShloMosaic.ValueIdx

/-- The literals both programs carry, as the extended reals their words denote: 1/2, 1, 0, -∞ and N = 262144. -/
abbrev half : EReal := Ideal.ofBits .f32 0x3F000000#32
abbrev one : EReal := Ideal.ofBits .f32 0x3F800000#32
abbrev zero : EReal := Ideal.ofBits .f32 0x00000000#32
abbrev ninf : EReal := Ideal.ofBits .f32 0xFF800000#32
abbrev cN : EReal := Ideal.ofBits .f32 0x48800000#32

/-- A row's maximum (folded from -∞, and once more against -∞ as both programs do). -/
def rmax (x : Fin 81 → EReal) : EReal := max ninf ((Finset.univ : Finset (Fin 81)).fold max ninf x)

/-- The log-softmax of a row at a class. -/
def lsm (x : Fin 81 → EReal) (k : Fin 81) : EReal :=
  (x k - rmax x) - Ideal.log (∑ j : Fin 81, Ideal.exp (x j - rmax x))

/-- The classification term of one sample: the log-softmax at its label (a label read signed, kept inside 0..80). -/
def ceRow (x : Fin 81 → EReal) (t : BitVec 32) : EReal := lsm x ⟨min t.toInt.toNat 80, by omega⟩

/-- Smooth L1: `d² / 2` where `|d| < 1`, else `|d| - 1/2`. -/
def sl1 (d : EReal) : EReal :=
  Scalar.select (Ideal.cmp .olt (max d (-d)) one) (half * d * d) (max d (-d) - half)

/-- The column of coordinate `j` of the label's class in a row of 320 (class `t - 1`, background read as class 0). -/
def boxCol (t : BitVec 32) (j : Fin 4) : Fin 320 := ⟨min (4 * (t.toInt.toNat - 1) + j.val) 319, by omega⟩

/-- The regression term of one sample before the foreground factor. -/
def regRow (b : Fin 320 → EReal) (t : BitVec 32) (y : Fin 4 → EReal) : EReal :=
  ∑ j : Fin 4, sl1 (b (boxCol t j) - y j)

/-- The foreground indicator as a number. -/
def fg (t : BitVec 32) : EReal := if 0 < t.toInt then 1 else 0

abbrev SX : Shape := ⟨2, ![262144, 81]⟩
abbrev SB : Shape := ⟨2, ![262144, 320]⟩
abbrev ST : Shape := ⟨1, ![262144]⟩
abbrev SY : Shape := ⟨2, ![262144, 4]⟩

/-- The sum of the classification terms. -/
def sumCE (X : SX.Idx → EReal) (T : ST.Idx → BitVec 32) : EReal :=
  ∑ n : Fin 262144, ceRow (fun k => X (ix2 n k)) (T (ix1 n))

/-- The sum of the foreground regression terms. -/
def sumReg (B : SB.Idx → EReal) (T : ST.Idx → BitVec 32) (Y : SY.Idx → EReal) : EReal :=
  ∑ n : Fin 262144, regRow (fun q => B (ix2 n q)) (T (ix1 n)) (fun j => Y (ix2 n j)) * fg (T (ix1 n))

/-- The number of foreground samples. -/
def sumFg (T : ST.Idx → BitVec 32) : EReal := ∑ n : Fin 262144, fg (T (ix1 n))

/-- The classification loss: minus the mean. -/
def cls (X : SX.Idx → EReal) (T : ST.Idx → BitVec 32) : EReal := Ideal.div (-(sumCE X T)) cN

/-- The regression loss: the sum over the foreground count (at least 1), and 0 with no foreground sample. -/
def reg (B : SB.Idx → EReal) (T : ST.Idx → BitVec 32) (Y : SY.Idx → EReal) : EReal :=
  Scalar.select (Ideal.cmp .ogt (sumFg T) zero) (Ideal.div (sumReg B T Y) (max one (sumFg T))) zero

/-- The total loss. -/
def total (X : SX.Idx → EReal) (B : SB.Idx → EReal) (T : ST.Idx → BitVec 32) (Y : SY.Idx → EReal) : EReal :=
  cls X T + one * reg B T Y

/-- The three losses from the three sums. -/
def clsOf (s1 : EReal) : EReal := Ideal.div (-s1) cN
def regOf (s2 s3 : EReal) : EReal := Scalar.select (Ideal.cmp .ogt s3 zero) (Ideal.div s2 (max one s3)) zero
def totalOf (s1 s2 s3 : EReal) : EReal := clsOf s1 + one * regOf s2 s3

/-- The terms of one sample, by its number. -/
def ceAt (X : SX.Idx → EReal) (T : ST.Idx → BitVec 32) (n : Fin 262144) : EReal := ceRow (fun k => X (ix2 n k)) (T (ix1 n))
def regAt (B : SB.Idx → EReal) (T : ST.Idx → BitVec 32) (Y : SY.Idx → EReal) (n : Fin 262144) : EReal :=
  regRow (fun q => B (ix2 n q)) (T (ix1 n)) (fun j => Y (ix2 n j)) * fg (T (ix1 n))
def fgAt (T : ST.Idx → BitVec 32) (n : Fin 262144) : EReal := fg (T (ix1 n))

/-- The sum of a per-sample quantity over tile `p` of 64 tiles of 4096 consecutive samples (0 past the last tile). -/
def tileSum (g : Fin 262144 → EReal) (p : Nat) : EReal :=
  if h : p < 64 then ∑ r : Fin 4096, g ⟨4096 * p + r.val, by omega⟩ else 0

/-- The labels are labels: every one is in 0..80. -/
def LabelsOk (T : ST.Idx → BitVec 32) : Prop := ∀ n : Fin 262144, 0 ≤ (T (ix1 n)).toInt ∧ (T (ix1 n)).toInt ≤ 80

end Cert.Spec

end
-- ==== Proof.KDefs.lean ====
/-
  The kernel's arguments as arrays over the extended reals, and the shape of what a core leaves in its output row.
-/
import proofs.«419196_j81441169867202_3_alg».proof.Proof.Gen.KernelIdeal
import proofs.«419196_j81441169867202_3_alg».proof.Proof.Spec

noncomputable section

open scoped BigOperators

namespace Cert.KernelIdeal.KDefs

open Idealize.ShloMosaic Idealize.SL.Sem Cert.KernelIdeal

variable (m : (ℓ : Loc nD τ sig) → Buf (Elt Ideal) ℓ)

/-- The logits, the box rows, the labels and the target boxes device `c` starts with. -/
abbrev X (c : Dev nD) : Spec.SX.Idx → EReal := m ((c.tc : Thread nD τ).loc main_arg0)
abbrev B (c : Dev nD) : Spec.SB.Idx → EReal := m ((c.tc : Thread nD τ).loc main_arg1)
abbrev T (c : Dev nD) : Spec.ST.Idx → BitVec 32 := m ((c.tc : Thread nD τ).loc main_arg2)
abbrev Y (c : Dev nD) : Spec.SY.Idx → EReal := m ((c.tc : Thread nD τ).loc main_arg3)

/-- An output array [2, 1, 128] whose row `q` holds core `q`'s value in every lane. -/
def coreRow (a : Fin 2 → EReal) : Vec Ideal S2x1x128 .f32 := fun i => a (i 0)

/-- What core `q` accumulates of a per-sample quantity: its 32 tiles' sums. -/
def coreSum (g : Fin 262144 → EReal) (q : Fin 2) : EReal := ∑ s ∈ Finset.range 32, Spec.tileSum g (32 * q.val + s)

end Cert.KernelIdeal.KDefs

end
-- ==== Proof.KStep.lean ====
/-
  One grid point of the kernel as three pure steps, one per accumulator.

  At a grid point the body reads a tile of 4096 samples — logits `x0`, box rows `x1`, labels `x2`, target boxes `x3` — and adds
  to each of three one-element accumulators the tile's share of a sum: the log-softmax at the label (`stepCE`), the smooth-L1
  of the label's class box against the target on foreground samples (`stepReg`), and the number of foreground samples (`stepFg`).
  Each is the body's own payload applied to the accumulator's contents `s`; at the last point of a core's run the accumulators are
  copied, broadcast, into the core's output row (`outRow`).
-/
import proofs.«419196_j81441169867202_3_alg».proof.Proof.Gen.KernelIdeal.Skeleton

noncomputable section

namespace Cert.KernelIdeal.KStep

open Idealize.ShloMosaic Cert.KernelIdeal Cert.KernelIdeal.Gen

variable {F : FTy → Type} [FloatOps F]

/-- The column number of every entry of a [4096, 320] tile. -/
def cols : IVec S4096x320 32 := iota .tc S4096x320 32 [1] Facts₀.iota_S4096x320_d1_w32

/-- The classification accumulator after a point that found `s` in it. -/
def stepCE (x0 : Vec F S4096x81 .f32) (x2 : Vec F S4096 .i32) (s : Vec F S1x1 .f32) : Vec F S1x1 .f32 :=
  k0_pay2 (k0_pay11 x0 x2) s

/-- The regression accumulator after a point that found `s` in it. -/
def stepReg (x1 : Vec F S4096x320 .f32) (x2 : Vec F S4096 .i32) (x3 : Vec F S4096x4 .f32) (s : Vec F S1x1 .f32) : Vec F S1x1 .f32 :=
  k0_pay3 (k0_pay12 (F := F) x2) (k0_pay15 x1 x3 (k0_pay13 (F := F) x2) cols 4#32 k0_pay14)
    (k0_pay16 x1 x3 (k0_pay13 (F := F) x2) cols 4#32 k0_pay14) (k0_pay17 x1 x3 (k0_pay13 (F := F) x2) cols 4#32 k0_pay14) s

/-- The foreground counter after a point that found `s` in it. -/
def stepFg (x2 : Vec F S4096 .i32) (s : Vec F S1x1 .f32) : Vec F S1x1 .f32 :=
  k0_pay4 (k0_pay12 (F := F) x2) s

end Cert.KernelIdeal.KStep

end
-- ==== Proof.KPieces.lean ====
/-
  What each control case of the body leaves behind, as the pure steps of KStep.

  The body runs in one of three cases: the first point of a core's run (the three accumulators are set to zero, then updated),
  a middle point (updated), the last point (updated, then copied into the core's output rows). The frame's run found, per case,
  the stores each accumulator and each output row ends with; read back, they are the steps applied to what the accumulator
  held before (zero, at a first point).
-/
import proofs.«419196_j81441169867202_3_alg».proof.Proof.Gen.KernelIdeal.Frame
import proofs.«419196_j81441169867202_3_alg».proof.Proof.KStep
import Idealize.ShloMosaic.Lib.Pipeline.Value
import Idealize.ShloMosaic.Lib.Tactic

set_option maxRecDepth 16384

noncomputable section

namespace Cert.KernelIdeal.KPieces

open Idealize.ShloMosaic Idealize.ShloMosaic.TcCoe Idealize.ShloMosaic.Tactic Idealize.SL.Sem
open Cert.KernelIdeal Cert.KernelIdeal.Gen Cert.KernelIdeal.KStep

variable {F : FTy → Type} [FloatOps F]
variable (c : Dev nD) (i : grid0.Coords)
  (a2 : Memref sig .tc .vmem S4096x81 .f32) (h2 : a2.IsWhole) (a3 : Memref sig .tc .vmem S4096x320 .f32) (h3 : a3.IsWhole)
  (a4 : Memref sig .tc .vmem S4096 .i32) (h4 : a4.IsWhole) (a5 : Memref sig .tc .vmem S4096x4 .f32) (h5 : a5.IsWhole)
  (a6 : Memref sig .tc .vmem S1x1x128 .f32) (h6 : a6.IsWhole) (a7 : Memref sig .tc .vmem S1x1x128 .f32) (h7 : a7.IsWhole)
  (a8 : Memref sig .tc .vmem S1x1x128 .f32) (h8 : a8.IsWhole)
  (a9 : Memref sig .tc .vmem S1x1 .f32) (h9 : a9.IsWhole) (a10 : Memref sig .tc .vmem S1x1 .f32) (h10 : a10.IsWhole)
  (a11 : Memref sig .tc .vmem S1x1 .f32) (h11 : a11.IsWhole)
  (x0 : Vec F S4096x81 .f32) (x1 : Vec F S4096x320 .f32) (x2 : Vec F S4096 .i32) (x3 : Vec F S4096x4 .f32)
  (xs0 xs1 xs2 : Vec F S1x1 .f32)

/-- The zero offsets of a rank-1, rank-2 and rank-3 whole-buffer access, however the zeros are spelt. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## First point of a run: from zero -/

theorem first_ce (hc0 : cond0_0 i) (hc1 : ¬cond0_1 i) :
    sout0_A_0 c i a2 h2 a3 h3 a4 h4 a5 h5 a6 h6 a7 h7 a8 h8 a9 h9 a10 h10 a11 h11 hc0 hc1 x0 x1 x2 x3
      = stepCE x0 x2 (k0_pay8 (F := F)) := by
  unfold sout0_A_0
  rw [View.read_writes_eq_canon _ _ _ (scover0_A_0 c i a2 h2 a3 h3 a4 h4 a5 h5 a6 h6 a7 h7 a8 h8 a9 h9 a10 h10 a11 h11 hc0 hc1 x0 x1 x2 x3)]
  unfold kernelRun0_A
  dsimp only
  sl_unfold_words
  rw [View.canon_cons_unit_zero (S := S1x1) hz2, View.readCov_unit_zero (S := S1x1) _ hz2]
  unfold stepCE
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

theorem first_reg (hc0 : cond0_0 i) (hc1 : ¬cond0_1 i) :
    sout0_A_1 c i a2 h2 a3 h3 a4 h4 a5 h5 a6 h6 a7 h7 a8 h8 a9 h9 a10 h10 a11 h11 hc0 hc1 x0 x1 x2 x3
      = stepReg x1 x2 x3 (k0_pay9 (F := F)) := by
  unfold sout0_A_1
  rw [View.read_writes_eq_canon _ _ _ (scover0_A_1 c i a2 h2 a3 h3 a4 h4 a5 h5 a6 h6 a7 h7 a8 h8 a9 h9 a10 h10 a11 h11 hc0 hc1 x0 x1 x2 x3)]
  unfold kernelRun0_A
  dsimp only
  sl_unfold_words
  rw [View.canon_cons_unit_zero (S := S1x1) hz2, View.readCov_unit_zero (S := S1x1) _ hz2]
  unfold stepReg cols
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

theorem first_fg (hc0 : cond0_0 i) (hc1 : ¬cond0_1 i) :
    sout0_A_2 c i a2 h2 a3 h3 a4 h4 a5 h5 a6 h6 a7 h7 a8 h8 a9 h9 a10 h10 a11 h11 hc0 hc1 x0 x1 x2 x3
      = stepFg x2 (k0_pay10 (F := F)) := by
  unfold sout0_A_2
  rw [View.read_writes_eq_canon _ _ _ (scover0_A_2 c i a2 h2 a3 h3 a4 h4 a5 h5 a6 h6 a7 h7 a8 h8 a9 h9 a10 h10 a11 h11 hc0 hc1 x0 x1 x2 x3)]
  unfold kernelRun0_A
  dsimp only
  sl_unfold_words
  rw [View.canon_cons_unit_zero (S := S1x1) hz2, View.readCov_unit_zero (S := S1x1) _ hz2]
  unfold stepFg
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

/-! ## A middle point: from what the point before left -/

theorem mid_ce (hc0 : ¬cond0_0 i) (hc1 : ¬cond0_1 i) :
    sout0_B_0 c i a2 h2 a3 h3 a4 h4 a5 h5 a6 h6 a7 h7 a8 h8 a9 h9 a10 h10 a11 h11 hc0 hc1 x0 x1 x2 x3 xs0 xs1 xs2
      = stepCE x0 x2 xs0 := by
  unfold sout0_B_0
  rw [View.read_writes_eq_canon _ _ _ (scover0_B_0 c i a2 h2 a3 h3 a4 h4 a5 h5 a6 h6 a7 h7 a8 h8 a9 h9 a10 h10 a11 h11 hc0 hc1 x0 x1 x2 x3 xs0 xs1 xs2)]
  unfold kernelRun0_B
  dsimp only
  sl_unfold_words
  rw [View.canon_unit_zero hz2]
  unfold stepCE
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

theorem mid_reg (hc0 : ¬cond0_0 i) (hc1 : ¬cond0_1 i) :
    sout0_B_1 c i a2 h2 a3 h3 a4 h4 a5 h5 a6 h6 a7 h7 a8 h8 a9 h9 a10 h10 a11 h11 hc0 hc1 x0 x1 x2 x3 xs0 xs1 xs2
      = stepReg x1 x2 x3 xs1 := by
  unfold sout0_B_1
  rw [View.read_writes_eq_canon _ _ _ (scover0_B_1 c i a2 h2 a3 h3 a4 h4 a5 h5 a6 h6 a7 h7 a8 h8 a9 h9 a10 h10 a11 h11 hc0 hc1 x0 x1 x2 x3 xs0 xs1 xs2)]
  unfold kernelRun0_B
  dsimp only
  sl_unfold_words
  rw [View.canon_unit_zero hz2]
  unfold stepReg cols
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

theorem mid_fg (hc0 : ¬cond0_0 i) (hc1 : ¬cond0_1 i) :
    sout0_B_2 c i a2 h2 a3 h3 a4 h4 a5 h5 a6 h6 a7 h7 a8 h8 a9 h9 a10 h10 a11 h11 hc0 hc1 x0 x1 x2 x3 xs0 xs1 xs2
      = stepFg x2 xs2 := by
  unfold sout0_B_2
  rw [View.read_writes_eq_canon _ _ _ (scover0_B_2 c i a2 h2 a3 h3 a4 h4 a5 h5 a6 h6 a7 h7 a8 h8 a9 h9 a10 h10 a11 h11 hc0 hc1 x0 x1 x2 x3 xs0 xs1 xs2)]
  unfold kernelRun0_B
  dsimp only
  sl_unfold_words
  rw [View.canon_unit_zero hz2]
  unfold stepFg
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

/-! ## The last point of a run: the same update, and the output rows -/

theorem last_ce (hc0 : ¬cond0_0 i) (hc1 : cond0_1 i) :
    sout0_C_0 c i a2 h2 a3 h3 a4 h4 a5 h5 a6 h6 a7 h7 a8 h8 a9 h9 a10 h10 a11 h11 hc0 hc1 x0 x1 x2 x3 xs0 xs1 xs2
      = stepCE x0 x2 xs0 := by
  unfold sout0_C_0
  rw [View.read_writes_eq_canon _ _ _ (scover0_C_0 c i a2 h2 a3 h3 a4 h4 a5 h5 a6 h6 a7 h7 a8 h8 a9 h9 a10 h10 a11 h11 hc0 hc1 x0 x1 x2 x3 xs0 xs1 xs2)]
  unfold kernelRun0_C
  dsimp only
  sl_unfold_words
  rw [View.canon_unit_zero hz2]
  unfold stepCE
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

theorem last_reg (hc0 : ¬cond0_0 i) (hc1 : cond0_1 i) :
    sout0_C_1 c i a2 h2 a3 h3 a4 h4 a5 h5 a6 h6 a7 h7 a8 h8 a9 h9 a10 h10 a11 h11 hc0 hc1 x0 x1 x2 x3 xs0 xs1 xs2
      = stepReg x1 x2 x3 xs1 := by
  unfold sout0_C_1
  rw [View.read_writes_eq_canon _ _ _ (scover0_C_1 c i a2 h2 a3 h3 a4 h4 a5 h5 a6 h6 a7 h7 a8 h8 a9 h9 a10 h10 a11 h11 hc0 hc1 x0 x1 x2 x3 xs0 xs1 xs2)]
  unfold kernelRun0_C
  dsimp only
  sl_unfold_words
  rw [View.canon_unit_zero hz2]
  unfold stepReg cols
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

theorem last_fg (hc0 : ¬cond0_0 i) (hc1 : cond0_1 i) :
    sout0_C_2 c i a2 h2 a3 h3 a4 h4 a5 h5 a6 h6 a7 h7 a8 h8 a9 h9 a10 h10 a11 h11 hc0 hc1 x0 x1 x2 x3 xs0 xs1 xs2
      = stepFg x2 xs2 := by
  unfold sout0_C_2
  rw [View.read_writes_eq_canon _ _ _ (scover0_C_2 c i a2 h2 a3 h3 a4 h4 a5 h5 a6 h6 a7 h7 a8 h8 a9 h9 a10 h10 a11 h11 hc0 hc1 x0 x1 x2 x3 xs0 xs1 xs2)]
  unfold kernelRun0_C
  dsimp only
  sl_unfold_words
  rw [View.canon_unit_zero hz2]
  unfold stepFg
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2]

theorem last_out_ce (hc0 : ¬cond0_0 i) (hc1 : cond0_1 i) :
    out0_C_4 c i a2 h2 a3 h3 a4 h4 a5 h5 a6 h6 a7 h7 a8 h8 a9 h9 a10 h10 a11 h11 hc0 hc1 x0 x1 x2 x3 xs0 xs1 xs2
      = k0_pay5 (stepCE x0 x2 xs0) := by
  unfold out0_C_4
  rw [View.read_writes_eq_canon _ _ _ (cover0_C_4 c i a2 h2 a3 h3 a4 h4 a5 h5 a6 h6 a7 h7 a8 h8 a9 h9 a10 h10 a11 h11 hc0 hc1 x0 x1 x2 x3 xs0 xs1 xs2)]
  unfold kernelRun0_C
  dsimp only
  sl_unfold_words
  rw [View.canon_unit_zero hz3]
  unfold stepCE
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2, View.readCov_unit_zero (S := S1x1) _ hz2]

theorem last_out_reg (hc0 : ¬cond0_0 i) (hc1 : cond0_1 i) :
    out0_C_5 c i a2 h2 a3 h3 a4 h4 a5 h5 a6 h6 a7 h7 a8 h8 a9 h9 a10 h10 a11 h11 hc0 hc1 x0 x1 x2 x3 xs0 xs1 xs2
      = k0_pay6 (stepReg x1 x2 x3 xs1) := by
  unfold out0_C_5
  rw [View.read_writes_eq_canon _ _ _ (cover0_C_5 c i a2 h2 a3 h3 a4 h4 a5 h5 a6 h6 a7 h7 a8 h8 a9 h9 a10 h10 a11 h11 hc0 hc1 x0 x1 x2 x3 xs0 xs1 xs2)]
  unfold kernelRun0_C
  dsimp only
  sl_unfold_words
  rw [View.canon_unit_zero hz3]
  unfold stepReg cols
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2, View.readCov_unit_zero (S := S1x1) _ hz2]

theorem last_out_fg (hc0 : ¬cond0_0 i) (hc1 : cond0_1 i) :
    out0_C_6 c i a2 h2 a3 h3 a4 h4 a5 h5 a6 h6 a7 h7 a8 h8 a9 h9 a10 h10 a11 h11 hc0 hc1 x0 x1 x2 x3 xs0 xs1 xs2
      = k0_pay7 (stepFg x2 xs2) := by
  unfold out0_C_6
  rw [View.read_writes_eq_canon _ _ _ (cover0_C_6 c i a2 h2 a3 h3 a4 h4 a5 h5 a6 h6 a7 h7 a8 h8 a9 h9 a10 h10 a11 h11 hc0 hc1 x0 x1 x2 x3 xs0 xs1 xs2)]
  unfold kernelRun0_C
  dsimp only
  sl_unfold_words
  rw [View.canon_unit_zero hz3]
  unfold stepFg
  simp only [View.readAt_eq_ld, h2.read_unread, h3.read_unread, h4.read_unread, h5.read_unread, h9.read_unread, h10.read_unread, h11.read_unread, View.ld_unit_zero (S := S4096x81) hz2, View.ld_unit_zero (S := S4096x320) hz2, View.ld_unit_zero (S := S4096x4) hz2, View.ld_unit_zero (S := S4096) hz1, View.ld_unit_zero (S := S1x1) hz2, View.readCov_unit_zero (S := S1x1) _ hz2]

end Cert.KernelIdeal.KPieces

end
-- ==== Proof.KTileCE.lean ====
/-
  The classification step of one tile, over the extended reals: the accumulator plus, for each of the tile's 4096 samples, the log-softmax of its logits at its label. The body takes the label's entry by masking the row of 81 log-probabilities with `column = label` and summing: with the label in 0..80 exactly one column survives.
-/
import proofs.«419196_j81441169867202_3_alg».proof.Proof.KStep
import proofs.«419196_j81441169867202_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KTile

open Idealize.ShloMosaic Idealize.ShloMosaic.ValueIdx
open Cert.KernelIdeal Cert.KernelIdeal.Gen Cert.KernelIdeal.KStep

namespace CE

/-! ## Indices -/

/-- Row `r` of a [4096, 81] tile with column `c` put back: the entry (r, c). -/
theorem lift_row (r : Fin 4096) (c : Fin 81) :
    reduces_S4096x81_S4096.lift (ix1 r) c = ix2 r c := by
  funext a
  match a with
  | ⟨0, _⟩ => exact Fin.ext rfl
  | ⟨1, _⟩ => exact Fin.ext rfl

/-- The one entry of the reduced column with row `r` put back: the entry (r, 0). -/
theorem lift_col (r : Fin 4096) :
    reduces_S4096x1_S1.lift (ix1 (0 : Fin 1)) r = ix2 r (0 : Fin 1) := by
  funext a
  match a with
  | ⟨0, _⟩ => exact Fin.ext rfl
  | ⟨1, _⟩ => exact Fin.ext rfl

/-- Every index of a [1, 1] array is (0, 0). -/
theorem idx11 (i : S1x1.Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

section Layout
variable {α : Type}

/-- A vector of 4096 viewed as a column reads its entry `r` at (r, 0). -/
theorem castCol_apply (v : S4096.Idx → α) (r : Fin 4096) :
    shapeCast S4096x1 v shapeCasts_S4096_S4096x1 (ix2 r (0 : Fin 1)) = v (ix1 r) := by
  refine shapeCast_apply v _ _ (ix1 r) ?_
  rw [Shape.rowMajor_val_one, Shape.rowMajor_val_two]
  show r.val = r.val * 1 + 0
  omega

/-- A column spread over 81 columns reads its entry (r, 0) at every (r, c). -/
theorem bcRow_apply (v : S4096x1.Idx → α) (r : Fin 4096) (c : Fin 81) :
    broadcastTo S4096x81 v broadcasts_S4096x1_S4096x81 (ix2 r c) = v (ix2 r (0 : Fin 1)) := by
  refine broadcastTo_apply v _ _ (ix2 r (0 : Fin 1)) fun a => ?_
  match a with
  | ⟨0, _⟩ => rfl
  | ⟨1, _⟩ => rfl

/-- A vector of one viewed as [1, 1] reads its entry. -/
theorem cast11_apply (v : S1.Idx → α) (i : S1x1.Idx) :
    shapeCast S1x1 v shapeCasts_S1_S1x1 i = v (ix1 (0 : Fin 1)) := by
  refine shapeCast_apply v _ _ (ix1 (0 : Fin 1)) ?_
  rw [idx11 i, Shape.rowMajor_val_one, Shape.rowMajor_val_two]
  rfl

end Layout

/-! ## The label word -/

/-- A label in 0..80, read signed, is its own unsigned value. -/
theorem label_toNat (t : BitVec 32) (h0 : 0 ≤ t.toInt) (h1 : t.toInt ≤ 80) :
    t.toInt.toNat = t.toNat ∧ t.toNat ≤ 80 := by
  have ht := t.isLt
  have e := BitVec.toInt_eq_toNat_cond t
  split at e <;> omega

/-- Masking by "column = label" keeps the label's column only. -/
theorem pick_eq (t : BitVec 32) (h0 : 0 ≤ t.toInt) (h1 : t.toInt ≤ 80) (c : Fin 81) (a : EReal) :
    Scalar.select (IntOp.cmpi .eq (BitVec.ofNat 32 c.val) t) a (0 : EReal)
      = if c = (⟨min t.toInt.toNat 80, by omega⟩ : Fin 81) then a else 0 := by
  obtain ⟨e, hle⟩ := label_toNat t h0 h1
  have hc := c.isLt
  by_cases hct : c.val = t.toNat
  · have hw : BitVec.ofNat 32 c.val = t := by
      apply BitVec.eq_of_toNat_eq
      rw [BitVec.toNat_ofNat]; omega
    rw [hw, if_pos (Fin.ext (by show c.val = min t.toInt.toNat 80; omega))]
    simp [IntOp.cmpi, Scalar.select]
  · have hw : ¬ BitVec.ofNat 32 c.val = t := by
      intro hw
      apply hct
      have := congrArg BitVec.toNat hw
      rw [BitVec.toNat_ofNat] at this; omega
    rw [if_neg (fun h => hct (by have := congrArg Fin.val h; simp only at this; omega))]
    have hb : (BitVec.ofNat 32 c.val == t) = false := beq_eq_false_iff_ne.2 hw
    simp [IntOp.cmpi, Scalar.select, hb]

theorem sub_congr {a a' b b' : EReal} (ha : a = a') (hb : b = b') : a - b = a' - b' := by rw [ha, hb]

theorem sel_congr {m m' : BitVec 1} {a a' b b' : EReal} (hm : m = m') (ha : a = a') (hb : b = b') :
    Scalar.select m a b = Scalar.select m' a' b' := by rw [hm, ha, hb]

/-! ## One row of the tile -/

section Row
variable (x0 : Vec Ideal S4096x81 .f32)

/-- The rows' maxima as the body takes them: folded from -∞, then once more against -∞. -/
def mx : FVec Ideal S4096 .f32 :=
  maximumf (broadcast S4096 (Scalar.ofBits (F := Ideal) .f32 0xFF800000#32))
    (multiReduction (F := Ideal) .maximumf [1] S4096 x0 0xFF800000#32 reduces_S4096x81_S4096 (.inl rfl) rfl)

theorem mx_apply (r : Fin 4096) : mx x0 (ix1 r) = Spec.rmax (fun k => x0 (ix2 r k)) := by
  have hrow : (x0 ∘ reduces_S4096x81_S4096.lift (ix1 r)) = fun k : Fin 81 => x0 (ix2 r k) :=
    funext fun k => congrArg x0 (lift_row r k)
  refine (congrArg (max (Ideal.ofBits .f32 0xFF800000#32))
    (Ideal.multiReduction_maximumf_single x0 _ reduces_S4096x81_S4096 _ _ (ix1 r))).trans ?_
  exact congrArg (fun f : Fin 81 → EReal => max Spec.ninf ((Finset.univ : Finset (Fin 81)).fold max Spec.ninf f)) hrow

/-- The logits less their row's maximum. -/
def sh : FVec Ideal S4096x81 .f32 :=
  subf x0 (broadcastTo S4096x81 (shapeCast S4096x1 (mx x0) shapeCasts_S4096_S4096x1) broadcasts_S4096x1_S4096x81)

theorem sh_apply (r : Fin 4096) (c : Fin 81) :
    sh x0 (ix2 r c) = x0 (ix2 r c) - Spec.rmax (fun k => x0 (ix2 r k)) :=
  sub_congr rfl ((bcRow_apply _ r c).trans ((castCol_apply _ r).trans (mx_apply x0 r)))

/-- The logarithm of each row's sum of exponentials, as a column. -/
def lse : FVec Ideal S4096x1 .f32 :=
  log (shapeCast S4096x1 (multiReduction (F := Ideal) .add [1] S4096 (exp (sh x0)) 0x00000000#32 reduces_S4096x81_S4096 (.inl rfl) rfl)
    shapeCasts_S4096_S4096x1)

theorem lse_apply (r : Fin 4096) :
    lse x0 (ix2 r (0 : Fin 1))
      = Ideal.log (∑ j : Fin 81, Ideal.exp (x0 (ix2 r j) - Spec.rmax (fun k => x0 (ix2 r k)))) := by
  refine congrArg Ideal.log ((castCol_apply _ r).trans
    ((Ideal.multiReduction_add_single _ _ reduces_S4096x81_S4096 _ _ (ix1 r)).trans ?_))
  refine Finset.sum_congr rfl fun j _ => ?_
  refine (congrArg (exp (sh x0)) (lift_row r j)).trans ?_
  exact congrArg Ideal.exp (sh_apply x0 r j)

/-- The log-probabilities. -/
def lp : FVec Ideal S4096x81 .f32 :=
  subf (sh x0) (broadcastTo S4096x81 (lse x0) broadcasts_S4096x1_S4096x81)

theorem lp_apply (r : Fin 4096) (c : Fin 81) : lp x0 (ix2 r c) = Spec.lsm (fun k => x0 (ix2 r k)) c :=
  sub_congr (sh_apply x0 r c) ((bcRow_apply _ r c).trans (lse_apply x0 r))

end Row

/-- The mask "column = label". -/
def mk (x2 : Vec Ideal S4096 .i32) : IVec S4096x81 1 :=
  cmpi .eq (iota .tc S4096x81 32 [1] iota_S4096x81_d1_w32)
    (broadcastTo S4096x81 (shapeCast S4096x1 x2 shapeCasts_S4096_S4096x1) broadcasts_S4096x1_S4096x81)

theorem mk_apply (x2 : Vec Ideal S4096 .i32) (r : Fin 4096) (c : Fin 81) :
    mk x2 (ix2 r c) = IntOp.cmpi .eq (BitVec.ofNat 32 c.val) (x2 (ix1 r)) :=
  congr (congrArg (IntOp.cmpi .eq) (iota_single_apply _ _ _ _ _ (ix2 r c)))
    ((bcRow_apply _ r c).trans (castCol_apply _ r))

/-! ## The tile -/

/-- The tile's share of the classification sum, at the one index of its [1, 1] value. -/
theorem pay11_apply (x0 : Vec Ideal S4096x81 .f32) (x2 : Vec Ideal S4096 .i32)
    (hx2 : ∀ r : Fin 4096, 0 ≤ (x2 (ix1 r)).toInt ∧ (x2 (ix1 r)).toInt ≤ 80) (i : S1x1.Idx) :
    k0_pay11 (F := Ideal) x0 x2 i = ∑ r : Fin 4096, Spec.ceRow (fun k => x0 (ix2 r k)) (x2 (ix1 r)) := by
  unfold k0_pay11
  refine (cast11_apply _ i).trans ?_
  refine (Ideal.multiReduction_add_single _ _ reduces_S4096x1_S1 _ _ (ix1 (0 : Fin 1))).trans ?_
  refine Finset.sum_congr rfl fun r _ => ?_
  refine (congrArg _ (lift_col r)).trans ?_
  refine (castCol_apply _ r).trans ?_
  refine (Ideal.multiReduction_add_single _ _ reduces_S4096x81_S4096 _ _ (ix1 r)).trans ?_
  refine (Finset.sum_congr rfl fun c _ => ((congrArg _ (lift_row r c)).trans
    ((sel_congr (mk_apply x2 r c) (lp_apply x0 r c) Ideal.ofBits_zero_f32).trans
      (pick_eq _ (hx2 r).1 (hx2 r).2 c _)))).trans ?_
  unfold Spec.ceRow
  exact Fintype.sum_ite_eq' _ _

end CE

/-- The step at the one index of the accumulator. -/
theorem stepCE_eq (x0 : Vec Ideal S4096x81 .f32) (x2 : Vec Ideal S4096 .i32) (s : Vec Ideal S1x1 .f32)
    (hx2 : ∀ r : Fin 4096, 0 ≤ (x2 (ix1 r)).toInt ∧ (x2 (ix1 r)).toInt ≤ 80) :
    stepCE (F := Ideal) x0 x2 s
      = fun _ => s (ix2 (0 : Fin 1) (0 : Fin 1)) + ∑ r : Fin 4096, Spec.ceRow (fun k => x0 (ix2 r k)) (x2 (ix1 r)) := by
  funext i
  obtain rfl := CE.idx11 i
  unfold stepCE k0_pay2
  exact (congrFun (shapeCast_self _ _) _).trans
    (congrArg (s (ix2 (0 : Fin 1) (0 : Fin 1)) + ·) (CE.pay11_apply x0 x2 hx2 _))

/-- The zero the first point of a run starts the classification accumulator from. -/
theorem pay8_eq : k0_pay8 (F := Ideal) = fun _ => (0 : EReal) := by
  unfold k0_pay8
  refine (shapeCast_self _ _).trans ?_
  funext i
  exact Ideal.ofBits_zero_f32

/-- The output row the last point of a run writes: the accumulator's one value in every lane. -/
theorem pay5_eq (v : Vec Ideal S1x1 .f32) : k0_pay5 (F := Ideal) v = fun _ => v (ix2 (0 : Fin 1) (0 : Fin 1)) := by
  unfold k0_pay5
  funext j
  exact congrArg v (CE.idx11 _)

end Cert.KernelIdeal.KTile

end
-- ==== Proof.KTileReg.lean ====
/-
  The regression step of one tile, over the extended reals: the accumulator plus, for each of the tile's 4096 samples, the smooth-L1 distance of its label's class box to its target box, counted on foreground samples only. The body picks the class's 4 columns out of a row of 320 by masking with `column / 4 = class` and folding the row in halves (320 → 160 → 80 → 40 → 20) and then in fifths: every fold keeps the column's residue mod 4, so coordinate j ends as the sum of columns 4k + j over the 80 classes, of which the mask keeps one.
-/
import proofs.«419196_j81441169867202_3_alg».proof.Proof.KStep
import proofs.«419196_j81441169867202_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Basic

noncomputable section

open scoped BigOperators

namespace Cert.KernelIdeal.KTile.Reg

open Idealize.ShloMosaic Idealize.ShloMosaic.ValueIdx
open Cert.KernelIdeal Cert.KernelIdeal.Gen Cert.KernelIdeal.KStep

/-- The masked row: the box row where the column's class is the sample's class, zero elsewhere. -/
def maskedRow (v4 : Vec Ideal S4096x320 .f32) (v35 : IVec S4096x1 32) : Vec Ideal S4096x320 .f32 :=
  have v36 : IVec S4096x320 32 := cols
  have c4_i32 : BitVec 32 := 4#32
  have v37 : IVec S4096x320 32 := k0_pay14
  have v38 : IVec S4096x320 32 := divsi v36 v37
  have v39 : IVec S4096x320 32 := broadcast S4096x320 0#32
  have v40 : IVec S4096x320 1 := cmpi .sgt v36 v39
  have v41 : IVec S4096x320 32 := extui 32 v40 natLt_1_32
  have v42 : IVec S4096x320 32 := broadcast S4096x320 0#32
  have v43 : IVec S4096x320 1 := cmpi .slt v36 v42
  have v44 : IVec S4096x320 32 := extui 32 v43 natLt_1_32
  have v45 : IVec S4096x320 32 := subi v41 v44
  let v46 : BitVec 1 := Scalar.cmpi .sgt c4_i32 0#32
  let v47 : BitVec 32 := Scalar.extui v46
  let v48 : BitVec 1 := Scalar.cmpi .slt c4_i32 0#32
  let v49 : BitVec 32 := Scalar.extui v48
  let v50 : BitVec 32 := Scalar.subi v47 v49
  have v51 : IVec S4096x320 32 := broadcast S4096x320 v50
  have v52 : IVec S4096x320 1 := cmpi .ne v45 v51
  have v53 : IVec S4096x320 32 := broadcast S4096x320 c4_i32
  have v54 : IVec S4096x320 32 := remsi v36 v53
  have v55 : IVec S4096x320 32 := broadcast S4096x320 0#32
  have v56 : IVec S4096x320 1 := cmpi .ne v54 v55
  have v57 : IVec S4096x320 1 := andi v52 v56
  have v58 : IVec S4096x320 32 := broadcast S4096x320 1#32
  have v59 : IVec S4096x320 32 := subi v38 v58
  have v60 : IVec S4096x320 32 := select v57 v59 v38
  have v61 : IVec S4096x320 32 := broadcastTo S4096x320 v35 broadcasts_S4096x1_S4096x320
  have v62 : IVec S4096x320 1 := cmpi .eq v60 v61
  have cst_20 : Ideal .f32 := Scalar.ofBits .f32 0x00000000#32
  have v63 : FVec Ideal S4096x320 .f32 := broadcast S4096x320 cst_20
  select v62 v4 v63

/-- Adding the upper half of a row of 320 onto its lower half. -/
def fold160 (v : FVec Ideal S4096x320 .f32) : FVec Ideal S4096x160 .f32 :=
  addf (extractStridedSlice S4096x160 ![0, 0] v slices_S4096x320_o0_0_S4096x160)
    (extractStridedSlice S4096x160 ![0, 160] v slices_S4096x320_o0_160_S4096x160)
/-- The same for a row of 160. -/
def fold80 (v : FVec Ideal S4096x160 .f32) : FVec Ideal S4096x80 .f32 :=
  addf (extractStridedSlice S4096x80 ![0, 0] v slices_S4096x160_o0_0_S4096x80)
    (extractStridedSlice S4096x80 ![0, 80] v slices_S4096x160_o0_80_S4096x80)
/-- The same for a row of 80. -/
def fold40 (v : FVec Ideal S4096x80 .f32) : FVec Ideal S4096x40 .f32 :=
  addf (extractStridedSlice S4096x40 ![0, 0] v slices_S4096x80_o0_0_S4096x40)
    (extractStridedSlice S4096x40 ![0, 40] v slices_S4096x80_o0_40_S4096x40)
/-- The same for a row of 40. -/
def fold20 (v : FVec Ideal S4096x40 .f32) : FVec Ideal S4096x20 .f32 :=
  addf (extractStridedSlice S4096x20 ![0, 0] v slices_S4096x40_o0_0_S4096x20)
    (extractStridedSlice S4096x20 ![0, 20] v slices_S4096x40_o0_20_S4096x20)
/-- The sum of the five slices of 4 of a row of 20. -/
def fifths (v : FVec Ideal S4096x20 .f32) : FVec Ideal S4096x4 .f32 :=
  addf (addf (addf (addf (extractStridedSlice S4096x4 ![0, 0] v slices_S4096x20_o0_0_S4096x4)
    (extractStridedSlice S4096x4 ![0, 4] v slices_S4096x20_o0_4_S4096x4))
    (extractStridedSlice S4096x4 ![0, 8] v slices_S4096x20_o0_8_S4096x4))
    (extractStridedSlice S4096x4 ![0, 12] v slices_S4096x20_o0_12_S4096x4))
    (extractStridedSlice S4096x4 ![0, 16] v slices_S4096x20_o0_16_S4096x4)

/-- The difference payload is the fold of the masked row minus the target. -/
theorem pay15_eq (x1 : Vec Ideal S4096x320 .f32) (x3 : Vec Ideal S4096x4 .f32) (v35 : IVec S4096x1 32) :
    k0_pay15 (F := Ideal) x1 x3 v35 cols 4#32 k0_pay14
      = subf (fifths (fold20 (fold40 (fold80 (fold160 (maskedRow x1 v35)))))) x3 := rfl

/-- A unit-stride slice of columns of a rank-2 array, read at (r, j). -/
theorem slice_apply {R n w : ℕ} (v : (⟨2, ![R, n]⟩ : Shape).Idx → EReal) (off : ℕ)
    (h : (⟨2, ![R, n]⟩ : Shape).Slices ![0, off] ⟨2, ![R, w]⟩) (r : Fin R) (j : Fin w) (hj : off + j.val < n) :
    extractStridedSlice ⟨2, ![R, w]⟩ ![0, off] v h (ix2 r j) = v (ix2 r ⟨off + j.val, hj⟩) :=
  extractStridedSlice_apply _ v h (ix2 r j) (ix2 r ⟨off + j.val, hj⟩) fun a =>
    match a with
    | ⟨0, _⟩ => by show r.val = 0 + r.val; omega
    | ⟨1, _⟩ => rfl

/-- Adding the upper half of a row onto its lower half, on rows read by column number. -/
def halve (H : ℕ) (f : ℕ → EReal) : ℕ → EReal := fun c => f c + f (H + c)

theorem sum_halve (f : ℕ → EReal) (h : ℕ) :
    ∑ m ∈ Finset.range h, (f m + f (h + m)) = ∑ m ∈ Finset.range (h + h), f m := by
  rw [Finset.sum_add_distrib, Finset.sum_range_add]

theorem sum_halve_res (f : ℕ → EReal) (H h j : ℕ) (hH : H = 4 * h) :
    ∑ u ∈ Finset.range h, halve H f (4 * u + j) = ∑ m ∈ Finset.range (h + h), f (4 * m + j) := by
  rw [← sum_halve (fun m => f (4 * m + j)) h]
  refine Finset.sum_congr rfl fun u _ => ?_
  show f (4 * u + j) + f (H + (4 * u + j)) = f (4 * u + j) + f (4 * (h + u) + j)
  rw [show H + (4 * u + j) = 4 * (h + u) + j by omega]

theorem fold_sum (g : ℕ → EReal) (j : ℕ) :
    halve 20 (halve 40 (halve 80 (halve 160 g))) j
      + halve 20 (halve 40 (halve 80 (halve 160 g))) (4 + j)
      + halve 20 (halve 40 (halve 80 (halve 160 g))) (8 + j)
      + halve 20 (halve 40 (halve 80 (halve 160 g))) (12 + j)
      + halve 20 (halve 40 (halve 80 (halve 160 g))) (16 + j)
      = ∑ m ∈ Finset.range 80, g (4 * m + j) := by
  have h5 : ∑ u ∈ Finset.range 5, halve 20 (halve 40 (halve 80 (halve 160 g))) (4 * u + j)
      = ∑ m ∈ Finset.range 80, g (4 * m + j) := by
    rw [sum_halve_res _ 20 5 j rfl, sum_halve_res _ 40 10 j rfl, sum_halve_res _ 80 20 j rfl, sum_halve_res _ 160 40 j rfl]
  rw [← h5]
  simp only [Finset.sum_range_succ, Finset.sum_range_zero, zero_add, Nat.mul_zero, Nat.zero_add, Nat.mul_one, Nat.reduceMul]

theorem halve_congr (H B : ℕ) {f g : ℕ → EReal} (hfg : ∀ c, c < B → f c = g c) (hB : H + H ≤ B) (c : ℕ) (hc : c < H) :
    halve H f c = halve H g c := by
  unfold halve
  rw [hfg c (by omega), hfg (H + c) (by omega)]

/-- A row of a rank-2 array read by column number (zero past its end). -/
def row {R n : ℕ} (v : (⟨2, ![R, n]⟩ : Shape).Idx → EReal) (r : Fin R) (q : ℕ) : EReal :=
  if h : q < n then v (ix2 r ⟨q, h⟩) else 0

theorem row_of_lt {R n : ℕ} (v : (⟨2, ![R, n]⟩ : Shape).Idx → EReal) (r : Fin R) (q : ℕ) (h : q < n) :
    row v r q = v (ix2 r ⟨q, h⟩) := dif_pos h

theorem row_halve {R n H : ℕ} (v : (⟨2, ![R, n]⟩ : Shape).Idx → EReal)
    (h0 : (⟨2, ![R, n]⟩ : Shape).Slices ![0, 0] ⟨2, ![R, H]⟩) (h1 : (⟨2, ![R, n]⟩ : Shape).Slices ![0, H] ⟨2, ![R, H]⟩)
    (hn : H + H ≤ n) (r : Fin R) (c : ℕ) (hc : c < H) :
    row (fun i => extractStridedSlice ⟨2, ![R, H]⟩ ![0, 0] v h0 i + extractStridedSlice ⟨2, ![R, H]⟩ ![0, H] v h1 i) r c
      = halve H (row v r) c := by
  rw [row_of_lt _ _ _ hc]
  show extractStridedSlice _ _ v h0 (ix2 r ⟨c, hc⟩) + extractStridedSlice _ _ v h1 (ix2 r ⟨c, hc⟩) = row v r c + row v r (H + c)
  rw [slice_apply v 0 h0 r ⟨c, hc⟩ (by show 0 + c < n; omega), slice_apply v H h1 r ⟨c, hc⟩ (by show H + c < n; omega),
    row_of_lt v r c (by omega), row_of_lt v r (H + c) (by omega)]
  simp only [Nat.zero_add]

theorem fold160_row (v : FVec Ideal S4096x320 .f32) (r : Fin 4096) (c : ℕ) (hc : c < 160) :
    row (fold160 v) r c = halve 160 (row v r) c := row_halve v _ _ (by norm_num) r c hc
theorem fold80_row (v : FVec Ideal S4096x160 .f32) (r : Fin 4096) (c : ℕ) (hc : c < 80) :
    row (fold80 v) r c = halve 80 (row v r) c := row_halve v _ _ (by norm_num) r c hc
theorem fold40_row (v : FVec Ideal S4096x80 .f32) (r : Fin 4096) (c : ℕ) (hc : c < 40) :
    row (fold40 v) r c = halve 40 (row v r) c := row_halve v _ _ (by norm_num) r c hc
theorem fold20_row (v : FVec Ideal S4096x40 .f32) (r : Fin 4096) (c : ℕ) (hc : c < 20) :
    row (fold20 v) r c = halve 20 (row v r) c := row_halve v _ _ (by norm_num) r c hc

theorem fifths_apply (v : FVec Ideal S4096x20 .f32) (r : Fin 4096) (j : Fin 4) :
    fifths v (ix2 r j) = row v r j.val + row v r (4 + j.val) + row v r (8 + j.val) + row v r (12 + j.val) + row v r (16 + j.val) := by
  have hj := j.isLt
  show extractStridedSlice _ _ v _ (ix2 r j) + extractStridedSlice _ _ v _ (ix2 r j) + extractStridedSlice _ _ v _ (ix2 r j)
    + extractStridedSlice _ _ v _ (ix2 r j) + extractStridedSlice _ _ v _ (ix2 r j) = _
  rw [slice_apply v 0 _ r j (by show 0 + j.val < 20; omega), slice_apply v 4 _ r j (by show 4 + j.val < 20; omega),
    slice_apply v 8 _ r j (by show 8 + j.val < 20; omega), slice_apply v 12 _ r j (by show 12 + j.val < 20; omega),
    slice_apply v 16 _ r j (by show 16 + j.val < 20; omega),
    row_of_lt v r j.val (by omega), row_of_lt v r (4 + j.val) (by omega), row_of_lt v r (8 + j.val) (by omega),
    row_of_lt v r (12 + j.val) (by omega), row_of_lt v r (16 + j.val) (by omega)]
  simp only [Nat.zero_add]

/-- Coordinate `j` of the folded row is the sum, over the 80 classes, of the row's column `4 m + j`. -/
theorem fold_apply (v : FVec Ideal S4096x320 .f32) (r : Fin 4096) (j : Fin 4) :
    fifths (fold20 (fold40 (fold80 (fold160 v)))) (ix2 r j) = ∑ m ∈ Finset.range 80, row v r (4 * m + j.val) := by
  have hj := j.isLt
  have e1 : ∀ c, c < 160 → row (fold160 v) r c = halve 160 (row v r) c := fun c hc => fold160_row v r c hc
  have e2 : ∀ c, c < 80 → row (fold80 (fold160 v)) r c = halve 80 (halve 160 (row v r)) c := fun c hc =>
    (fold80_row _ r c hc).trans (halve_congr 80 160 e1 (by norm_num) c hc)
  have e3 : ∀ c, c < 40 → row (fold40 (fold80 (fold160 v))) r c = halve 40 (halve 80 (halve 160 (row v r))) c := fun c hc =>
    (fold40_row _ r c hc).trans (halve_congr 40 80 e2 (by norm_num) c hc)
  have e4 : ∀ c, c < 20 → row (fold20 (fold40 (fold80 (fold160 v)))) r c
      = halve 20 (halve 40 (halve 80 (halve 160 (row v r)))) c := fun c hc =>
    (fold20_row _ r c hc).trans (halve_congr 20 40 e3 (by norm_num) c hc)
  rw [fifths_apply, e4 _ (by omega), e4 _ (by omega), e4 _ (by omega), e4 _ (by omega), e4 _ (by omega), fold_sum]

/-- The floor division by 4 as the body computes it: the truncated quotient, one less where the signs differ and the remainder is not zero. -/
def fdiv4 (c : BitVec 32) : BitVec 32 :=
  Scalar.select
    (IntOp.andi
      (IntOp.cmpi .ne (IntOp.subi ((IntOp.cmpi .sgt c 0#32).setWidth 32) ((IntOp.cmpi .slt c 0#32).setWidth 32))
        (Scalar.subi (Scalar.extui (Scalar.cmpi .sgt 4#32 0#32)) (Scalar.extui (Scalar.cmpi .slt 4#32 0#32))))
      (IntOp.cmpi .ne (IntOp.remsi .vector c 4#32) 0#32))
    (IntOp.subi (IntOp.divsi .vector c 4#32) 1#32)
    (IntOp.divsi .vector c 4#32)

/-- On the 320 column numbers it is the quotient by 4. -/
theorem fdiv4_ofNat : ∀ q : Fin 320, fdiv4 (BitVec.ofNat 32 q.val) = BitVec.ofNat 32 (q.val / 4) := by decide +kernel

theorem cols_apply (r : Fin 4096) (q : Fin 320) : cols (ix2 r q) = BitVec.ofNat 32 q.val :=
  iota_single_apply .tc S4096x320 32 1 _ (ix2 r q)

theorem select_cmpi_eq {α : Type} {w : ℕ} (a b : BitVec w) (x y : α) :
    Scalar.select (IntOp.cmpi .eq a b) x y = if a = b then x else y := by
  unfold Scalar.select IntOp.cmpi
  by_cases h : a = b
  · subst h; simp
  · have hb : (a == b) = false := by simpa using h
    simp [hb, h]

/-- The masked row at a column: the box row's entry where the column's class is the sample's, else zero. -/
theorem maskedRow_apply (x1 : Vec Ideal S4096x320 .f32) (v35 : IVec S4096x1 32) (r : Fin 4096) (q : Fin 320) :
    maskedRow x1 v35 (ix2 r q)
      = if BitVec.ofNat 32 (q.val / 4) = v35 (ix2 r (0 : Fin 1)) then x1 (ix2 r q) else 0 := by
  have h1 : maskedRow x1 v35 (ix2 r q)
      = Scalar.select (IntOp.cmpi .eq (fdiv4 (cols (ix2 r q)))
          (broadcastTo S4096x320 v35 broadcasts_S4096x1_S4096x320 (ix2 r q))) (x1 (ix2 r q)) (Ideal.ofBits .f32 0x00000000#32) := rfl
  rw [h1, cols_apply, fdiv4_ofNat,
    broadcastTo_apply v35 _ (ix2 r q) (ix2 r (0 : Fin 1)) (fun a => match a with | ⟨0, _⟩ => rfl | ⟨1, _⟩ => rfl),
    Ideal.ofBits_zero_f32, select_cmpi_eq]

theorem ofNat_inj_of_lt {a b : ℕ} (ha : a < 4294967296) (hb : b < 4294967296) (h : BitVec.ofNat 32 a = BitVec.ofNat 32 b) : a = b := by
  have := congrArg BitVec.toNat h
  rw [BitVec.toNat_ofNat, BitVec.toNat_ofNat] at this
  omega

/-- Of the 80 columns of residue `j` the mask keeps the one of the sample's class. -/
theorem masked_sum (x1 : Vec Ideal S4096x320 .f32) (v35 : IVec S4096x1 32) (r : Fin 4096) (j : Fin 4) (k : ℕ) (hk : k < 80)
    (hv : v35 (ix2 r (0 : Fin 1)) = BitVec.ofNat 32 k) :
    ∑ m ∈ Finset.range 80, row (maskedRow x1 v35) r (4 * m + j.val) = x1 (ix2 r ⟨4 * k + j.val, by omega⟩) := by
  have hj := j.isLt
  rw [Finset.sum_eq_single_of_mem k (Finset.mem_range.2 hk)]
  · rw [row_of_lt _ _ _ (by omega), maskedRow_apply, hv, if_pos]
    show BitVec.ofNat 32 ((4 * k + j.val) / 4) = BitVec.ofNat 32 k
    rw [show (4 * k + j.val) / 4 = k by omega]
  · intro m hm hmk
    have hm' := Finset.mem_range.1 hm
    rw [row_of_lt _ _ _ (by omega), maskedRow_apply, hv, if_neg]
    intro h
    apply hmk
    have h2 : (4 * m + j.val) / 4 = k := ofNat_inj_of_lt (by omega) (by omega) h
    omega

/-- The class index of a label in 0..80: the label less one, truncated at zero. -/
theorem clsWord (t : BitVec 32) (h0 : 0 ≤ t.toInt) (h1 : t.toInt ≤ 80) :
    IntOp.maxsi (IntOp.subi t 1#32) 0#32 = BitVec.ofNat 32 (t.toInt.toNat - 1) := by
  obtain ⟨n, hn⟩ := Int.eq_ofNat_of_zero_le h0
  have ht : t = BitVec.ofNat 32 n := by
    rw [← BitVec.ofInt_toInt (x := t), hn, BitVec.ofInt_natCast]
  have hn80 : n ≤ 80 := by omega
  have hnat : t.toInt.toNat = n := by rw [hn]; rfl
  rw [hnat, ht]
  have key : ∀ n : Fin 81, IntOp.maxsi (IntOp.subi (BitVec.ofNat 32 n.val) 1#32) 0#32 = BitVec.ofNat 32 (n.val - 1) := by
    decide +kernel
  exact key ⟨n, by omega⟩

theorem pay13_apply (x2 : Vec Ideal S4096 .i32) (r : Fin 4096) :
    k0_pay13 (F := Ideal) x2 (ix2 r (0 : Fin 1)) = IntOp.maxsi (IntOp.subi (x2 (ix1 r)) 1#32) 0#32 := by
  show shapeCast S4096x1 (maxsi (subi x2 (broadcast S4096 1#32)) (broadcast S4096 0#32)) shapeCasts_S4096_S4096x1 (ix2 r (0 : Fin 1)) = _
  rw [shapeCast_apply _ _ (ix2 r (0 : Fin 1)) (ix1 r) (by
    rw [Shape.rowMajor_val_one, Shape.rowMajor_val_two]; show r.val = r.val * 1 + 0; omega)]
  rfl

/-- The foreground indicator as the body computes it: the bit of `label > 0`, widened and converted. -/
theorem pay1_apply (x2 : Vec Ideal S4096 .i32) (r : Fin 4096) :
    k0_pay1 (F := Ideal) (k0_pay12 (F := Ideal) x2) (ix2 r (0 : Fin 1)) = Spec.fg (x2 (ix1 r)) := by
  show shapeCast S4096x1 (sitofp .f32 (extui 32 (k0_pay12 (F := Ideal) x2) natLt_1_32)) shapeCasts_S4096_S4096x1 (ix2 r (0 : Fin 1)) = _
  rw [shapeCast_apply _ _ (ix2 r (0 : Fin 1)) (ix1 r) (by
    rw [Shape.rowMajor_val_one, Shape.rowMajor_val_two]; show r.val = r.val * 1 + 0; omega)]
  show ((((BitVec.ofBool ((0#32).slt (x2 (ix1 r)))).setWidth 32).toInt : ℝ) : EReal) = _
  unfold Spec.fg
  by_cases h : 0 < (x2 (ix1 r)).toInt
  · have hs : (0#32).slt (x2 (ix1 r)) = true := by simp [BitVec.slt, h]
    rw [hs, if_pos h]
    have : ((BitVec.ofBool true).setWidth 32).toInt = 1 := by decide
    rw [this]; norm_num
  · have hs : (0#32).slt (x2 (ix1 r)) = false := by simp [BitVec.slt, h]
    rw [hs, if_neg h]
    have : ((BitVec.ofBool false).setWidth 32).toInt = 0 := by decide
    rw [this]; norm_num

/-- Smooth L1 of a difference, entry by entry, from the difference, its absolute value and the bit of `|d| < 1`. -/
def sl1Vec (v86 v87 : FVec Ideal S4096x4 .f32) (v89 : IVec S4096x4 1) : FVec Ideal S4096x4 .f32 :=
  select v89 (mulf (mulf (broadcast S4096x4 (Scalar.ofBits .f32 0x3F000000#32)) v86) v86)
    (subf v87 (broadcast S4096x4 (Scalar.ofBits .f32 0x3F000000#32)))
/-- The sum of a row of 4. -/
def rowSum (v95 : FVec Ideal S4096x4 .f32) : FVec Ideal S4096 .f32 :=
  multiReduction .add [1] S4096 v95 0x00000000#32 reduces_S4096x4_S4096 (.inl rfl) rfl
/-- A column of row values times a column of weights. -/
def weighted (v99 : FVec Ideal S4096 .f32) (w : FVec Ideal S4096x1 .f32) : FVec Ideal S4096x1 .f32 :=
  mulf (shapeCast S4096x1 v99 shapeCasts_S4096_S4096x1) w
/-- The sum of a column of 4096. -/
def tileTotal (v101 : FVec Ideal S4096x1 .f32) : FVec Ideal S1x1 .f32 :=
  shapeCast S1x1 (multiReduction .add [0] S1 v101 0x00000000#32 reduces_S4096x1_S1 (.inl rfl) rfl) shapeCasts_S1_S1x1

theorem pay3_eq (v30 : IVec S4096 1) (v86 v87 : FVec Ideal S4096x4 .f32) (v89 : IVec S4096x4 1) (s : Vec Ideal S1x1 .f32) :
    k0_pay3 (F := Ideal) v30 v86 v87 v89 s
      = shapeCast S1x1 (addf s (tileTotal (weighted (rowSum (sl1Vec v86 v87 v89)) (k0_pay1 (F := Ideal) v30)))) shapeCasts_S1x1_S1x1 := rfl

theorem tileTotal_apply (v101 : FVec Ideal S4096x1 .f32) :
    tileTotal v101 (ix2 (0 : Fin 1) (0 : Fin 1)) = ∑ r : Fin 4096, v101 (ix2 r (0 : Fin 1)) := by
  show shapeCast S1x1 _ shapeCasts_S1_S1x1 (ix2 (0 : Fin 1) (0 : Fin 1)) = _
  rw [shapeCast_apply _ _ (ix2 (0 : Fin 1) (0 : Fin 1)) (ix1 (0 : Fin 1)) (by
    rw [Shape.rowMajor_val_one, Shape.rowMajor_val_two]; rfl)]
  refine (Ideal.multiReduction_add_single v101 _ reduces_S4096x1_S1 _ _ (ix1 (0 : Fin 1))).trans ?_
  show ∑ r : Fin 4096, v101 (reduces_S4096x1_S1.lift (ix1 (0 : Fin 1)) r) = _
  refine Finset.sum_congr rfl fun r _ => congrArg v101 ?_
  funext a
  match a with
  | ⟨0, _⟩ => rfl
  | ⟨1, _⟩ => rfl

theorem rowSum_apply (v95 : FVec Ideal S4096x4 .f32) (r : Fin 4096) :
    rowSum v95 (ix1 r) = ∑ j : Fin 4, v95 (ix2 r j) := by
  refine (Ideal.multiReduction_add_single v95 _ reduces_S4096x4_S4096 _ _ (ix1 r)).trans ?_
  show ∑ j : Fin 4, v95 (reduces_S4096x4_S4096.lift (ix1 r) j) = _
  refine Finset.sum_congr rfl fun j _ => congrArg v95 ?_
  funext a
  match a with
  | ⟨0, _⟩ => rfl
  | ⟨1, _⟩ => rfl

theorem weighted_apply (v99 : FVec Ideal S4096 .f32) (w : FVec Ideal S4096x1 .f32) (r : Fin 4096) :
    weighted v99 w (ix2 r (0 : Fin 1)) = v99 (ix1 r) * w (ix2 r (0 : Fin 1)) := by
  show shapeCast S4096x1 v99 shapeCasts_S4096_S4096x1 (ix2 r (0 : Fin 1)) * w (ix2 r (0 : Fin 1)) = _
  rw [shapeCast_apply _ _ (ix2 r (0 : Fin 1)) (ix1 r) (by
    rw [Shape.rowMajor_val_one, Shape.rowMajor_val_two]; show r.val = r.val * 1 + 0; omega)]

end Cert.KernelIdeal.KTile.Reg

namespace Cert.KernelIdeal.KTile

open Idealize.ShloMosaic Idealize.ShloMosaic.ValueIdx
open Cert.KernelIdeal Cert.KernelIdeal.Gen Cert.KernelIdeal.KStep
open Cert.KernelIdeal.KTile.Reg

/-- The step at the one index of the accumulator. -/
theorem stepReg_eq (x1 : Vec Ideal S4096x320 .f32) (x2 : Vec Ideal S4096 .i32) (x3 : Vec Ideal S4096x4 .f32) (s : Vec Ideal S1x1 .f32)
    (hx2 : ∀ r : Fin 4096, 0 ≤ (x2 (ix1 r)).toInt ∧ (x2 (ix1 r)).toInt ≤ 80) :
    stepReg (F := Ideal) x1 x2 x3 s
      = fun _ => s (ix2 (0 : Fin 1) (0 : Fin 1))
          + ∑ r : Fin 4096, Spec.regRow (fun q => x1 (ix2 r q)) (x2 (ix1 r)) (fun j => x3 (ix2 r j)) * Spec.fg (x2 (ix1 r)) := by
  funext i
  obtain rfl : i = ix2 (0 : Fin 1) (0 : Fin 1) := by
    funext a
    match a with
    | ⟨0, _⟩ => exact Fin.ext (Nat.lt_one_iff.mp (i _).isLt)
    | ⟨1, _⟩ => exact Fin.ext (Nat.lt_one_iff.mp (i _).isLt)
  have hP : stepReg (F := Ideal) x1 x2 x3 s
      = shapeCast S1x1 (addf s (tileTotal (weighted (rowSum
          (sl1Vec (k0_pay15 (F := Ideal) x1 x3 (k0_pay13 (F := Ideal) x2) cols 4#32 k0_pay14)
            (absf (k0_pay15 (F := Ideal) x1 x3 (k0_pay13 (F := Ideal) x2) cols 4#32 k0_pay14))
            (cmpf .olt (absf (k0_pay15 (F := Ideal) x1 x3 (k0_pay13 (F := Ideal) x2) cols 4#32 k0_pay14))
              (broadcast S4096x4 (Scalar.ofBits .f32 0x3F800000#32)))))
          (k0_pay1 (F := Ideal) (k0_pay12 (F := Ideal) x2))))) shapeCasts_S1x1_S1x1 := rfl
  rw [hP, shapeCast_self]
  show s (ix2 (0 : Fin 1) (0 : Fin 1)) + tileTotal _ (ix2 (0 : Fin 1) (0 : Fin 1)) = _
  rw [tileTotal_apply]
  congr 1
  refine Finset.sum_congr rfl fun r _ => ?_
  obtain ⟨h0, h1⟩ := hx2 r
  rw [weighted_apply, rowSum_apply, pay1_apply]
  congr 1
  unfold Spec.regRow
  refine Finset.sum_congr rfl fun j _ => ?_
  show Spec.sl1 (k0_pay15 (F := Ideal) x1 x3 (k0_pay13 (F := Ideal) x2) cols 4#32 k0_pay14 (ix2 r j)) = _
  congr 1
  rw [pay15_eq]
  show fifths _ (ix2 r j) - x3 (ix2 r j) = _
  have hj := j.isLt
  rw [fold_apply, masked_sum x1 _ r j ((x2 (ix1 r)).toInt.toNat - 1) (by omega) ((pay13_apply x2 r).trans (clsWord _ h0 h1))]
  congr 3
  exact Fin.ext (by show 4 * ((x2 (ix1 r)).toInt.toNat - 1) + j.val = min (4 * ((x2 (ix1 r)).toInt.toNat - 1) + j.val) 319; omega)

/-- The zero the first point of a run starts the regression accumulator from. -/
theorem pay9_eq : k0_pay9 (F := Ideal) = fun _ => (0 : EReal) := by
  funext i
  show shapeCast S1x1 (broadcast S1x1 (Scalar.ofBits (F := Ideal) .f32 0x00000000#32)) shapeCasts_S1x1_S1x1 i = _
  rw [shapeCast_self]
  exact Ideal.ofBits_zero_f32

/-- The output row the last point of a run writes: the accumulator's one value in every lane. -/
theorem pay6_eq (v : Vec Ideal S1x1 .f32) : k0_pay6 (F := Ideal) v = fun _ => v (ix2 (0 : Fin 1) (0 : Fin 1)) := by
  funext i
  show v (fun a => ⟨(![0, 0] : Fin 2 → ℕ) a, inpos_S1x1_p0_0 a⟩) = _
  congr 1
  funext a
  match a with
  | ⟨0, _⟩ => rfl
  | ⟨1, _⟩ => rfl

end Cert.KernelIdeal.KTile

end
-- ==== Proof.KTileFg.lean ====
/-
  The foreground count of one tile, over the extended reals: the counter plus the number of the tile's 4096 samples whose label is positive.
-/
import proofs.«419196_j81441169867202_3_alg».proof.Proof.KStep
import proofs.«419196_j81441169867202_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KTile

open Idealize.ShloMosaic Idealize.ShloMosaic.ValueIdx
open Cert.KernelIdeal Cert.KernelIdeal.Gen Cert.KernelIdeal.KStep

/-- A [1, 1] array has one index. -/
theorem idx11 (i : S1x1.Idx) : i = ix2 (0 : Fin 1) (0 : Fin 1) := by
  funext a
  match a with
  | ⟨0, _⟩ => exact Subsingleton.elim (α := Fin 1) _ _
  | ⟨1, _⟩ => exact Subsingleton.elim (α := Fin 1) _ _

/-- The indicator of one label: the comparison's bit, widened and read as a number, is 1 on a positive label and 0 otherwise. -/
theorem fg_word (t : BitVec 32) :
    FloatOps.sitofp (F := Ideal) .f32 ((IntOp.cmpi .sgt t 0#32).setWidth 32) = Spec.fg t := by
  unfold Spec.fg
  by_cases h : 0 < t.toInt
  · have hc : IntOp.cmpi .sgt t 0#32 = 1#1 := by
      simp [IntOp.cmpi, BitVec.slt, h]
    rw [hc, if_pos h]
    show (((((1#1 : BitVec 1).setWidth 32).toInt : ℤ) : ℝ) : EReal) = 1
    have : ((1#1 : BitVec 1).setWidth 32).toInt = 1 := by decide
    rw [this]; norm_num
  · have hc : IntOp.cmpi .sgt t 0#32 = 0#1 := by
      simp [IntOp.cmpi, BitVec.slt, h]
    rw [hc, if_neg h]
    show (((((0#1 : BitVec 1).setWidth 32).toInt : ℤ) : ℝ) : EReal) = 0
    have : ((0#1 : BitVec 1).setWidth 32).toInt = 0 := by decide
    rw [this]; norm_num

/-- The column of indicators of a tile's labels, read at sample `r`. -/
theorem pay1_apply (x2 : Vec Ideal S4096 .i32) (j : S1.Idx) (r : Fin 4096) :
    k0_pay1 (F := Ideal) (k0_pay12 (F := Ideal) x2) (reduces_S4096x1_S1.lift j r) = Spec.fg (x2 (ix1 r)) := by
  unfold k0_pay1 k0_pay12
  refine (shapeCast_apply _ shapeCasts_S4096_S4096x1 (reduces_S4096x1_S1.lift j r) (ix1 r) ?_).trans ?_
  · rw [Shape.rowMajor_val_one, Shape.rowMajor_val_two]
    have h0 : (reduces_S4096x1_S1.lift j r (0 : Fin 2)).val = r.val := rfl
    have h1 : (reduces_S4096x1_S1.lift j r (1 : Fin 2)).val < 1 := (reduces_S4096x1_S1.lift j r (1 : Fin 2)).isLt
    show r.val = (reduces_S4096x1_S1.lift j r (0 : Fin 2)).val * 1 + (reduces_S4096x1_S1.lift j r (1 : Fin 2)).val
    omega
  · exact fg_word (x2 (ix1 r))

/-- The step at the one index of the counter. -/
theorem stepFg_eq (x2 : Vec Ideal S4096 .i32) (s : Vec Ideal S1x1 .f32) :
    stepFg (F := Ideal) x2 s
      = fun _ => s (ix2 (0 : Fin 1) (0 : Fin 1)) + ∑ r : Fin 4096, Spec.fg (x2 (ix1 r)) := by
  funext i
  obtain rfl := idx11 i
  unfold stepFg k0_pay4
  rw [shapeCast_self]
  show s (ix2 (0 : Fin 1) (0 : Fin 1)) + _ = _
  refine congrArg (s (ix2 (0 : Fin 1) (0 : Fin 1)) + ·) ?_
  refine (shapeCast_apply _ shapeCasts_S1_S1x1 (ix2 (0 : Fin 1) (0 : Fin 1)) (ix1 (0 : Fin 1)) ?_).trans ?_
  · rw [Shape.rowMajor_val_one, Shape.rowMajor_val_two]; rfl
  · refine (Ideal.multiReduction_add_single (k0_pay1 (F := Ideal) (k0_pay12 (F := Ideal) x2)) _ reduces_S4096x1_S1 _ _ _).trans ?_
    exact Finset.sum_congr rfl fun r _ => pay1_apply x2 _ r

/-- The zero the first point of a run starts the counter from. -/
theorem pay10_eq : k0_pay10 (F := Ideal) = fun _ => (0 : EReal) := by
  unfold k0_pay10
  show shapeCast S1x1 (broadcast S1x1 (Ideal.ofBits .f32 0x00000000#32)) shapeCasts_S1x1_S1x1 = _
  rw [shapeCast_self]
  funext i
  exact Ideal.ofBits_zero_f32

/-- The output row the last point of a run writes: the counter's one value in every lane. -/
theorem pay7_eq (v : Vec Ideal S1x1 .f32) : k0_pay7 (F := Ideal) v = fun _ => v (ix2 (0 : Fin 1) (0 : Fin 1)) := by
  funext i
  unfold k0_pay7
  show extractAt ![0, 0] v inpos_S1x1_p0_0 = _
  unfold extractAt
  exact congrArg v (idx11 _)

end Cert.KernelIdeal.KTile

end
-- ==== Proof.KAcc.lean ====
/-
  What the three output arrays hold after the grid: row `q` of each is core `q`'s sum over its 32 tiles.

  The accumulators are carried from point to point: at point `t` (core `t / 32`, step `t % 32`) each holds the sum of the tiles
  `32 (t / 32) … t` of its quantity — zero plus the first tile at step 0, the point before plus this tile afterwards — by induction
  along the run. Only the last step of a run writes the output rows, and it writes row `t / 32`; the two rows cover the arrays.
  A tile's block of an argument array is rows `4096 t … 4096 t + 4095` of it.
-/
import proofs.«419196_j81441169867202_3_alg».proof.Proof.Gen.KernelIdeal.Frame
import proofs.«419196_j81441169867202_3_alg».proof.Proof.KDefs
import proofs.«419196_j81441169867202_3_alg».proof.Proof.KPieces
import proofs.«419196_j81441169867202_3_alg».proof.Proof.KTileCE
import proofs.«419196_j81441169867202_3_alg».proof.Proof.KTileReg
import proofs.«419196_j81441169867202_3_alg».proof.Proof.KTileFg
import Idealize.ShloMosaic.Lib.Pipeline.Value

set_option maxRecDepth 16384

noncomputable section

open scoped BigOperators

namespace Cert.KernelIdeal.KAcc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KStep Cert.KernelIdeal.KDefs

variable (m : (ℓ : Loc nD τ sig) → Buf (Elt Ideal) ℓ)

/-! ## Where a point's blocks sit in their arrays -/

/-- The block indices at point `t`: an input's row block is `t` itself (32 · core + step), an output's row is the core `t / 32`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = t.val ∧ win0_3.index t (1 : Fin 2) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0 :=
  (by decide +kernel : ∀ t : Fin grid0.N, _)

/-- The four input blocks of point `t`, by their literal types. -/
abbrev xblk (c : Dev nD) (t : Fin cfg0.N) : Vec Ideal S4096x81 .f32 := iblk m c 0 t
abbrev bblk (c : Dev nD) (t : Fin cfg0.N) : Vec Ideal S4096x320 .f32 := iblk m c 1 t
abbrev tblk (c : Dev nD) (t : Fin cfg0.N) : Vec Ideal S4096 .i32 := iblk m c 2 t
abbrev yblk (c : Dev nD) (t : Fin cfg0.N) : Vec Ideal S4096x4 .f32 := iblk m c 3 t

/-- Row `r` of the logits block of point `t` is row `4096 t + r` of the logits. -/
theorem xblk_apply (c : Dev nD) (t : Fin cfg0.N) (r : Fin 4096) (k : Fin 81) (h : 4096 * t.val + r.val < 262144) :
    xblk m c t (ix2 r k) = X m c (ix2 ⟨4096 * t.val + r.val, h⟩ k) := by
  obtain ⟨e0, e1, -⟩ := idx_facts t
  unfold xblk iblk
  rw [View.read_apply]
  show V m c main_arg0 _ = m (c.tc.loc main_arg0) _
  rw [V_main_arg0]
  congr 1
  funext a
  apply Fin.ext
  match a with
  | ⟨0, _⟩ => show win0_0.index t (0 : Fin 2) * 4096 + 1 * r.val = 4096 * t.val + r.val; rw [e0]; omega
  | ⟨1, _⟩ => show win0_0.index t (1 : Fin 2) * 81 + 1 * k.val = k.val; rw [e1]; omega

/-- Row `r` of the box block of point `t` is row `4096 t + r` of the box rows. -/
theorem bblk_apply (c : Dev nD) (t : Fin cfg0.N) (r : Fin 4096) (q : Fin 320) (h : 4096 * t.val + r.val < 262144) :
    bblk m c t (ix2 r q) = B m c (ix2 ⟨4096 * t.val + r.val, h⟩ q) := by
  obtain ⟨-, -, e0, e1, -⟩ := idx_facts t
  unfold bblk iblk
  rw [View.read_apply]
  show V m c main_arg1 _ = m (c.tc.loc main_arg1) _
  rw [V_main_arg1]
  congr 1
  funext a
  apply Fin.ext
  match a with
  | ⟨0, _⟩ => show win0_1.index t (0 : Fin 2) * 4096 + 1 * r.val = 4096 * t.val + r.val; rw [e0]; omega
  | ⟨1, _⟩ => show win0_1.index t (1 : Fin 2) * 320 + 1 * q.val = q.val; rw [e1]; omega

/-- Entry `r` of the label block of point `t` is label `4096 t + r`. -/
theorem tblk_apply (c : Dev nD) (t : Fin cfg0.N) (r : Fin 4096) (h : 4096 * t.val + r.val < 262144) :
    tblk m c t (ix1 r) = T m c (ix1 ⟨4096 * t.val + r.val, h⟩) := by
  obtain ⟨-, -, -, -, e0, -⟩ := idx_facts t
  unfold tblk iblk
  rw [View.read_apply]
  show V m c main_arg2 _ = m (c.tc.loc main_arg2) _
  rw [V_main_arg2]
  congr 1
  funext a
  apply Fin.ext
  match a with
  | ⟨0, _⟩ => show win0_2.index t (0 : Fin 1) * 4096 + 1 * r.val = 4096 * t.val + r.val; rw [e0]; omega

/-- Row `r` of the target block of point `t` is row `4096 t + r` of the target boxes. -/
theorem yblk_apply (c : Dev nD) (t : Fin cfg0.N) (r : Fin 4096) (j : Fin 4) (h : 4096 * t.val + r.val < 262144) :
    yblk m c t (ix2 r j) = Y m c (ix2 ⟨4096 * t.val + r.val, h⟩ j) := by
  obtain ⟨-, -, -, -, -, e0, e1, -⟩ := idx_facts t
  unfold yblk iblk
  rw [View.read_apply]
  show V m c main_arg3 _ = m (c.tc.loc main_arg3) _
  rw [V_main_arg3]
  congr 1
  funext a
  apply Fin.ext
  match a with
  | ⟨0, _⟩ => show win0_3.index t (0 : Fin 2) * 4096 + 1 * r.val = 4096 * t.val + r.val; rw [e0]; omega
  | ⟨1, _⟩ => show win0_3.index t (1 : Fin 2) * 4 + 1 * j.val = j.val; rw [e1]; omega

/-- A sample of tile `t` is a sample. -/
theorem row_lt (t : Fin cfg0.N) (r : Fin 4096) : 4096 * t.val + r.val < 262144 := by
  have hN : cfg0.N = 64 := N_0
  have := t.isLt
  have := r.isLt
  omega

/-- The labels of a tile are labels. -/
theorem tblk_ok (c : Dev nD) (hT : Spec.LabelsOk (T m c)) (t : Fin cfg0.N) :
    ∀ r : Fin 4096, 0 ≤ (tblk m c t (ix1 r)).toInt ∧ (tblk m c t (ix1 r)).toInt ≤ 80 := fun r => by
  rw [tblk_apply m c t r (row_lt t r)]
  exact hT _

/-! ## A tile's share of each sum -/

theorem tile_ce (c : Dev nD) (t : Fin cfg0.N) :
    ∑ r : Fin 4096, Spec.ceRow (fun k => xblk m c t (ix2 r k)) (tblk m c t (ix1 r))
      = Spec.tileSum (Spec.ceAt (X m c) (T m c)) t.val := by
  have hN : cfg0.N = 64 := N_0
  have ht : t.val < 64 := hN ▸ t.isLt
  unfold Spec.tileSum
  rw [dif_pos ht]
  refine Finset.sum_congr rfl fun r _ => ?_
  unfold Spec.ceAt
  rw [tblk_apply m c t r (row_lt t r)]
  congr 1
  funext k
  exact xblk_apply m c t r k (row_lt t r)

theorem tile_reg (c : Dev nD) (t : Fin cfg0.N) :
    ∑ r : Fin 4096, Spec.regRow (fun q => bblk m c t (ix2 r q)) (tblk m c t (ix1 r)) (fun j => yblk m c t (ix2 r j)) * Spec.fg (tblk m c t (ix1 r))
      = Spec.tileSum (Spec.regAt (B m c) (T m c) (Y m c)) t.val := by
  have hN : cfg0.N = 64 := N_0
  have ht : t.val < 64 := hN ▸ t.isLt
  unfold Spec.tileSum
  rw [dif_pos ht]
  refine Finset.sum_congr rfl fun r _ => ?_
  unfold Spec.regAt
  rw [tblk_apply m c t r (row_lt t r)]
  congr 2
  · funext q
    exact bblk_apply m c t r q (row_lt t r)
  · funext j
    exact yblk_apply m c t r j (row_lt t r)

theorem tile_fg (c : Dev nD) (t : Fin cfg0.N) :
    ∑ r : Fin 4096, Spec.fg (tblk m c t (ix1 r)) = Spec.tileSum (Spec.fgAt (T m c)) t.val := by
  have hN : cfg0.N = 64 := N_0
  have ht : t.val < 64 := hN ▸ t.isLt
  unfold Spec.tileSum
  rw [dif_pos ht]
  refine Finset.sum_congr rfl fun r _ => ?_
  unfold Spec.fgAt
  rw [tblk_apply m c t r (row_lt t r)]

/-- Each step at point `t`: the accumulator plus the tile's share. -/
theorem stepCE_tile (c : Dev nD) (hT : Spec.LabelsOk (T m c)) (t : Fin cfg0.N) (s : Vec Ideal S1x1 .f32) :
    stepCE (F := Ideal) (xblk m c t) (tblk m c t) s
      = fun _ => s (ix2 (0 : Fin 1) (0 : Fin 1)) + Spec.tileSum (Spec.ceAt (X m c) (T m c)) t.val :=
  (KTile.stepCE_eq (xblk m c t) (tblk m c t) s (tblk_ok m c hT t)).trans (by rw [tile_ce m c t])

theorem stepReg_tile (c : Dev nD) (hT : Spec.LabelsOk (T m c)) (t : Fin cfg0.N) (s : Vec Ideal S1x1 .f32) :
    stepReg (F := Ideal) (bblk m c t) (tblk m c t) (yblk m c t) s
      = fun _ => s (ix2 (0 : Fin 1) (0 : Fin 1)) + Spec.tileSum (Spec.regAt (B m c) (T m c) (Y m c)) t.val :=
  (KTile.stepReg_eq (bblk m c t) (tblk m c t) (yblk m c t) s (tblk_ok m c hT t)).trans (by rw [tile_reg m c t])

theorem stepFg_tile (c : Dev nD) (t : Fin cfg0.N) (s : Vec Ideal S1x1 .f32) :
    stepFg (F := Ideal) (tblk m c t) s
      = fun _ => s (ix2 (0 : Fin 1) (0 : Fin 1)) + Spec.tileSum (Spec.fgAt (T m c)) t.val :=
  (KTile.stepFg_eq (tblk m c t) s).trans (by rw [tile_fg m c t])

/-! ## The fold along a core's run -/

/-- A quantity that starts from zero plus its addend at the first step of a run of 32 and adds its addend to what the step
    before left at every other step holds, at step `n`, the sum of the addends of its run so far. -/
theorem acc_closed {N : ℕ} (f : (n : ℕ) → n < N → S1x1.Idx → EReal) (M : ℕ → EReal)
    (h0 : ∀ (n : ℕ) (h : n < N), n % 32 = 0 → f n h = fun _ => 0 + M n)
    (hs : ∀ (n : ℕ) (h : n < N), ¬n % 32 = 0 →
      f n h = fun _ => f (n - 1) (Nat.lt_of_le_of_lt (Nat.sub_le _ _) h) (ix2 (0 : Fin 1) (0 : Fin 1)) + M n) :
    ∀ (n : ℕ) (h : n < N), f n h = fun _ => ∑ s ∈ Finset.range (n % 32 + 1), M (32 * (n / 32) + s) := by
  intro n
  induction n using Nat.strong_induction_on with
  | _ n ih =>
    intro h
    by_cases hn : n % 32 = 0
    · rw [h0 n h hn]
      funext _
      have e : 32 * (n / 32) + 0 = n := by omega
      rw [hn, Finset.sum_range_one, zero_add, e]
    · rw [hs n h hn, ih (n - 1) (by omega) _]
      funext _
      have e1 : (n - 1) % 32 + 1 = n % 32 := by omega
      have e2 : (n - 1) / 32 = n / 32 := by omega
      have e3 : 32 * (n / 32) + n % 32 = n := by omega
      rw [e1, e2, Finset.sum_range_succ, e3]

/-- What the point before `t` left in the three accumulators. -/
abbrev prev0 (c : Dev nD) (t : Fin cfg0.N) : Vec Ideal S1x1 .f32 :=
  (outsAt0 m c (t.val - 1) (Nat.lt_of_le_of_lt (Nat.sub_le _ _) t.isLt)).2.2.2.1
abbrev prev1 (c : Dev nD) (t : Fin cfg0.N) : Vec Ideal S1x1 .f32 :=
  (outsAt0 m c (t.val - 1) (Nat.lt_of_le_of_lt (Nat.sub_le _ _) t.isLt)).2.2.2.2.1
abbrev prev2 (c : Dev nD) (t : Fin cfg0.N) : Vec Ideal S1x1 .f32 :=
  (outsAt0 m c (t.val - 1) (Nat.lt_of_le_of_lt (Nat.sub_le _ _) t.isLt)).2.2.2.2.2

/-- The core of a point. -/
theorem core_lt (t : Fin cfg0.N) : t.val / 32 < 2 := by
  have hN : cfg0.N = 64 := N_0
  have := t.isLt
  omega

/-! ### The classification accumulator -/

/-- At the first step of a run: zero plus the tile's share. -/
theorem ce_first (c : Dev nD) (hT : Spec.LabelsOk (T m c)) (t : Fin cfg0.N) (h0 : t.val % 32 = 0) :
    (outsAt0 m c t.val t.isLt).2.2.2.1 = fun _ => 0 + Spec.tileSum (Spec.ceAt (X m c) (T m c)) t.val := by
  have h1 : ¬t.val % 32 = 31 := by omega
  rw [outsAt0_A m c t h0 h1]
  dsimp only
  refine (KPieces.first_ce (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) ((hcond0_0 t).mpr h0) (fun h => h1 ((hcond0_1 t).mp h))).trans ?_
  refine (stepCE_tile m c hT t (k0_pay8 (F := Ideal))).trans ?_
  rw [KTile.pay8_eq]

/-- At every other step: what the step before left plus the tile's share. -/
theorem ce_next (c : Dev nD) (hT : Spec.LabelsOk (T m c)) (t : Fin cfg0.N) (h0 : ¬t.val % 32 = 0) :
    (outsAt0 m c t.val t.isLt).2.2.2.1
      = fun _ => prev0 m c t (ix2 (0 : Fin 1) (0 : Fin 1)) + Spec.tileSum (Spec.ceAt (X m c) (T m c)) t.val := by
  by_cases h1 : t.val % 32 = 31
  · rw [outsAt0_C m c t h0 h1]
    dsimp only
    refine (KPieces.last_ce (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)).trans ?_
    exact stepCE_tile m c hT t (prev0 m c t)
  · rw [outsAt0_B m c t h0 h1]
    dsimp only
    refine (KPieces.mid_ce (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) (fun h => h1 ((hcond0_1 t).mp h))).trans ?_
    exact stepCE_tile m c hT t (prev0 m c t)

/-- So after point `n` the accumulator holds the shares of the tiles of its run up to `n`. -/
theorem acc_ce (c : Dev nD) (hT : Spec.LabelsOk (T m c)) : ∀ (n : ℕ) (h : n < cfg0.N),
    (outsAt0 m c n h).2.2.2.1
      = fun _ => ∑ s ∈ Finset.range (n % 32 + 1), Spec.tileSum (Spec.ceAt (X m c) (T m c)) (32 * (n / 32) + s) :=
  acc_closed (fun n h => (outsAt0 m c n h).2.2.2.1) (Spec.tileSum (Spec.ceAt (X m c) (T m c)))
    (fun n h h0 => ce_first m c hT ⟨n, h⟩ h0) (fun n h h0 => ce_next m c hT ⟨n, h⟩ h0)

/-- At the last step of a run the output row holds the accumulator: the core's 32 tiles' shares, in every lane. -/
theorem ce_out (c : Dev nD) (hT : Spec.LabelsOk (T m c)) (t : Fin cfg0.N) (h1 : t.val % 32 = 31) :
    (outsAt0 m c t.val t.isLt).1 = fun _ => coreSum (Spec.ceAt (X m c) (T m c)) ⟨t.val / 32, core_lt t⟩ := by
  have h0 : ¬t.val % 32 = 0 := by omega
  have e1 : (outsAt0 m c t.val t.isLt).1 = k0_pay5 (F := Ideal) (stepCE (F := Ideal) (xblk m c t) (tblk m c t) (prev0 m c t)) := by
    rw [outsAt0_C m c t h0 h1]
    dsimp only
    exact KPieces.last_out_ce (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)
  have e2 : (outsAt0 m c t.val t.isLt).2.2.2.1 = stepCE (F := Ideal) (xblk m c t) (tblk m c t) (prev0 m c t) := by
    rw [outsAt0_C m c t h0 h1]
    dsimp only
    exact KPieces.last_ce (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)
  rw [e1, ← e2, acc_ce m c hT t.val t.isLt, KTile.pay5_eq, h1]
  rfl

/-- What a point that writes back writes of the classification row is its block of the rows of core sums. -/
theorem flushed_ce (c : Dev nD) (hT : Spec.LabelsOk (T m c)) (t : Fin cfg0.N) (hf : (cfg0.win 4).flush t = true) :
    (dats m 0 c).flushed 4 t
      = ((cfg0.win 4).blk t).view.read (Elt Ideal) (coreRow (coreSum (Spec.ceAt (X m c) (T m c)))) := by
  have h1 : t.val % 32 = 31 := (flush0_4 t).mp hf
  obtain ⟨-, -, -, -, -, -, -, e0, -⟩ := idx_facts t
  show (cfg0.win 4).cut (grid0.coords t) ((dats m 0 c).after 4 t) = _
  rw [after0_4, ce_out m c hT t h1]
  funext j
  rw [View.read_apply]
  show coreSum (Spec.ceAt (X m c) (T m c)) ⟨t.val / 32, core_lt t⟩
    = coreSum (Spec.ceAt (X m c) (T m c)) ((((cfg0.win 4).blk t).view.emb j) 0)
  congr 1
  apply Fin.ext
  show t.val / 32 = win0_4.index t (0 : Fin 3) * 1 + 1 * (j 0).val
  have hj : (j 0).val < 1 := (j 0).isLt
  rw [e0]
  omega

/-- Row `q` of the classification output is covered by the last point of core `q`'s run. -/
theorem cover_ce (i : S2x1x128.Idx) :
    ∃ t : Fin cfg0.N, (cfg0.win 4).flush t = true ∧ i ∈ ((cfg0.win 4).blk t).view.set := by
  have hN : cfg0.N = 64 := N_0
  have i0 : (i 0 : Nat) < 2 := (i 0).isLt
  have i1 : (i 1 : Nat) < 1 := (i 1).isLt
  have i2 : (i 2 : Nat) < 128 := (i 2).isLt
  obtain ⟨t, ht⟩ : ∃ t : Fin cfg0.N, t.val = 32 * (i 0).val + 31 := ⟨⟨32 * (i 0).val + 31, by omega⟩, rfl⟩
  obtain ⟨-, -, -, -, -, -, -, e0, e1, e2, -⟩ := idx_facts t
  refine ⟨t, (flush0_4 t).mpr (by omega), ?_⟩
  show i ∈ ((View.whole main_v0_0).slice (win0_4.rect t)).set
  rw [View.set_slice_whole, Rect.mem_set_unit]
  intro a
  match a with
  | ⟨0, _⟩ =>
    show win0_4.index t (0 : Fin 3) * 1 ≤ (i 0 : Nat) ∧ (i 0 : Nat) < win0_4.index t (0 : Fin 3) * 1 + 1
    rw [e0]; omega
  | ⟨1, _⟩ =>
    show win0_4.index t (1 : Fin 3) * 1 ≤ (i 1 : Nat) ∧ (i 1 : Nat) < win0_4.index t (1 : Fin 3) * 1 + 1
    rw [e1]; omega
  | ⟨2, _⟩ =>
    show win0_4.index t (2 : Fin 3) * 128 ≤ (i 2 : Nat) ∧ (i 2 : Nat) < win0_4.index t (2 : Fin 3) * 128 + 128
    rw [e2]; omega

/-! ### The regression accumulator -/

/-- At the first step of a run: zero plus the tile's share. -/
theorem reg_first (c : Dev nD) (hT : Spec.LabelsOk (T m c)) (t : Fin cfg0.N) (h0 : t.val % 32 = 0) :
    (outsAt0 m c t.val t.isLt).2.2.2.2.1 = fun _ => 0 + Spec.tileSum (Spec.regAt (B m c) (T m c) (Y m c)) t.val := by
  have h1 : ¬t.val % 32 = 31 := by omega
  rw [outsAt0_A m c t h0 h1]
  dsimp only
  refine (KPieces.first_reg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) ((hcond0_0 t).mpr h0) (fun h => h1 ((hcond0_1 t).mp h))).trans ?_
  refine (stepReg_tile m c hT t (k0_pay9 (F := Ideal))).trans ?_
  rw [KTile.pay9_eq]

/-- At every other step: what the step before left plus the tile's share. -/
theorem reg_next (c : Dev nD) (hT : Spec.LabelsOk (T m c)) (t : Fin cfg0.N) (h0 : ¬t.val % 32 = 0) :
    (outsAt0 m c t.val t.isLt).2.2.2.2.1
      = fun _ => prev1 m c t (ix2 (0 : Fin 1) (0 : Fin 1)) + Spec.tileSum (Spec.regAt (B m c) (T m c) (Y m c)) t.val := by
  by_cases h1 : t.val % 32 = 31
  · rw [outsAt0_C m c t h0 h1]
    dsimp only
    refine (KPieces.last_reg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)).trans ?_
    exact stepReg_tile m c hT t (prev1 m c t)
  · rw [outsAt0_B m c t h0 h1]
    dsimp only
    refine (KPieces.mid_reg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) (fun h => h1 ((hcond0_1 t).mp h))).trans ?_
    exact stepReg_tile m c hT t (prev1 m c t)

/-- So after point `n` the accumulator holds the shares of the tiles of its run up to `n`. -/
theorem acc_reg (c : Dev nD) (hT : Spec.LabelsOk (T m c)) : ∀ (n : ℕ) (h : n < cfg0.N),
    (outsAt0 m c n h).2.2.2.2.1
      = fun _ => ∑ s ∈ Finset.range (n % 32 + 1), Spec.tileSum (Spec.regAt (B m c) (T m c) (Y m c)) (32 * (n / 32) + s) :=
  acc_closed (fun n h => (outsAt0 m c n h).2.2.2.2.1) (Spec.tileSum (Spec.regAt (B m c) (T m c) (Y m c)))
    (fun n h h0 => reg_first m c hT ⟨n, h⟩ h0) (fun n h h0 => reg_next m c hT ⟨n, h⟩ h0)

/-- At the last step of a run the output row holds the accumulator: the core's 32 tiles' shares, in every lane. -/
theorem reg_out (c : Dev nD) (hT : Spec.LabelsOk (T m c)) (t : Fin cfg0.N) (h1 : t.val % 32 = 31) :
    (outsAt0 m c t.val t.isLt).2.1 = fun _ => coreSum (Spec.regAt (B m c) (T m c) (Y m c)) ⟨t.val / 32, core_lt t⟩ := by
  have h0 : ¬t.val % 32 = 0 := by omega
  have e1 : (outsAt0 m c t.val t.isLt).2.1 = k0_pay6 (F := Ideal) (stepReg (F := Ideal) (bblk m c t) (tblk m c t) (yblk m c t) (prev1 m c t)) := by
    rw [outsAt0_C m c t h0 h1]
    dsimp only
    exact KPieces.last_out_reg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)
  have e2 : (outsAt0 m c t.val t.isLt).2.2.2.2.1 = stepReg (F := Ideal) (bblk m c t) (tblk m c t) (yblk m c t) (prev1 m c t) := by
    rw [outsAt0_C m c t h0 h1]
    dsimp only
    exact KPieces.last_reg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)
  rw [e1, ← e2, acc_reg m c hT t.val t.isLt, KTile.pay6_eq, h1]
  rfl

/-- What a point that writes back writes of the regression row is its block of the rows of core sums. -/
theorem flushed_reg (c : Dev nD) (hT : Spec.LabelsOk (T m c)) (t : Fin cfg0.N) (hf : (cfg0.win 5).flush t = true) :
    (dats m 0 c).flushed 5 t
      = ((cfg0.win 5).blk t).view.read (Elt Ideal) (coreRow (coreSum (Spec.regAt (B m c) (T m c) (Y m c)))) := by
  have h1 : t.val % 32 = 31 := (flush0_5 t).mp hf
  obtain ⟨-, -, -, -, -, -, -, -, -, -, e0, -⟩ := idx_facts t
  show (cfg0.win 5).cut (grid0.coords t) ((dats m 0 c).after 5 t) = _
  rw [after0_5, reg_out m c hT t h1]
  funext j
  rw [View.read_apply]
  show coreSum (Spec.regAt (B m c) (T m c) (Y m c)) ⟨t.val / 32, core_lt t⟩
    = coreSum (Spec.regAt (B m c) (T m c) (Y m c)) ((((cfg0.win 5).blk t).view.emb j) 0)
  congr 1
  apply Fin.ext
  show t.val / 32 = win0_5.index t (0 : Fin 3) * 1 + 1 * (j 0).val
  have hj : (j 0).val < 1 := (j 0).isLt
  rw [e0]
  omega

/-- Row `q` of the regression output is covered by the last point of core `q`'s run. -/
theorem cover_reg (i : S2x1x128.Idx) :
    ∃ t : Fin cfg0.N, (cfg0.win 5).flush t = true ∧ i ∈ ((cfg0.win 5).blk t).view.set := by
  have hN : cfg0.N = 64 := N_0
  have i0 : (i 0 : Nat) < 2 := (i 0).isLt
  have i1 : (i 1 : Nat) < 1 := (i 1).isLt
  have i2 : (i 2 : Nat) < 128 := (i 2).isLt
  obtain ⟨t, ht⟩ : ∃ t : Fin cfg0.N, t.val = 32 * (i 0).val + 31 := ⟨⟨32 * (i 0).val + 31, by omega⟩, rfl⟩
  obtain ⟨-, -, -, -, -, -, -, -, -, -, e0, e1, e2, -⟩ := idx_facts t
  refine ⟨t, (flush0_5 t).mpr (by omega), ?_⟩
  show i ∈ ((View.whole main_v0_1).slice (win0_5.rect t)).set
  rw [View.set_slice_whole, Rect.mem_set_unit]
  intro a
  match a with
  | ⟨0, _⟩ =>
    show win0_5.index t (0 : Fin 3) * 1 ≤ (i 0 : Nat) ∧ (i 0 : Nat) < win0_5.index t (0 : Fin 3) * 1 + 1
    rw [e0]; omega
  | ⟨1, _⟩ =>
    show win0_5.index t (1 : Fin 3) * 1 ≤ (i 1 : Nat) ∧ (i 1 : Nat) < win0_5.index t (1 : Fin 3) * 1 + 1
    rw [e1]; omega
  | ⟨2, _⟩ =>
    show win0_5.index t (2 : Fin 3) * 128 ≤ (i 2 : Nat) ∧ (i 2 : Nat) < win0_5.index t (2 : Fin 3) * 128 + 128
    rw [e2]; omega

/-! ### The foreground-count accumulator -/

/-- At the first step of a run: zero plus the tile's share. -/
theorem fg_first (c : Dev nD) (t : Fin cfg0.N) (h0 : t.val % 32 = 0) :
    (outsAt0 m c t.val t.isLt).2.2.2.2.2 = fun _ => 0 + Spec.tileSum (Spec.fgAt (T m c)) t.val := by
  have h1 : ¬t.val % 32 = 31 := by omega
  rw [outsAt0_A m c t h0 h1]
  dsimp only
  refine (KPieces.first_fg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) ((hcond0_0 t).mpr h0) (fun h => h1 ((hcond0_1 t).mp h))).trans ?_
  refine (stepFg_tile m c t (k0_pay10 (F := Ideal))).trans ?_
  rw [KTile.pay10_eq]

/-- At every other step: what the step before left plus the tile's share. -/
theorem fg_next (c : Dev nD) (t : Fin cfg0.N) (h0 : ¬t.val % 32 = 0) :
    (outsAt0 m c t.val t.isLt).2.2.2.2.2
      = fun _ => prev2 m c t (ix2 (0 : Fin 1) (0 : Fin 1)) + Spec.tileSum (Spec.fgAt (T m c)) t.val := by
  by_cases h1 : t.val % 32 = 31
  · rw [outsAt0_C m c t h0 h1]
    dsimp only
    refine (KPieces.last_fg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)).trans ?_
    exact stepFg_tile m c t (prev2 m c t)
  · rw [outsAt0_B m c t h0 h1]
    dsimp only
    refine (KPieces.mid_fg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) (fun h => h1 ((hcond0_1 t).mp h))).trans ?_
    exact stepFg_tile m c t (prev2 m c t)

/-- So after point `n` the accumulator holds the shares of the tiles of its run up to `n`. -/
theorem acc_fg (c : Dev nD) : ∀ (n : ℕ) (h : n < cfg0.N),
    (outsAt0 m c n h).2.2.2.2.2
      = fun _ => ∑ s ∈ Finset.range (n % 32 + 1), Spec.tileSum (Spec.fgAt (T m c)) (32 * (n / 32) + s) :=
  acc_closed (fun n h => (outsAt0 m c n h).2.2.2.2.2) (Spec.tileSum (Spec.fgAt (T m c)))
    (fun n h h0 => fg_first m c ⟨n, h⟩ h0) (fun n h h0 => fg_next m c ⟨n, h⟩ h0)

/-- At the last step of a run the output row holds the accumulator: the core's 32 tiles' shares, in every lane. -/
theorem fg_out (c : Dev nD) (t : Fin cfg0.N) (h1 : t.val % 32 = 31) :
    (outsAt0 m c t.val t.isLt).2.2.1 = fun _ => coreSum (Spec.fgAt (T m c)) ⟨t.val / 32, core_lt t⟩ := by
  have h0 : ¬t.val % 32 = 0 := by omega
  have e1 : (outsAt0 m c t.val t.isLt).2.2.1 = k0_pay7 (F := Ideal) (stepFg (F := Ideal) (tblk m c t) (prev2 m c t)) := by
    rw [outsAt0_C m c t h0 h1]
    dsimp only
    exact KPieces.last_out_fg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)
  have e2 : (outsAt0 m c t.val t.isLt).2.2.2.2.2 = stepFg (F := Ideal) (tblk m c t) (prev2 m c t) := by
    rw [outsAt0_C m c t h0 h1]
    dsimp only
    exact KPieces.last_fg (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (xblk m c t) (bblk m c t) (tblk m c t) (yblk m c t) (prev0 m c t) (prev1 m c t) (prev2 m c t) (fun h => h0 ((hcond0_0 t).mp h)) ((hcond0_1 t).mpr h1)
  rw [e1, ← e2, acc_fg m c t.val t.isLt, KTile.pay7_eq, h1]
  rfl

/-- What a point that writes back writes of the foreground-count row is its block of the rows of core sums. -/
theorem flushed_fg (c : Dev nD) (t : Fin cfg0.N) (hf : (cfg0.win 6).flush t = true) :
    (dats m 0 c).flushed 6 t
      = ((cfg0.win 6).blk t).view.read (Elt Ideal) (coreRow (coreSum (Spec.fgAt (T m c)))) := by
  have h1 : t.val % 32 = 31 := (flush0_6 t).mp hf
  obtain ⟨-, -, -, -, -, -, -, -, -, -, -, -, -, e0, -⟩ := idx_facts t
  show (cfg0.win 6).cut (grid0.coords t) ((dats m 0 c).after 6 t) = _
  rw [after0_6, fg_out m c t h1]
  funext j
  rw [View.read_apply]
  show coreSum (Spec.fgAt (T m c)) ⟨t.val / 32, core_lt t⟩
    = coreSum (Spec.fgAt (T m c)) ((((cfg0.win 6).blk t).view.emb j) 0)
  congr 1
  apply Fin.ext
  show t.val / 32 = win0_6.index t (0 : Fin 3) * 1 + 1 * (j 0).val
  have hj : (j 0).val < 1 := (j 0).isLt
  rw [e0]
  omega

/-- Row `q` of the foreground-count output is covered by the last point of core `q`'s run. -/
theorem cover_fg (i : S2x1x128.Idx) :
    ∃ t : Fin cfg0.N, (cfg0.win 6).flush t = true ∧ i ∈ ((cfg0.win 6).blk t).view.set := by
  have hN : cfg0.N = 64 := N_0
  have i0 : (i 0 : Nat) < 2 := (i 0).isLt
  have i1 : (i 1 : Nat) < 1 := (i 1).isLt
  have i2 : (i 2 : Nat) < 128 := (i 2).isLt
  obtain ⟨t, ht⟩ : ∃ t : Fin cfg0.N, t.val = 32 * (i 0).val + 31 := ⟨⟨32 * (i 0).val + 31, by omega⟩, rfl⟩
  obtain ⟨-, -, -, -, -, -, -, -, -, -, -, -, -, e0, e1, e2⟩ := idx_facts t
  refine ⟨t, (flush0_6 t).mpr (by omega), ?_⟩
  show i ∈ ((View.whole main_v0_2).slice (win0_6.rect t)).set
  rw [View.set_slice_whole, Rect.mem_set_unit]
  intro a
  match a with
  | ⟨0, _⟩ =>
    show win0_6.index t (0 : Fin 3) * 1 ≤ (i 0 : Nat) ∧ (i 0 : Nat) < win0_6.index t (0 : Fin 3) * 1 + 1
    rw [e0]; omega
  | ⟨1, _⟩ =>
    show win0_6.index t (1 : Fin 3) * 1 ≤ (i 1 : Nat) ∧ (i 1 : Nat) < win0_6.index t (1 : Fin 3) * 1 + 1
    rw [e1]; omega
  | ⟨2, _⟩ =>
    show win0_6.index t (2 : Fin 3) * 128 ≤ (i 2 : Nat) ∧ (i 2 : Nat) < win0_6.index t (2 : Fin 3) * 128 + 128
    rw [e2]; omega

/-! ## The three output arrays -/

/-- The classification output array after the run. -/
theorem final_ce (c : Dev nD) (hT : Spec.LabelsOk (T m c)) :
    (dats m 0 c).arrAt 4 cfg0.N = coreRow (coreSum (Spec.ceAt (X m c) (T m c))) :=
  (dats m 0 c).arrAt_eq_of_cover 4 (coreRow (coreSum (Spec.ceAt (X m c) (T m c)))) (flushed_ce m c hT) (fun i => cover_ce i)

/-- The regression output array after the run. -/
theorem final_reg (c : Dev nD) (hT : Spec.LabelsOk (T m c)) :
    (dats m 0 c).arrAt 5 cfg0.N = coreRow (coreSum (Spec.regAt (B m c) (T m c) (Y m c))) :=
  (dats m 0 c).arrAt_eq_of_cover 5 (coreRow (coreSum (Spec.regAt (B m c) (T m c) (Y m c)))) (flushed_reg m c hT) (fun i => cover_reg i)

/-- The foreground-count output array after the run. -/
theorem final_fg (c : Dev nD) (hT : Spec.LabelsOk (T m c)) :
    (dats m 0 c).arrAt 6 cfg0.N = coreRow (coreSum (Spec.fgAt (T m c))) :=
  (dats m 0 c).arrAt_eq_of_cover 6 (coreRow (coreSum (Spec.fgAt (T m c)))) (flushed_fg m c) (fun i => cover_fg i)

end Cert.KernelIdeal.KAcc

end
-- ==== Proof.KTail.lean ====
/-
  The host operations after the region: from the three output arrays to the three losses.

  Each array's lane 0 is sliced out ([2,1,128] → [2,1,1] → [2]) and its two rows summed; then
  `cls = (-s1) / N`, `reg = (s3 > 0) ? s2 / max(1, s3) : 0`, `total = cls + 1 · reg`.
-/
import proofs.«419196_j81441169867202_3_alg».proof.Proof.Gen.KernelIdeal.Frame
import proofs.«419196_j81441169867202_3_alg».proof.Proof.KDefs
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KTail

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.KDefs

variable (m : (ℓ : Loc nD τ sig) → Buf (Elt Ideal) ℓ)

/-- A rank-1 index set is its one coordinate's range, so a sum over it is the sum over the coordinate. -/
def idxEquiv1 {n : Nat} : (⟨1, ![n]⟩ : Shape).Idx ≃ Fin n where
  toFun i := i 0
  invFun q := ix1 q
  left_inv i := (eq_ix1 i).symm
  right_inv _ := rfl

theorem sum_idx1 {M : Type*} [AddCommMonoid M] {n : Nat} (f : (⟨1, ![n]⟩ : Shape).Idx → M) :
    ∑ i, f i = ∑ q : Fin n, f (ix1 q) := by
  rw [← Equiv.sum_comp (idxEquiv1 (n := n)).symm f]
  rfl

/-- Lane 0 of each of the two rows, as an array of 2, summed from the zero word. -/
def laneSum (x : Vec Ideal S2x1x128 .f32) : Vec Ideal S_ .f32 :=
  Host.reduceAdd (F := Ideal)
    (fun i => shapeCast S2 (extractStridedSlice S2x1x1 ![0, 0, 0] x slices_S2x1x128_S2x1x1_0_0_0) shapeCasts_S2x1x1_S2 i)
    (constant (F := Ideal) S_ .f32 0x00000000#32) reducesTo_S2_S_d0 h_S_

/-- Entry q of the sliced and reshaped array is the value of row q. -/
theorem lane_coreRow (a : Fin 2 → EReal) (q : Fin 2) :
    shapeCast S2 (extractStridedSlice S2x1x1 ![0, 0, 0] (coreRow a) slices_S2x1x128_S2x1x1_0_0_0) shapeCasts_S2x1x1_S2 (ix1 q)
      = a q := by
  refine (shapeCast_apply _ shapeCasts_S2x1x1_S2 (ix1 q) (ix3 q (0 : Fin 1) (0 : Fin 1)) ?_).trans ?_
  · rw [Shape.rowMajor_val_three, Shape.rowMajor_val_one]
    show (q.val * 1 + 0) * 1 + 0 = q.val
    omega
  · refine (extractStridedSlice_apply ![0, 0, 0] (coreRow a) slices_S2x1x128_S2x1x1_0_0_0
      (ix3 q (0 : Fin 1) (0 : Fin 1)) (ix3 q (0 : Fin 1) (0 : Fin 128)) ?_).trans rfl
    intro d
    match d with
    | ⟨0, _⟩ => show q.val = 0 + q.val; omega
    | ⟨1, _⟩ => rfl
    | ⟨2, _⟩ => rfl

theorem laneSum_coreRow (a : Fin 2 → EReal) : laneSum (coreRow a) = fun _ => ∑ q, a q := by
  funext j
  unfold laneSum
  show Ideal.hostReduceAdd reducesTo_S2_S_d0 _ (Ideal.ofBits .f32 0x00000000#32) j = _
  rw [Ideal.hostReduceAdd_total reducesTo_S2_S_d0 (fun b => b.elim0), Ideal.ofBits_zero_f32, zero_add, sum_idx1]
  exact Finset.sum_congr rfl fun q _ => lane_coreRow a q

/-- What the region leaves in an output array is what the operations after it read there. -/
theorem arr4 (c : Dev nD) (a : Fin 2 → EReal) (h : (dats m 0 c).arrAt 4 cfg0.N = coreRow a) :
    Pipeline.withArrays (cfgs 0).spec c (V0 m c) (fun w => (dats m 0 c).arrAt w (cfgs 0).N) (Proc.devRef .tc main_v0_0)
      = coreRow a :=
  (Pipeline.withArrays_arr spec0 launch0.win.arr_inj c _ _ 4).trans h
theorem arr5 (c : Dev nD) (a : Fin 2 → EReal) (h : (dats m 0 c).arrAt 5 cfg0.N = coreRow a) :
    Pipeline.withArrays (cfgs 0).spec c (V0 m c) (fun w => (dats m 0 c).arrAt w (cfgs 0).N) (Proc.devRef .tc main_v0_1)
      = coreRow a :=
  (Pipeline.withArrays_arr spec0 launch0.win.arr_inj c _ _ 5).trans h
theorem arr6 (c : Dev nD) (a : Fin 2 → EReal) (h : (dats m 0 c).arrAt 6 cfg0.N = coreRow a) :
    Pipeline.withArrays (cfgs 0).spec c (V0 m c) (fun w => (dats m 0 c).arrAt w (cfgs 0).N) (Proc.devRef .tc main_v0_2)
      = coreRow a :=
  (Pipeline.withArrays_arr spec0 launch0.win.arr_inj c _ _ 6).trans h

/-- The classification loss from the first array's sum. -/
def clsT (x4 : Vec Ideal S2x1x128 .f32) : Vec Ideal S_ .f32 :=
  Host.divf (F := Ideal) (Host.negf (F := Ideal) (laneSum x4)) (constant (F := Ideal) S_ .f32 0x48800000#32)

/-- The regression loss from the second and third arrays' sums. -/
def regT (x5 x6 : Vec Ideal S2x1x128 .f32) : Vec Ideal S_ .f32 :=
  select (cmpf (F := Ideal) .ogt (laneSum x6) (constant (F := Ideal) S_ .f32 0x00000000#32))
    (Host.divf (F := Ideal) (laneSum x5) (maximumf (F := Ideal) (constant (F := Ideal) S_ .f32 0x3F800000#32) (laneSum x6)))
    (constant (F := Ideal) S_ .f32 0x00000000#32)

/-- The total loss from the three arrays' sums. -/
def totT (x4 x5 x6 : Vec Ideal S2x1x128 .f32) : Vec Ideal S_ .f32 :=
  addf (F := Ideal) (clsT x4) (mulf (F := Ideal) (constant (F := Ideal) S_ .f32 0x3F800000#32) (regT x5 x6))

theorem clsT_coreRow (a4 : Fin 2 → EReal) : clsT (coreRow a4) = fun _ => Spec.clsOf (∑ q, a4 q) := by
  unfold clsT
  rw [laneSum_coreRow]
  rfl

theorem regT_coreRow (a5 a6 : Fin 2 → EReal) :
    regT (coreRow a5) (coreRow a6) = fun _ => Spec.regOf (∑ q, a5 q) (∑ q, a6 q) := by
  unfold regT
  rw [laneSum_coreRow, laneSum_coreRow]
  rfl

theorem totT_coreRow (a4 a5 a6 : Fin 2 → EReal) :
    totT (coreRow a4) (coreRow a5) (coreRow a6) = fun _ => Spec.totalOf (∑ q, a4 q) (∑ q, a5 q) (∑ q, a6 q) := by
  unfold totT
  rw [clsT_coreRow, regT_coreRow]
  rfl

/-- The classification loss the operations leave. -/
theorem tail11 (c : Dev nD) (a4 : Fin 2 → EReal) (h4 : (dats m 0 c).arrAt 4 cfg0.N = coreRow a4) :
    Pipeline.afterTail₀ cfgs (dats m) 0 (V0 m) [hostOps1, hostOps1_1, hostOps1_2] c main_v11
        = (fun _ => Spec.clsOf (∑ q, a4 q)) := by
  unfold Pipeline.afterTail₀
  show StableHlo.after (List.flatten [hostOps1, hostOps1_1, hostOps1_2]) _ (Proc.devRef .tc main_v11) = _
  simp only [hostOps1, hostOps1_1, hostOps1_2, List.flatten_cons, List.flatten_nil, List.append_nil, List.cons_append, List.nil_append]
  after_results
  rw [arr4 m c a4 h4]
  exact clsT_coreRow a4

/-- The regression loss the operations leave. -/
theorem tail15 (c : Dev nD) (a5 a6 : Fin 2 → EReal)
    (h5 : (dats m 0 c).arrAt 5 cfg0.N = coreRow a5) (h6 : (dats m 0 c).arrAt 6 cfg0.N = coreRow a6) :
    Pipeline.afterTail₀ cfgs (dats m) 0 (V0 m) [hostOps1, hostOps1_1, hostOps1_2] c main_v15
        = (fun _ => Spec.regOf (∑ q, a5 q) (∑ q, a6 q)) := by
  unfold Pipeline.afterTail₀
  show StableHlo.after (List.flatten [hostOps1, hostOps1_1, hostOps1_2]) _ (Proc.devRef .tc main_v15) = _
  simp only [hostOps1, hostOps1_1, hostOps1_2, List.flatten_cons, List.flatten_nil, List.append_nil, List.cons_append, List.nil_append]
  after_results_simp
  rw [arr5 m c a5 h5, arr6 m c a6 h6]
  exact regT_coreRow a5 a6

/-- The total loss the operations leave. -/
theorem tail17 (c : Dev nD) (a4 a5 a6 : Fin 2 → EReal)
    (h4 : (dats m 0 c).arrAt 4 cfg0.N = coreRow a4) (h5 : (dats m 0 c).arrAt 5 cfg0.N = coreRow a5)
    (h6 : (dats m 0 c).arrAt 6 cfg0.N = coreRow a6) :
    Pipeline.afterTail₀ cfgs (dats m) 0 (V0 m) [hostOps1, hostOps1_1, hostOps1_2] c main_v17
        = (fun _ => Spec.totalOf (∑ q, a4 q) (∑ q, a5 q) (∑ q, a6 q)) := by
  unfold Pipeline.afterTail₀
  show StableHlo.after (List.flatten [hostOps1, hostOps1_1, hostOps1_2]) _ (Proc.devRef .tc main_v17) = _
  simp only [hostOps1, hostOps1_1, hostOps1_2, List.flatten_cons, List.flatten_nil, List.append_nil, List.cons_append, List.nil_append]
  after_results_simp
  rw [arr4 m c a4 h4, arr5 m c a5 h5, arr6 m c a6 h6]
  exact totT_coreRow a4 a5 a6

/-- The three results, when the output arrays hold per-core values `a4`, `a5`, `a6`. -/
theorem tail (c : Dev nD) (a4 a5 a6 : Fin 2 → EReal)
    (h4 : (dats m 0 c).arrAt 4 cfg0.N = coreRow a4) (h5 : (dats m 0 c).arrAt 5 cfg0.N = coreRow a5)
    (h6 : (dats m 0 c).arrAt 6 cfg0.N = coreRow a6) :
    Pipeline.afterTail₀ cfgs (dats m) 0 (V0 m) [hostOps1, hostOps1_1, hostOps1_2] c main_v17
        = (fun _ => Spec.totalOf (∑ q, a4 q) (∑ q, a5 q) (∑ q, a6 q))
    ∧ Pipeline.afterTail₀ cfgs (dats m) 0 (V0 m) [hostOps1, hostOps1_1, hostOps1_2] c main_v11
        = (fun _ => Spec.clsOf (∑ q, a4 q))
    ∧ Pipeline.afterTail₀ cfgs (dats m) 0 (V0 m) [hostOps1, hostOps1_1, hostOps1_2] c main_v15
        = (fun _ => Spec.regOf (∑ q, a5 q) (∑ q, a6 q)) :=
  ⟨tail17 m c a4 a5 a6 h4 h5 h6, tail11 m c a4 h4, tail15 m c a5 a6 h5 h6⟩

end Cert.KernelIdeal.KTail

end
-- ==== Proof.SpecSum.lean ====
/-
  A sum over the 262144 samples, taken tile by tile: 2 cores, 32 tiles a core, 4096 samples a tile.
-/
import proofs.«419196_j81441169867202_3_alg».proof.Proof.Spec
import Mathlib.Data.Fintype.BigOperators
import Mathlib.Logic.Equiv.Fin.Basic

noncomputable section

open scoped BigOperators

namespace Cert.Spec

/-- A sum over `m * n` consecutive numbers is the sum over `m` blocks of the sums over each block's `n` numbers:
    number `b + n a` is the `b`-th of block `a`. -/
theorem sum_fin_blocks {M : Type*} [AddCommMonoid M] (m n : ℕ) (f : Fin (m * n) → M) :
    ∑ i, f i = ∑ a : Fin m, ∑ b : Fin n, f (finProdFinEquiv (a, b)) := by
  rw [← finProdFinEquiv.sum_comp f, Fintype.sum_prod_type]

/-- The samples in the order the grid visits them: core `q`, its tile `s`, the tile's sample `r` is sample
    `4096 (32 q + s) + r`; every sample is met once. -/
theorem sum_tileSum (g : Fin 262144 → EReal) :
    ∑ q : Fin 2, ∑ s ∈ Finset.range 32, tileSum g (32 * q.val + s) = ∑ n : Fin 262144, g n := by
  -- a core's 32 tiles, each the sum over its 4096 samples
  have hq : ∀ q : Fin 2, ∑ s ∈ Finset.range 32, tileSum g (32 * q.val + s)
      = ∑ s : Fin 32, ∑ r : Fin 4096, g ⟨4096 * (32 * q.val + s.val) + r.val, by omega⟩ := by
    intro q
    rw [← Fin.sum_univ_eq_sum_range (fun s => tileSum g (32 * q.val + s)) 32]
    refine Finset.sum_congr rfl fun s _ => ?_
    have hp : 32 * q.val + s.val < 64 := by omega
    unfold tileSum
    rw [dif_pos hp]
  rw [Finset.sum_congr rfl fun q _ => hq q]
  -- the 262144 samples as 2 · 32 blocks of 4096, the blocks as 2 blocks of 32
  have hg : ∑ n : Fin 262144, g n
      = ∑ q : Fin 2, ∑ s : Fin 32, ∑ r : Fin 4096,
          g (finProdFinEquiv (m := 2 * 32) (n := 4096) (finProdFinEquiv (m := 2) (n := 32) (q, s), r)) := by
    refine (sum_fin_blocks (2 * 32) 4096 g).trans ?_
    exact sum_fin_blocks 2 32 fun p => ∑ r : Fin 4096, g (finProdFinEquiv (m := 2 * 32) (n := 4096) (p, r))
  rw [hg]
  refine Finset.sum_congr rfl fun q _ => Finset.sum_congr rfl fun s _ => Finset.sum_congr rfl fun r _ => ?_
  refine congrArg g (Fin.ext ?_)
  show 4096 * (32 * q.val + s.val) + r.val = r.val + 4096 * (s.val + 32 * q.val)
  omega

end Cert.Spec

end
-- ==== Proof.KValue.lean ====
/-
  The kernel's three results are the three losses.

  After the grid, row `q` of each output array holds core `q`'s sum over its 32 tiles of 4096 samples; the host operations
  after the region add the two rows, and the two cores' tiles are all the samples, each once: the three sums are the sums over
  all 262144 samples, and the host's closing arithmetic is the losses' own.
-/
import proofs.«419196_j81441169867202_3_alg».proof.Proof.Gen.KernelIdeal.Frame
import proofs.«419196_j81441169867202_3_alg».proof.Proof.KDefs
import proofs.«419196_j81441169867202_3_alg».proof.Proof.KAcc
import proofs.«419196_j81441169867202_3_alg».proof.Proof.KTail
import proofs.«419196_j81441169867202_3_alg».proof.Proof.SpecSum
import Idealize.ShloMosaic.Lib.Pipeline.Value

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KDefs

variable (m : (ℓ : Loc nD τ sig) → Buf (Elt Ideal) ℓ) (ρ : Dev nD → PrngReg)

/-- The two cores' sums of a per-sample quantity add up to its sum over all samples. -/
theorem sum_coreSum (g : Fin 262144 → EReal) : ∑ q : Fin 2, coreSum g q = ∑ n : Fin 262144, g n :=
  Spec.sum_tileSum g

/-- The result buffers are untouched by the region: they are no window's array and are not scoped. -/
theorem v17_rest : main_v17 ∈ Pipeline.restRefs sig (cfgs 0).spec := Pipeline.mem_restRefs_of _ rfl (by decide)
theorem v11_rest : main_v11 ∈ Pipeline.restRefs sig (cfgs 0).spec := Pipeline.mem_restRefs_of _ rfl (by decide)
theorem v15_rest : main_v15 ∈ Pipeline.restRefs sig (cfgs 0).spec := Pipeline.mem_restRefs_of _ rfl (by decide)

/-- The kernel's run with its results named: total, classification and regression loss of the arguments. -/
theorem run (hT : ∀ c : Dev nD, Spec.LabelsOk (T m c)) :
    θ_run defs (onTc (τ := τ) (main (F := Ideal))) ⟨m, fun _ => 0, ρ⟩ fun r => ∀ c : Dev nD,
      r.2.mem ((c.tc : Thread nD τ).loc main_v17) = (fun _ => Spec.total (X m c) (B m c) (T m c) (Y m c))
      ∧ r.2.mem ((c.tc : Thread nD τ).loc main_v11) = (fun _ => Spec.cls (X m c) (T m c))
      ∧ r.2.mem ((c.tc : Thread nD τ).loc main_v15) = (fun _ => Spec.reg (B m c) (T m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have key : ∀ c : Dev nD,
      Pipeline.afterTail₀ cfgs (dats m) 0 (V0 m) [hostOps1, hostOps1_1, hostOps1_2] c main_v17
          = (fun _ => Spec.total (X m c) (B m c) (T m c) (Y m c))
      ∧ Pipeline.afterTail₀ cfgs (dats m) 0 (V0 m) [hostOps1, hostOps1_1, hostOps1_2] c main_v11
          = (fun _ => Spec.cls (X m c) (T m c))
      ∧ Pipeline.afterTail₀ cfgs (dats m) 0 (V0 m) [hostOps1, hostOps1_1, hostOps1_2] c main_v15
          = (fun _ => Spec.reg (B m c) (T m c) (Y m c)) := fun c => by
    have h := KTail.tail m c _ _ _ (KAcc.final_ce m c (hT c)) (KAcc.final_reg m c (hT c)) (KAcc.final_fg m c (hT c))
    rw [sum_coreSum, sum_coreSum, sum_coreSum] at h
    exact h
  exact (θ_run defs _ _).mono (fun _ h c =>
    ⟨((h c).2 main_v17 v17_rest).trans (key c).1,
     ((h c).2 main_v11 v11_rest).trans (key c).2.1,
     ((h c).2 main_v15 v15_rest).trans (key c).2.2,
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main m ρ)

end Cert.KernelIdeal.KValue

end
-- ==== Proof.LibGatherLast.lean ====
/-
  A gather along the last axis of a rank-2 array, read at an index.

  What `take_along_axis(x, idx, axis = 1)` of an array `x : [B, N]` at an integer array `idx : [B, P]` lowers to:
  `stablehlo.gather` with axis 0 a batching axis on both sides, operand axis 1 collapsed and named by the start index
  map, the index vector on a third unit axis of the start indices, and slices of one element. Result element `(b, p)`
  is the operand at `(b, j)` where `j` is the start index `idx[b, p, 0]` read as a signed integer and clamped into
  `[0, N − 1]`, as the gather clamps every start index so that the slice fits.
-/
import Idealize.ShloMosaic.Lib.ValueIdx

namespace Cert.GatherLast

open Idealize.ShloMosaic Idealize.ShloMosaic.ValueIdx

/-- Those dimension numbers for an operand `[B, N]`, start indices `[B, P, 1]` and result `[B, P]`; their conditions
    `wf` are decided on a program's literal shapes. -/
abbrev lastDims (B N P : Nat)
    (wf : GatherDims.WF ⟨2, ![B, N]⟩ ⟨3, ![B, P, 1]⟩ ⟨2, ![B, P]⟩ [] [1] [0] [1] [0] 2 ![1, 1]) :
    GatherDims ⟨2, ![B, N]⟩ ⟨3, ![B, P, 1]⟩ ⟨2, ![B, P]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, p)`: the operand at `(b, j)`, `j` the start index `idx[b, p, 0]` read signed and clamped
    into `[0, N − 1]`. -/
theorem gather_last_apply {α : Type} {B N P w : Nat} (hN : 0 < N)
    (wf : GatherDims.WF ⟨2, ![B, N]⟩ ⟨3, ![B, P, 1]⟩ ⟨2, ![B, P]⟩ [] [1] [0] [1] [0] 2 ![1, 1])
    (x : (⟨2, ![B, N]⟩ : Shape).Idx → α) (idx : IVec ⟨3, ![B, P, 1]⟩ w) (b : Fin B) (p : Fin P) :
    Host.gather (lastDims B N P wf) x idx (ix2 b p)
      = x (ix2 b ⟨min (idx (ix3 b p (0 : Fin 1))).toInt.toNat (N - 1), by omega⟩) := by
  show x ((lastDims B N P wf).operandIdx (ix2 b p) idx) = _
  refine congrArg x (funext fun a => Fin.ext ?_)
  show (lastDims B N P wf).start (ix2 b p) idx a + (lastDims B N P wf).batchCoord (ix2 b p) a
    + (lastDims B N P wf).offCoord (ix2 b p) a = _
  match a with
  | ⟨0, h0⟩ =>
    -- the batching axis: no start index, no offset, the result's own first coordinate
    have hb : (⟨0, h0⟩ : Fin 2) ∈ (lastDims B N P wf).operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    -- the indexed, collapsed axis: the clamped start index alone
    have hm : (⟨1, h1⟩ : Fin 2) ∈ (lastDims B N P wf).startIndexMap := List.mem_singleton.mpr rfl
    rw [GatherDims.batchCoord_eq_zero _ _ _ (GatherDims.sim_disjoint _ _ hm),
      GatherDims.offCoord_eq_zero _ _ _ (fun h => ((GatherDims.mem_sKept _ _).mp h).1 (List.mem_singleton.mpr rfl))]
    simp only [Nat.add_zero]
    unfold GatherDims.start
    rw [dif_pos hm]
    have hsi : (lastDims B N P wf).siIdx (ix2 b p) ⟨List.idxOf (⟨1, h1⟩ : Fin 2) (lastDims B N P wf).startIndexMap,
        List.idxOf_lt_length_iff.2 hm⟩ = ix3 b p (0 : Fin 1) := by
      funext c; refine Fin.ext ?_
      match c with
      | ⟨0, _⟩ => rfl
      | ⟨1, _⟩ => rfl
      | ⟨2, _⟩ => rfl
    rw [hsi]
    rfl

end Cert.GatherLast
-- ==== Proof.RefCE.lean ====
/-
  The reference's classification loss. It takes the log-softmax of every row, picks the label's entry with take_along_axis (a label below 0 counted from the end, a label outside the row answered by a fill value: neither happens for labels in 0..80, where the gather reads entry `label` itself), sums over the samples, divides by N and negates; minus a quotient is the quotient of minus the numerator.
-/
import proofs.«419196_j81441169867202_3_alg».proof.Proof.RefRead
import proofs.«419196_j81441169867202_3_alg».proof.Proof.Spec
import proofs.«419196_j81441169867202_3_alg».proof.Proof.LibGatherLast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read

/-! ## The log-softmax of a row -/

/-- The row maximum the reference takes (a fold of the maximum from -∞ along the row, once more against -∞) is the
    specification's. -/
theorem rowmax_apply (X : (⟨S262144x81, .f32⟩ : BufTy).Contents (Elt Ideal)) (n : Fin 262144) :
    val_main_call0_v2 (F := Ideal) X (ix1 n) = Spec.rmax (fun k => X (ix2 n k)) := by
  rw [val_main_call0_v2_apply, val_main_call0_v1_apply, val_main_call0_cst_0_apply]
  unfold val_main_call0_v0
  have hr := Host.reduce_eq_fold_single (FloatOps.maximumf (F := Ideal) (φ := .f32)) X (val_main_call0_cst (F := Ideal))
    reducesTo_S262144x81_S262144_d1 (by decide) h_S_ (ix1 n)
  rw [hr]
  unfold Spec.rmax
  refine congrArg (max Spec.ninf) ?_
  refine congrArg (fun f => (Finset.univ : Finset (Fin 81)).fold max Spec.ninf f)
    (funext fun k => congrArg X (funext fun a => Fin.ext ?_))
  match a with
  | ⟨0, _⟩ => rfl
  | ⟨1, _⟩ => rfl

/-- A logit minus its row's maximum. -/
theorem shifted_apply (X : (⟨S262144x81, .f32⟩ : BufTy).Contents (Elt Ideal)) (n : Fin 262144) (k : Fin 81) :
    val_main_call0_v5 (F := Ideal) X (ix2 n k) = X (ix2 n k) - Spec.rmax (fun j => X (ix2 n j)) := by
  rw [val_main_call0_v5_apply, val_main_call0_v4_apply, val_main_call0_v3_apply]
  have hi : idx_main_call0_v3 (idx_main_call0_v4 (ix2 n k)) = ix1 n := funext fun a => by
    match a with
    | ⟨0, _⟩ => rfl
  rw [hi, rowmax_apply]
  rfl

/-- The sum of the exponentials of a row's shifted logits. -/
theorem sumexp_apply (X : (⟨S262144x81, .f32⟩ : BufTy).Contents (Elt Ideal)) (n : Fin 262144) :
    val_main_call0_v7 (F := Ideal) X (ix1 n)
      = ∑ j : Fin 81, Ideal.exp (X (ix2 n j) - Spec.rmax (fun k => X (ix2 n k))) := by
  rw [val_main_call0_v7_apply, val_main_call0_cst_1_apply]
  show Ideal.ofBits .f32 0x00000000#32 + _ = _
  rw [Ideal.ofBits_zero_f32, zero_add]
  refine Finset.sum_congr rfl fun j _ => ?_
  have hi : idx_main_call0_v7 (ix1 n) j = ix2 n j := funext fun a => by
    match a with
    | ⟨0, _⟩ => rfl
    | ⟨1, _⟩ => rfl
  rw [val_main_call0_v6_apply, hi, shifted_apply]
  rfl

/-- The reference's log-softmax, read at (n, k), is the specification's of row n at k. -/
theorem logsoftmax_apply (X : (⟨S262144x81, .f32⟩ : BufTy).Contents (Elt Ideal)) (n : Fin 262144) (k : Fin 81) :
    val_main_v0 (F := Ideal) X (ix2 n k) = Spec.lsm (fun j => X (ix2 n j)) k := by
  rw [val_main_v0_apply, val_main_call0_v10_apply, val_main_call0_v9_apply, val_main_call0_v8_apply]
  have hi : idx_main_call0_v8 (idx_main_call0_v10 (ix2 n k)) = ix1 n := funext fun a => by
    match a with
    | ⟨0, _⟩ => rfl
  rw [hi, sumexp_apply, shifted_apply]
  rfl

/-! ## The label as an index -/

/-- A label that is not negative is left as it is by the normalisation "below 0, add 81". -/
theorem index_apply (T : (⟨S262144, .i32⟩ : BufTy).Contents (Elt Ideal)) (hT : Spec.LabelsOk T) (n : Fin 262144)
    (b c : Fin 1) :
    val_main_call1_v5 (F := Ideal) T (ix3 n b c) = T (ix1 n) := by
  rw [val_main_call1_v5_apply, val_main_call1_v4_apply, val_main_call1_v1_apply, val_main_v1_apply,
    val_main_call1_v0_apply, val_main_call1_c_apply]
  have hi : idx_main_v1 (idx_main_call1_v5 (ix3 n b c)) = ix1 n := funext fun a => by
    match a with
    | ⟨0, _⟩ =>
      refine Fin.ext ?_
      have h1 : b.val < 1 := b.isLt
      have h2 : c.val < 1 := c.isLt
      show ((n.val * 1 + b.val) * 1 + c.val) / 1 = n.val
      omega
  rw [hi]
  have h0 : ¬ IntOp.cmpi .slt (T (ix1 n)) 0#32 = 1#1 := by
    rw [IntOp.cmpi_slt]
    have h := (hT n).1
    have e0 : (0#32 : BitVec 32).toInt = 0 := by decide
    rw [e0]
    omega
  rw [eq_zero_of_ne_one h0, select_zero]

/-- Every label passes the bounds test 0 ≤ t ≤ 80. -/
theorem inbounds_apply (T : (⟨S262144, .i32⟩ : BufTy).Contents (Elt Ideal)) (hT : Spec.LabelsOk T) (i : S262144x1x1.Idx) :
    val_main_call1_v11 (F := Ideal) T i = 1#1 := by
  obtain ⟨n, b, c, rfl⟩ : ∃ (n : Fin 262144) (b c : Fin 1), i = ix3 n b c := ⟨_, _, _, eq_ix3 i⟩
  have e0 : (0#32 : BitVec 32).toInt = 0 := by decide
  have e80 : (80#32 : BitVec 32).toInt = 80 := by decide
  rw [val_main_call1_v11_apply, IntOp.andi_eq_one, val_main_call1_v7_apply, val_main_call1_v10_apply, IntOp.cmpi_sge,
    IntOp.cmpi_sle, index_apply T hT, val_main_call1_v6_apply, val_main_call1_c_2_apply, val_main_call1_v9_apply,
    val_main_call1_v8_apply, val_main_call1_c_1_apply, e0, e80]
  exact hT n

/-- A conjunction from true of true bits is true. -/
theorem fold_andi_eq_one {ι : Type} (s : Finset ι) (f : ι → BitVec 1) (hf : ∀ k, f k = 1#1) :
    s.fold IntOp.andi 1#1 f = 1#1 := by
  classical
  refine Finset.induction_on s rfl fun a s ha ih => ?_
  rw [Finset.fold_insert ha, hf, ih]
  rfl

/-- So the mask, the conjunction of the test over a unit axis, is true. -/
theorem mask_apply (T : (⟨S262144, .i32⟩ : BufTy).Contents (Elt Ideal)) (hT : Spec.LabelsOk T) (j : S262144x1.Idx) :
    val_main_call1_v12 (F := Ideal) T j = 1#1 := by
  unfold val_main_call1_v12
  have hr := Host.reduce_eq_fold_single (IntOp.andi (w := 1)) (val_main_call1_v11 (F := Ideal) T)
    (val_main_call1_c_3 (F := Ideal)) reducesTo_S262144x1x1_S262144x1_d2 (by decide) h_S_ j
  rw [hr]
  exact fold_andi_eq_one _ _ fun k => inbounds_apply T hT _

/-! ## The gathered entry -/

/-- The gather reads the log-softmax of row n at the label. -/
theorem gather_apply (X : (⟨S262144x81, .f32⟩ : BufTy).Contents (Elt Ideal)) (T : (⟨S262144, .i32⟩ : BufTy).Contents (Elt Ideal))
    (hT : Spec.LabelsOk T) (n : Fin 262144) :
    val_main_call1_v13 (F := Ideal) X T (ix2 n (0 : Fin 1)) = Spec.ceAt X T n := by
  unfold val_main_call1_v13
  refine (Cert.GatherLast.gather_last_apply (B := 262144) (N := 81) (P := 1) (by decide)
    gather_S262144x81_S262144x1x1_S262144x1_n_1_0_0_1_2_11_wf (val_main_v0 (F := Ideal) X)
    (val_main_call1_v5 (F := Ideal) T) n (0 : Fin 1)).trans ?_
  refine (logsoftmax_apply X n _).trans ?_
  unfold Spec.ceAt Spec.ceRow
  refine congrArg (Spec.lsm fun k => X (ix2 n k)) (Fin.ext ?_)
  show min (val_main_call1_v5 (F := Ideal) T (ix3 n (0 : Fin 1) (0 : Fin 1))).toInt.toNat (81 - 1)
    = min (T (ix1 n)).toInt.toNat 80
  rw [index_apply T hT]

/-- The gathered log-probability of sample `n`. -/
theorem ref_ce_apply (X : (⟨S262144x81, .f32⟩ : BufTy).Contents (Elt Ideal)) (T : (⟨S262144, .i32⟩ : BufTy).Contents (Elt Ideal))
    (hT : Spec.LabelsOk T) (n : Fin 262144) :
    val_main_v3 (F := Ideal) X T (ix1 n) = Spec.ceAt X T n := by
  rw [val_main_v3_apply]
  have hi : idx_main_v3 (ix1 n) = ix2 n (0 : Fin 1) := funext fun a => by
    match a with
    | ⟨0, _⟩ => exact Fin.ext (Nat.div_one _)
    | ⟨1, _⟩ => rfl
  rw [hi, val_main_v2_apply, mask_apply T hT, select_one]
  exact gather_apply X T hT n

/-! ## The mean and its sign -/

/-- Minus a quotient is the quotient of minus the numerator, off a zero divisor. -/
theorem neg_div (a b : EReal) (hb : b ≠ 0) : -(Ideal.div a b) = Ideal.div (-a) b := by
  unfold Ideal.div
  rw [if_neg hb, if_neg hb, EReal.neg_mul]

/-- The number of samples is not zero. -/
theorem cN_ne_zero : Spec.cN ≠ 0 := by
  have h : Spec.cN = ((262144 : ℝ) : EReal) := by
    simp [Spec.cN, Ideal.ofBits, Ideal.ieee, -EReal.coe_mul]
    norm_num
  rw [h]
  exact_mod_cast (by norm_num : (262144 : ℝ) ≠ 0)

/-- A sum over the rank-1 indices is the sum over their coordinate. -/
theorem sum_idx1 (f : S262144.Idx → EReal) : ∑ j, f j = ∑ n : Fin 262144, f (ix1 n) := by
  let e : Fin 262144 ≃ S262144.Idx := ⟨ix1, fun j => j 0, fun _ => rfl, fun j => (eq_ix1 j).symm⟩
  exact (Equiv.sum_comp e f).symm

/-- The classification loss. -/
theorem ref_cls (X : (⟨S262144x81, .f32⟩ : BufTy).Contents (Elt Ideal)) (T : (⟨S262144, .i32⟩ : BufTy).Contents (Elt Ideal))
    (hT : Spec.LabelsOk T) :
    val_main_v6 (F := Ideal) X T = fun _ => Spec.cls X T := by
  funext i
  rw [val_main_v6_apply, val_main_v5_apply, val_main_v4_apply, val_main_cst_apply, val_main_cst_0_apply]
  show -(Ideal.div (Ideal.ofBits .f32 0x00000000#32 + ∑ j : S262144.Idx, val_main_v3 (F := Ideal) X T j) Spec.cN)
    = Spec.cls X T
  rw [Ideal.ofBits_zero_f32, zero_add, sum_idx1, neg_div _ _ cN_ne_zero]
  unfold Spec.cls Spec.sumCE
  exact congrArg (fun s => Ideal.div (-s) Spec.cN) (Finset.sum_congr rfl fun n _ => ref_ce_apply X T hT n)

end Cert.ReferenceIdeal.RefValue

end
-- ==== Proof.RefReg.lean ====
/-
  The reference's regression sum. Columns `4 max(label - 1, 0) + j` of the box row are gathered with take_along_axis (in range for labels in 0..80, so the gather reads exactly that column), the smooth-L1 of the difference to the target is multiplied by the foreground indicator entry by entry, and everything is summed over [N, 4]; taking the sum row by row and the common factor (0 or 1) out of a row gives the per-sample form.
-/
import proofs.«419196_j81441169867202_3_alg».proof.Proof.RefRead
import proofs.«419196_j81441169867202_3_alg».proof.Proof.Spec
import proofs.«419196_j81441169867202_3_alg».proof.Proof.LibGatherLast
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.Affine

noncomputable section

open scoped BigOperators

namespace Cert.ReferenceIdeal.RefValue

open Idealize.ShloMosaic Idealize.ShloMosaic.ValueIdx
open Cert.ReferenceIdeal Cert.ReferenceIdeal.Gen Cert.ReferenceIdeal.Read

/-! ## The integer side -/

/-- An integer inside the signed 32-bit range is its own balanced remainder modulo `2 ^ 32`. -/
theorem bmod_small {z : Int} (h₁ : -2 ^ 31 ≤ z) (h₂ : z < 2 ^ 31) : z.bmod (2 ^ 32) = z :=
  Int.bmod_eq_of_le (by omega) (by omega)

/-- The column word of coordinate `j` at label `t`: `4 * max (t - 1) 0 + j`, in 32-bit words. -/
def colWord (t : BitVec 32) (j : Fin 4) : BitVec 32 :=
  IntOp.addi (IntOp.muli (IntOp.maxsi 0#32 (IntOp.subi t 1#32)) 4#32) (BitVec.ofNat 32 j.val)

/-- For a label in `0..80` nothing wraps: the column word reads `4 * max (t - 1) 0 + j`. -/
theorem colWord_toInt {t : BitVec 32} (h0 : 0 ≤ t.toInt) (h80 : t.toInt ≤ 80) (j : Fin 4) :
    (colWord t j).toInt = 4 * max (t.toInt - 1) 0 + (j.val : Int) := by
  have hj := j.isLt
  have e1 : (IntOp.subi t 1#32).toInt = t.toInt - 1 := by
    show (t - 1#32).toInt = _
    rw [BitVec.toInt_sub, show (1#32 : BitVec 32).toInt = 1 from by decide]
    exact bmod_small (by omega) (by omega)
  have e2 : (IntOp.maxsi 0#32 (IntOp.subi t 1#32)).toInt = max (t.toInt - 1) 0 := by
    unfold IntOp.maxsi
    by_cases hs : (IntOp.subi t 1#32).slt 0#32
    · rw [if_pos hs]; rw [BitVec.slt_iff_toInt_lt, e1] at hs
      have : (0#32 : BitVec 32).toInt = 0 := by decide
      omega
    · rw [if_neg hs]; rw [BitVec.slt_iff_toInt_lt, e1] at hs
      have : (0#32 : BitVec 32).toInt = 0 := by decide
      omega
  have e3 : (IntOp.muli (IntOp.maxsi 0#32 (IntOp.subi t 1#32)) 4#32).toInt = 4 * max (t.toInt - 1) 0 := by
    show (IntOp.maxsi 0#32 (IntOp.subi t 1#32) * 4#32).toInt = _
    rw [BitVec.toInt_mul, e2, show (4#32 : BitVec 32).toInt = 4 from by decide]
    rw [bmod_small (by omega) (by omega)]; omega
  show (IntOp.muli (IntOp.maxsi 0#32 (IntOp.subi t 1#32)) 4#32 + BitVec.ofNat 32 j.val).toInt = _
  rw [BitVec.toInt_add, e3, BitVec.toInt_ofNat', bmod_small (z := (j.val : Int)) (by omega) (by omega)]
  exact bmod_small (by omega) (by omega)

/-- Read as a natural number the column word is the column `4 (t - 1) + j` of the label's class. -/
theorem colWord_toNat {t : BitVec 32} (h0 : 0 ≤ t.toInt) (h80 : t.toInt ≤ 80) (j : Fin 4) :
    (colWord t j).toInt.toNat = 4 * (t.toInt.toNat - 1) + j.val := by
  rw [colWord_toInt h0 h80 j]; omega

/-- A fold by `and` from 1 over one-bit words that are all 1 is 1. -/
theorem fold_andi_one {ι : Type} (S : Finset ι) (x : ι → BitVec 1) (b : BitVec 1) (hb : b = 1#1)
    (h : ∀ i ∈ S, x i = 1#1) : S.fold IntOp.andi b x = 1#1 := by
  induction S using Finset.cons_induction with
  | empty => rw [Finset.fold_empty]; exact hb
  | cons a S ha ih =>
    rw [Finset.fold_cons, h a (Finset.mem_cons_self a S), ih (fun i hi => h i (Finset.mem_cons_of_mem hi))]
    rfl

/-- The foreground indicator: the comparison bit `t > 0` read as a number. -/
theorem fg_word (t : BitVec 32) :
    (((IntOp.cmpi .sgt t 0#32).toNat : ℝ) : EReal) = Spec.fg t := by
  unfold Spec.fg
  have h0 : (0#32 : BitVec 32).toInt = 0 := by decide
  by_cases h : 0 < t.toInt
  · rw [if_pos h, (IntOp.cmpi_sgt (x := t) (y := 0#32)).2 (by rw [h0]; exact h)]
    show (((1 : Nat) : ℝ) : EReal) = 1
    rw [Nat.cast_one, EReal.coe_one]
  · have hz : IntOp.cmpi .sgt t 0#32 = 0#1 :=
      eq_zero_of_ne_one (fun e => h (by have := (IntOp.cmpi_sgt (x := t) (y := 0#32)).1 e; rwa [h0] at this))
    rw [if_neg h, hz]
    show (((0 : Nat) : ℝ) : EReal) = 0
    rw [Nat.cast_zero, EReal.coe_zero]

/-! ## The program's stages at coordinates -/

/-- The row index survives the two broadcasts `[N] → [N, 1] → [N, 4]`. -/
theorem idx_v12_v17 (n : Fin 262144) (j : Fin 4) : idx_main_v12 (idx_main_v17 (ix2 n j)) = ix1 n := by
  funext a; match a with | ⟨0, _⟩ => rfl

theorem idx_v32_v33 (n : Fin 262144) (j : Fin 4) : idx_main_v32 (idx_main_v33 (ix2 n j)) = ix1 n := by
  funext a; match a with | ⟨0, _⟩ => rfl

/-- The reshape `[N, 4] → [N, 4, 1]` reads entry `(n, j)`. -/
theorem idx_call3_v5 (n : Fin 262144) (j : Fin 4) (c : Fin 1) : idx_main_call3_v5 (ix3 n j c) = ix2 n j := by
  funext a
  have hn := n.isLt; have hj := j.isLt; have hc := c.isLt
  match a with
  | ⟨0, _⟩ => exact Fin.ext (by show ((n.val * 4 + j.val) * 1 + c.val) / 4 = n.val; omega)
  | ⟨1, _⟩ => exact Fin.ext (by show ((n.val * 4 + j.val) * 1 + c.val) % 4 = j.val; omega)

/-- The columns array `class * 4 + arange 4` at `(n, j)` is the column word of sample `n`'s label. -/
theorem v19_eq (T : (⟨S262144, .i32⟩ : BufTy).Contents (Elt Ideal)) (n : Fin 262144) (j : Fin 4) :
    val_main_v19 (F := Ideal) T (ix2 n j) = colWord (T (ix1 n)) j := by
  rw [val_main_v19_apply, val_main_v17_apply, val_main_v14_apply, val_main_v12_apply, val_main_v11_apply,
    val_main_call2_v1_apply, val_main_v10_apply, val_main_v9_apply, val_main_v13_apply, val_main_v18_apply,
    val_main_v16_apply, val_main_v15_apply, idx_v12_v17]
  rfl

/-- The normalisation `col < 0 ? col + 320 : col` keeps a nonnegative column: the gather's start index is the column
    word. -/
theorem call3_v5_eq (T : (⟨S262144, .i32⟩ : BufTy).Contents (Elt Ideal)) (hT : Spec.LabelsOk T) (n : Fin 262144) (j : Fin 4)
    (c : Fin 1) : val_main_call3_v5 (F := Ideal) T (ix3 n j c) = colWord (T (ix1 n)) j := by
  rw [val_main_call3_v5_apply, idx_call3_v5, val_main_call3_v4_apply, val_main_call3_v1_apply, val_main_call3_v0_apply,
    v19_eq]
  have h := colWord_toInt (hT n).1 (hT n).2 j
  have ht0 := (hT n).1
  have hz : IntOp.cmpi .slt (colWord (T (ix1 n)) j) (0#32) = 0#1 :=
    eq_zero_of_ne_one (fun e => by
      have h1 := (IntOp.cmpi_slt (x := colWord (T (ix1 n)) j) (y := 0#32)).1 e
      rw [show (0#32 : BitVec 32).toInt = 0 from by decide, h] at h1
      omega)
  show Scalar.select (IntOp.cmpi .slt (colWord (T (ix1 n)) j) (0#32)) _ _ = _
  rw [hz, select_zero]

/-- The bounds mask `0 ≤ col ≤ 319` holds at every entry. -/
theorem call3_v11_one (T : (⟨S262144, .i32⟩ : BufTy).Contents (Elt Ideal)) (hT : Spec.LabelsOk T) (n : Fin 262144) (j : Fin 4)
    (c : Fin 1) : val_main_call3_v11 (F := Ideal) T (ix3 n j c) = 1#1 := by
  rw [val_main_call3_v11_apply, val_main_call3_v7_apply, val_main_call3_v10_apply, call3_v5_eq T hT,
    val_main_call3_v6_apply, val_main_call3_v9_apply, val_main_call3_v8_apply]
  have h := colWord_toInt (hT n).1 (hT n).2 j
  have ht0 := (hT n).1
  have ht80 := (hT n).2
  have hj := j.isLt
  refine IntOp.andi_eq_one.2 ⟨IntOp.cmpi_sge.2 ?_, IntOp.cmpi_sle.2 ?_⟩
  · show (0#32 : BitVec 32).toInt ≤ _
    rw [show (0#32 : BitVec 32).toInt = 0 from by decide, h]; omega
  · show _ ≤ (319#32 : BitVec 32).toInt
    rw [show (319#32 : BitVec 32).toInt = 319 from by decide, h]; omega

/-- So its reduction by `and` over the unit axis is 1 everywhere. -/
theorem call3_v12_one (T : (⟨S262144, .i32⟩ : BufTy).Contents (Elt Ideal)) (hT : Spec.LabelsOk T) (i : S262144x4.Idx) :
    val_main_call3_v12 (F := Ideal) T i = 1#1 := by
  unfold val_main_call3_v12
  rw [Host.reduce_eq_fold]
  refine fold_andi_one _ _ _ rfl (fun k _ => ?_)
  exact (congrArg (val_main_call3_v11 (F := Ideal) T) (eq_ix3 k)).trans (call3_v11_one T hT (k 0) (k 1) (k 2))

/-- The gathered box coordinate: column `boxCol t j` of sample `n`'s row. -/
theorem v20_eq (B : (⟨S262144x320, .f32⟩ : BufTy).Contents (Elt Ideal)) (T : (⟨S262144, .i32⟩ : BufTy).Contents (Elt Ideal))
    (hT : Spec.LabelsOk T) (n : Fin 262144) (j : Fin 4) :
    val_main_v20 (F := Ideal) B T (ix2 n j) = B (ix2 n (Spec.boxCol (T (ix1 n)) j)) := by
  rw [val_main_v20_apply, call3_v12_one T hT, select_one]
  unfold val_main_call3_v13
  show Host.gather (Cert.GatherLast.lastDims 262144 320 4 gather_S262144x320_S262144x4x1_S262144x4_n_1_0_0_1_2_11_wf) B
    (val_main_call3_v5 (F := Ideal) T) (ix2 n j) = _
  rw [Cert.GatherLast.gather_last_apply (by decide)]
  refine congrArg B (congrArg (fun q => ix2 n q) (Fin.ext ?_))
  show min (val_main_call3_v5 (F := Ideal) T (ix3 n j (0 : Fin 1))).toInt.toNat (320 - 1)
    = min (4 * ((T (ix1 n)).toInt.toNat - 1) + j.val) 319
  rw [call3_v5_eq T hT, colWord_toNat (hT n).1 (hT n).2 j]

/-- The `where (|d| < 1) (0.5 d d) (|d| - 0.5)` of the difference `d` to the target is the smooth L1 of `d`. -/
theorem v30_eq (B : (⟨S262144x320, .f32⟩ : BufTy).Contents (Elt Ideal)) (T : (⟨S262144, .i32⟩ : BufTy).Contents (Elt Ideal))
    (Y : (⟨S262144x4, .f32⟩ : BufTy).Contents (Elt Ideal)) (i : S262144x4.Idx) :
    val_main_v30 (F := Ideal) B T Y i = Spec.sl1 (val_main_v20 (F := Ideal) B T i - Y i) := by
  rw [val_main_v30_apply, val_main_v24_apply, val_main_v27_apply, val_main_v29_apply, val_main_v26_apply,
    val_main_v22_apply, val_main_v21_apply, val_main_v23_apply, val_main_v25_apply, val_main_v28_apply]
  rfl

/-- The foreground mask converted to a number and broadcast over the 4 coordinates. -/
theorem v33_eq (T : (⟨S262144, .i32⟩ : BufTy).Contents (Elt Ideal)) (n : Fin 262144) (j : Fin 4) :
    val_main_v33 (F := Ideal) T (ix2 n j) = Spec.fg (T (ix1 n)) := by
  rw [val_main_v33_apply, val_main_v32_apply, idx_v32_v33, val_main_v31_apply, val_main_v8_apply, val_main_v7_apply]
  exact fg_word (T (ix1 n))

/-- One entry of the product the reference sums: coordinate `j` of sample `n`. -/
theorem ref_reg_apply (B : (⟨S262144x320, .f32⟩ : BufTy).Contents (Elt Ideal)) (T : (⟨S262144, .i32⟩ : BufTy).Contents (Elt Ideal))
    (Y : (⟨S262144x4, .f32⟩ : BufTy).Contents (Elt Ideal)) (hT : Spec.LabelsOk T) (n : Fin 262144) (j : Fin 4) :
    val_main_v34 (F := Ideal) B T Y (ix2 n j)
      = Spec.sl1 (B (ix2 n (Spec.boxCol (T (ix1 n)) j)) - Y (ix2 n j)) * Spec.fg (T (ix1 n)) := by
  rw [val_main_v34_apply, v30_eq, v33_eq, v20_eq B T hT]
  rfl

/-- The regression sum. -/
theorem ref_sumReg (B : (⟨S262144x320, .f32⟩ : BufTy).Contents (Elt Ideal)) (T : (⟨S262144, .i32⟩ : BufTy).Contents (Elt Ideal))
    (Y : (⟨S262144x4, .f32⟩ : BufTy).Contents (Elt Ideal)) (hT : Spec.LabelsOk T) :
    val_main_v35 (F := Ideal) B T Y = fun _ => Spec.sumReg B T Y := by
  funext i
  rw [val_main_v35_apply]
  show Ideal.ofBits .f32 0x00000000#32 + ∑ k : S262144x4.Idx, val_main_v34 (F := Ideal) B T Y k = Spec.sumReg B T Y
  rw [Ideal.ofBits_zero_f32, zero_add, sum_idx2]
  unfold Spec.sumReg
  refine Finset.sum_congr rfl (fun n _ => ?_)
  rw [Finset.sum_congr rfl (fun j _ => ref_reg_apply B T Y hT n j)]
  -- the common factor of a row is 0 or 1, so it comes out of the row's sum
  unfold Spec.regRow Spec.fg
  by_cases h : 0 < (T (ix1 n)).toInt
  · simp only [if_pos h, mul_one]
  · simp only [if_neg h, mul_zero, Finset.sum_const_zero]

end Cert.ReferenceIdeal.RefValue

end
-- ==== Proof.RefFg.lean ====
/-
  The reference's foreground count. It is summed in 32-bit integers: a sum of 262144 zeros and ones is at most 262144, far below 2³¹, so the integer sum is the count, its conversion to a float is the count as a number — the sum of the indicators as numbers —, `max(1, count)` converts to the maximum of the numbers, and `count > 0` as integers is `count > 0` as numbers.
-/
import proofs.«419196_j81441169867202_3_alg».proof.Proof.RefRead
import proofs.«419196_j81441169867202_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Predicate
import Mathlib.Algebra.BigOperators.Ring.Finset
import Mathlib.Data.EReal.Basic

noncomputable section

open scoped BigOperators

namespace Cert.ReferenceIdeal.RefValue

open Idealize.ShloMosaic Idealize.ShloMosaic.ValueIdx
open Cert.ReferenceIdeal Cert.ReferenceIdeal.Gen Cert.ReferenceIdeal.Read

/-! The count's own lemmas, in their own namespace. -/
namespace Fg

/-- A vector's index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the positions. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The number of foreground samples, as a natural number. -/
def fgCount (T : Spec.ST.Idx → BitVec 32) : ℕ :=
  (Finset.univ.filter fun n : Fin 262144 => 0 < (T (ix1 n)).toInt).card

/-- There are at most as many foreground samples as samples. -/
theorem fgCount_le (T : Spec.ST.Idx → BitVec 32) : fgCount T ≤ 262144 := by
  unfold fgCount
  exact (Finset.card_le_univ _).trans (le_of_eq (Fintype.card_fin _))

/-- The sum of the indicators as numbers is the count. -/
theorem sumFg_eq (T : Spec.ST.Idx → BitVec 32) : Spec.sumFg T = ((fgCount T : ℕ) : EReal) := by
  unfold Spec.sumFg Spec.fg fgCount
  exact Finset.sum_boole _ _

/-- The 32-bit sum, from 0, of words that are each 0 or 1, over every entry of a vector of fewer than 2³² entries, does not
    wrap: it is the number of entries that are 1. -/
theorem toNat_reduce_count_all {n : Nat} (hn : n < 2 ^ 32) (x : IVec ⟨1, ![n]⟩ 32) (p : Fin n → Prop) [DecidablePred p]
    (hx : ∀ a, (x (ix1 a)).toNat = if p a then 1 else 0)
    (h : (⟨1, ![n]⟩ : Shape).ReducesTo [0] ⟨0, ![]⟩) {u : Shape} (hu : 0 < u.numel) (init : u.Idx → BitVec 32)
    (hinit : init (Shape.Idx.first hu) = 0#32) (j : (⟨0, ![]⟩ : Shape).Idx) :
    (Host.reduce IntOp.addi x init h hu j).toNat = (Finset.univ.filter p).card := by
  classical
  rw [Host.reduce_eq_fold, hinit]
  have hall : ∀ i : (⟨1, ![n]⟩ : Shape).Idx, h.drop i = j := fun i => funext fun d => d.elim0
  simp only [hall, Finset.filter_true]
  have hsum : ∑ i : (⟨1, ![n]⟩ : Shape).Idx, (x i).toNat = (Finset.univ.filter p).card := by
    rw [sum_idx1, Finset.card_filter]
    exact Finset.sum_congr rfl fun a _ => hx a
  have hcard : (Finset.univ.filter p).card ≤ n := (Finset.card_le_univ _).trans (le_of_eq (Fintype.card_fin _))
  rw [StableHlo.Predicate.toNat_fold_addi _ _ (by rw [hsum]; omega), hsum]

/-- The word 1 denotes the number 1. -/
theorem one_eq : Spec.one = 1 := by
  simp [Spec.one, Ideal.ofBits, Ideal.ieee, -EReal.coe_mul]; norm_num

/-- A word holding a count below 2³¹ reads, signed, as the count. -/
theorem toInt_of_count {v : BitVec 32} {K : ℕ} (hK : K < 2 ^ 31) (hv : v.toNat = K) : v.toInt = K := by
  rw [StableHlo.Predicate.toInt_eq_toNat_of_lt (by omega), hv]

/-- `max(1, count)` in 32-bit words converts to the maximum of the numbers 1 and the count. -/
theorem sitofp_maxsi_one {v : BitVec 32} {K : ℕ} (hK : K < 2 ^ 31) (hv : v.toNat = K) :
    (((IntOp.maxsi 1#32 v).toInt : ℝ) : EReal) = max Spec.one ((K : ℕ) : EReal) := by
  have hi := toInt_of_count hK hv
  have e1 : (1#32 : BitVec 32).toInt = 1 := by decide
  rw [one_eq]
  by_cases h0 : K = 0
  · have hm : IntOp.maxsi 1#32 v = 1#32 := by
      unfold IntOp.maxsi
      exact if_pos (by rw [BitVec.slt_iff_toInt_lt, hi, e1, h0]; decide)
    rw [hm, e1, h0]
    simp
  · have hm : IntOp.maxsi 1#32 v = v := by
      unfold IntOp.maxsi
      exact if_neg (by rw [BitVec.slt_iff_toInt_lt, hi, e1]; omega)
    rw [hm, hi, max_eq_right (by exact_mod_cast Nat.one_le_iff_ne_zero.2 h0)]
    simp

/-- `count > 0` on 32-bit words is `count > 0` on the numbers. -/
theorem cmpi_sgt_zero {v : BitVec 32} {K : ℕ} (hK : K < 2 ^ 31) (hv : v.toNat = K) :
    IntOp.cmpi .sgt v 0#32 = Ideal.cmp .ogt ((K : ℕ) : EReal) Spec.zero := by
  have hi := toInt_of_count hK hv
  have e0 : (0#32 : BitVec 32).toInt = 0 := by decide
  have hz : Spec.zero = 0 := Ideal.ofBits_zero_f32
  rw [hz]
  unfold IntOp.cmpi Ideal.cmp
  refine congrArg BitVec.ofBool ?_
  show (0#32 : BitVec 32).slt v = decide ((0 : EReal) < ((K : ℕ) : EReal))
  rw [Bool.eq_iff_iff, BitVec.slt_iff_toInt_lt, hi, e0, decide_eq_true_iff]
  exact ⟨fun h => by exact_mod_cast h, fun h => by exact_mod_cast h⟩

/-! ## The reference's stages -/

/-- The widened indicator of one sample is 1 at a positive label and 0 elsewhere. -/
theorem v36_toNat (T : (⟨S262144, .i32⟩ : BufTy).Contents (Elt Ideal)) (a : Fin 262144) :
    (val_main_v36 (F := Ideal) T (ix1 a)).toNat = if 0 < (T (ix1 a)).toInt then 1 else 0 := by
  rw [val_main_v36_apply, StableHlo.Predicate.toNat_setWidth_bit, val_main_v8_apply, val_main_v7_apply, val_main_c_apply]
  refine if_congr ?_ rfl rfl
  rw [IntOp.cmpi_sgt, show (0#32 : BitVec 32).toInt = 0 from by decide]

/-- The 32-bit sum of the indicators is the count. -/
theorem v37_toNat (T : (⟨S262144, .i32⟩ : BufTy).Contents (Elt Ideal)) (j : S_.Idx) :
    (val_main_v37 (F := Ideal) T j).toNat = fgCount T := by
  unfold val_main_v37 fgCount
  exact toNat_reduce_count_all (by norm_num) (val_main_v36 (F := Ideal) T) _ (v36_toNat T) reducesTo_S262144_S_d0 h_S_ _ rfl j

/-- The count is far below 2³¹. -/
theorem fgCount_lt (T : Spec.ST.Idx → BitVec 32) : fgCount T < 2 ^ 31 :=
  lt_of_le_of_lt (fgCount_le T) (by norm_num)

end Fg

open Fg

/-- The divisor: the foreground count, at least 1, as a number. -/
theorem ref_denom (T : (⟨S262144, .i32⟩ : BufTy).Contents (Elt Ideal)) :
    val_main_v39 (F := Ideal) T = fun _ => max Spec.one (Spec.sumFg T) := by
  funext j
  rw [val_main_v39_apply, val_main_v38_apply, val_main_c_9_apply, sumFg_eq]
  exact sitofp_maxsi_one (fgCount_lt T) (v37_toNat T j)

/-- The guard: is there a foreground sample. -/
theorem ref_pos (T : (⟨S262144, .i32⟩ : BufTy).Contents (Elt Ideal)) :
    val_main_v40 (F := Ideal) T = fun _ => Ideal.cmp .ogt (Spec.sumFg T) Spec.zero := by
  funext j
  rw [val_main_v40_apply, val_main_c_10_apply, sumFg_eq]
  exact cmpi_sgt_zero (fgCount_lt T) (v37_toNat T j)

end Cert.ReferenceIdeal.RefValue

end
-- ==== Proof.RefValue.lean ====
/-
  The reference's three results are the three losses.

  Its classification loss is minus the mean of the gathered log-probabilities; its regression loss divides the foreground
  regression sum by the foreground count (at least 1), guarded by "there is a foreground sample"; the total adds them.
-/
import proofs.«419196_j81441169867202_3_alg».proof.Proof.RefRun
import proofs.«419196_j81441169867202_3_alg».proof.Proof.RefRead
import proofs.«419196_j81441169867202_3_alg».proof.Proof.RefStages
import proofs.«419196_j81441169867202_3_alg».proof.Proof.RefCE
import proofs.«419196_j81441169867202_3_alg».proof.Proof.RefReg
import proofs.«419196_j81441169867202_3_alg».proof.Proof.RefFg

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The regression loss. -/
theorem ref_reg (B : (⟨S262144x320, .f32⟩ : BufTy).Contents (Elt Ideal)) (T : (⟨S262144, .i32⟩ : BufTy).Contents (Elt Ideal))
    (Y : (⟨S262144x4, .f32⟩ : BufTy).Contents (Elt Ideal)) (hT : Spec.LabelsOk T) :
    val_main_v42 (F := Ideal) B T Y = fun _ => Spec.reg B T Y := by
  funext i
  rw [val_main_v42_apply, val_main_v41_apply, ref_pos, ref_denom, ref_sumReg B T Y hT]
  rfl

/-- The total loss. -/
theorem ref_total (X : (⟨S262144x81, .f32⟩ : BufTy).Contents (Elt Ideal)) (B : (⟨S262144x320, .f32⟩ : BufTy).Contents (Elt Ideal))
    (T : (⟨S262144, .i32⟩ : BufTy).Contents (Elt Ideal)) (Y : (⟨S262144x4, .f32⟩ : BufTy).Contents (Elt Ideal)) (hT : Spec.LabelsOk T) :
    val_main_v44 (F := Ideal) X B T Y = fun _ => Spec.total X B T Y := by
  funext i
  rw [val_main_v44_apply, val_main_v43_apply, ref_cls X T hT, ref_reg B T Y hT]
  rfl

variable (m : (ℓ : Loc nD τ sig) → Buf (Elt Ideal) ℓ) (ρ : Dev nD → PrngReg)

/-- The reference's run with its results named: total, classification and regression loss of the arguments. -/
theorem run (hT : ∀ c : Dev nD, Spec.LabelsOk (m ((c.tc : Thread nD τ).loc main_arg2))) :
    θ_run defs (onTc (τ := τ) (main (F := Ideal))) ⟨m, fun _ => 0, ρ⟩ fun r => ∀ c : Dev nD,
      r.2.mem ((c.tc : Thread nD τ).loc main_v44)
          = (fun _ => Spec.total (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_v6)
          = (fun _ => Spec.cls (m ((c.tc : Thread nD τ).loc main_arg0)) (m ((c.tc : Thread nD τ).loc main_arg2)))
      ∧ r.2.mem ((c.tc : Thread nD τ).loc main_v42)
          = (fun _ => Spec.reg (m ((c.tc : Thread nD τ).loc main_arg1)) (m ((c.tc : Thread nD τ).loc main_arg2))
              (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (ref_total _ _ _ _ (hT c)),
     (h c).2.1.trans (ref_cls _ _ (hT c)),
     (h c).2.2.1.trans (ref_reg _ _ _ (hT c)),
     (h c).2.2.2⟩)
    (Cert.ReferenceIdeal.RefStages.run (F := Ideal) m ρ)

end Cert.ReferenceIdeal.RefValue

end
-- ==== Proof.PreDecode.lean ====
/-
  What the precondition says of the labels: the last conjunct, `all (0 ≤ label ≤ 80)`, read entry by entry.
-/
import proofs.«419196_j81441169867202_3_alg».proof.Pre_finite_inputs
import proofs.«419196_j81441169867202_3_alg».proof.Proof.Spec
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- Under the precondition every label is in 0..80. -/
theorem labelsOk_of_pre (X : FVec Ideal S262144x81 .f32) (B : FVec Ideal S262144x320 .f32) (T : IVec S262144 32)
    (Y : FVec Ideal S262144x4 .f32) (h : Cert.Pre_finite_inputs.fn (F := Ideal) X B T Y = fun _ => 1#1) :
    Spec.LabelsOk T := by
  intro n
  -- the result of a reduction over every axis has one index
  haveI : Subsingleton S_.Idx := ⟨fun a b => funext fun d => d.elim0⟩
  have h0 := congrFun h ValueIdx.ix0
  dsimp only [Cert.Pre_finite_inputs.fn, Cert.Pre_finite_inputs.fn_part1] at h0
  have h1 := (IntOp.andi_eq_one.1 h0).2
  have h2 := IntOp.andi_eq_one.1 (Host.reduce_andi_all _ _ _ _ _ h1 (ix1 n))
  have ha : (0#32 : BitVec 32).toInt ≤ (T (ix1 n)).toInt := IntOp.cmpi_sge.1 h2.1
  have hb : (T (ix1 n)).toInt ≤ (80#32 : BitVec 32).toInt := IntOp.cmpi_sle.1 h2.2
  have e0 : (0#32 : BitVec 32).toInt = 0 := by decide
  have e80 : (80#32 : BitVec 32).toInt = 80 := by decide
  exact ⟨e0 ▸ ha, e80 ▸ hb⟩

end Cert.PreDecode

end
-- ==== Proof.lean ====
/-
  The certificate: the kernel and the reference compute the same three losses.

  Both programs' results are written as ONE function of the argument arrays (Proof/Spec.lean): the total, the classification and the
  regression loss. The kernel's side is Proof/KValue.lean (its grid accumulates three sums tile by tile, two cores of 32 tiles of
  4096 samples, and its host tail closes the arithmetic); the reference's side is Proof/RefValue.lean (log-softmax, two gathers, a
  masked smooth-L1 sum, an integer count). They agree for labels in 0..80, which the precondition states (Proof/PreDecode.lean);
  outside that range the reference's gathers answer a fill value or count from the end of the row, and the kernel's masks select nothing.
  The frames are the generated ones; the reference, a host program, is framed by its run.
-/
import proofs.«419196_j81441169867202_3_alg».proof.Defs
import proofs.«419196_j81441169867202_3_alg».proof.Proof.Gen.Kernel
import proofs.«419196_j81441169867202_3_alg».proof.Proof.Gen.Kernel.Skeleton
import proofs.«419196_j81441169867202_3_alg».proof.Proof.Gen.Kernel.Launch
import proofs.«419196_j81441169867202_3_alg».proof.Proof.Gen.Kernel.Points
import proofs.«419196_j81441169867202_3_alg».proof.Proof.Gen.Kernel.Frame
import proofs.«419196_j81441169867202_3_alg».proof.Proof.Gen.KernelIdeal
import proofs.«419196_j81441169867202_3_alg».proof.Proof.Gen.KernelIdeal.Skeleton
import proofs.«419196_j81441169867202_3_alg».proof.Proof.Gen.KernelIdeal.Launch
import proofs.«419196_j81441169867202_3_alg».proof.Proof.Gen.KernelIdeal.Points
import proofs.«419196_j81441169867202_3_alg».proof.Proof.Gen.KernelIdeal.Frame
import proofs.«419196_j81441169867202_3_alg».proof.Proof.Gen.ReferenceIdeal
import proofs.«419196_j81441169867202_3_alg».proof.Proof.Gen.Pre_finite_inputs
import proofs.«419196_j81441169867202_3_alg».proof.Proof.RefRun
import proofs.«419196_j81441169867202_3_alg».proof.Proof.RefRead
import proofs.«419196_j81441169867202_3_alg».proof.Proof.RefStages
import proofs.«419196_j81441169867202_3_alg».proof.Proof.KValue
import proofs.«419196_j81441169867202_3_alg».proof.Proof.RefValue
import proofs.«419196_j81441169867202_3_alg».proof.Proof.PreDecode
import Idealize.ShloMosaic.Adequacy
import Idealize.ShloMosaic.Init

noncomputable section

namespace Cert.Proof

open Idealize.ShloMosaic Idealize.SL.Sem

/-- Under the precondition the kernel's labels are labels. -/
theorem labels_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Spec.LabelsOk (Cert.KernelIdeal.KDefs.T m c) :=
  @Cert.PreDecode.labelsOk_of_pre Cert.Pre_finite_inputs.Gen.facts _ _ _ _ (h c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2)
    (Cert.ReferenceIdeal.RefStages.run (F := Ideal) m ρ),
  trivial,
  fun m ρ m' ρ' hpre hagree =>
    have hT : ∀ c, Spec.LabelsOk (Cert.KernelIdeal.KDefs.T m c) := labels_of_pre m hpre
    have hT' : ∀ c : Dev Cert.ReferenceIdeal.nD,
        Spec.LabelsOk (m' ((c.tc : Thread Cert.ReferenceIdeal.nD Cert.ReferenceIdeal.τ).loc Cert.ReferenceIdeal.main_arg2)) :=
      fun c => by rw [(hagree c).2.2.1]; exact hT c
    ⟨fun c => (fun _ => Spec.total (Cert.KernelIdeal.KDefs.X m c) (Cert.KernelIdeal.KDefs.B m c) (Cert.KernelIdeal.KDefs.T m c) (Cert.KernelIdeal.KDefs.Y m c)),
     fun c => (fun _ => Spec.cls (Cert.KernelIdeal.KDefs.X m c) (Cert.KernelIdeal.KDefs.T m c)),
     fun c => (fun _ => Spec.reg (Cert.KernelIdeal.KDefs.B m c) (Cert.KernelIdeal.KDefs.T m c) (Cert.KernelIdeal.KDefs.Y m c)),
     Cert.KernelIdeal.KValue.run m ρ hT,
     (θ_run Cert.ReferenceIdeal.defs _ _).mono (fun _ h c =>
        ⟨by rw [(h c).1, (hagree c).1, (hagree c).2.1, (hagree c).2.2.1, (hagree c).2.2.2]; rfl,
         by rw [(h c).2.1, (hagree c).1, (hagree c).2.2.1]; rfl,
         by rw [(h c).2.2.1, (hagree c).2.1, (hagree c).2.2.1, (hagree c).2.2.2]; rfl,
         (h c).2.2.2⟩)
       (Cert.ReferenceIdeal.RefValue.run m' ρ' hT')⟩⟩

end Cert.Proof

end
